-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S128x1024 : Shape := ⟨2, ![128, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_

variable [Facts]

def fn_part1 {F : FTy → Type} [FloatOps F] (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  main_v18

def fn {F : FTy → Type} [FloatOps F] (main_arg0 : FVec F S4x4096x1024 .f32) (main_arg1 : FVec F S128x1024 .f32) (main_arg2 : FVec F S128x1024 .f32) (main_arg3 : FVec F S128x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_v13 main_v16
-- ==== Kernel.lean ====
abbrev S4x4096x1024 : Shape := ⟨3, ![4, 4096, 1024]⟩
abbrev S128x1024 : Shape := ⟨2, ![128, 1024]⟩
abbrev S16384x1024 : Shape := ⟨2, ![16384, 1024]⟩
abbrev S1024x128 : Shape := ⟨2, ![1024, 128]⟩
abbrev S_ : Shape := ⟨0, ![]⟩
abbrev S1024x384 : Shape := ⟨2, ![1024, 384]⟩
abbrev S16384x384 : Shape := ⟨2, ![16384, 384]⟩
abbrev S1024x1024 : Shape := ⟨2, ![1024, 1024]⟩
abbrev S4x4096x384 : Shape := ⟨3, ![4, 4096, 384]⟩
abbrev S4x4096x128 : Shape := ⟨3, ![4, 4096, 128]⟩
abbrev S1x1024x128 : Shape := ⟨3, ![1, 1024, 128]⟩
abbrev S1024x1 : Shape := ⟨2, ![1024, 1]⟩
abbrev S1024 : Shape := ⟨1, ![1024]⟩

abbrev nBuf : Space → Nat
  | .hbm => 15
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S16384x1024, .f32⟩
  | .hbm, ⟨5, _⟩ => ⟨S1024x128, .f32⟩
  | .hbm, ⟨6, _⟩ => ⟨S_, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x384, .f32⟩
  | .hbm, ⟨12, _⟩ => ⟨S16384x384, .bf16⟩
  | .hbm, ⟨13, _⟩ => ⟨S4x4096x384, .bf16⟩
  | .hbm, ⟨14, _⟩ => ⟨S4x4096x128, .f32⟩
  | .local _ .vmem, ⟨0, _⟩ => ⟨S1024x1024, .f32⟩
  | .local _ .vmem, ⟨1, _⟩ => ⟨S1024x1024, .f32⟩
  | .local _ .vmem, ⟨2, _⟩ => ⟨S1024x384, .f32⟩
  | .local _ .vmem, ⟨3, _⟩ => ⟨S1024x384, .bf16⟩
  | .local _ .vmem, ⟨4, _⟩ => ⟨S1024x384, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .f32⟩
  | .local _ .vmem, ⟨12, _⟩ => ⟨S1x1024x128, .f32⟩
  | .local _ .vmem, ⟨13, _⟩ => ⟨S1024x1, .f32⟩
  | .local _ .vmem, ⟨14, _⟩ => ⟨S1024x1, .f32⟩
  | .local _ .vmem, ⟨15, _⟩ => ⟨S1024x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_26 : BitVec 32 := 0#32
  let v42 : BitVec 1 := Scalar.cmpi .ne v41 c0_i32_26
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg2.toNat, c2_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x4096x1024_S16384x1024 : S4x4096x1024.ShapeCasts S16384x1024
  transposes_S128x1024_S1024x128_1_0 : S128x1024.Transposes [1, 0] S1024x128
  bcast_S_S1024x128 : S_.BroadcastsInDim S1024x128 (![] : Fin 0 → Fin S1024x128.rank)
  concatenates_S1024x128_S1024x128_S1024x128_S1024x384_d1 : Shape.Concatenates [S1024x128, S1024x128, S1024x128] S1024x384 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  packedbf16_S1024x384_S1024x384_0_0 : (Rect.unit (s := S1024x384) ![0, 0] S1024x384.size inb_S1024x384_S1024x384_0_0).PackedRows (EltTy.packing .bf16)
  shapeCasts_S16384x384_S4x4096x384 : S16384x384.ShapeCasts S4x4096x384
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  shapeCasts_S1024x128_S1x1024x128 : S1024x128.ShapeCasts S1x1024x128
  dot_S1024x1024_S1024x384_S1024x384_1_0_0_1_n_n_wf : DotDims.WF S1024x1024 S1024x384 S1024x384 [1] [0] [0] [1] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .f32 = 32 ∨ (Rect.block (s := S1024x384) S1024x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x384.size a ≤ S16384x384.size a
  hwx0_2 : ∀ i : grid0.Coords, EltTy.bits .bf16 = 32 ∨ (Rect.block (s := S16384x384) S1024x384.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S4x4096x384.size a
  hwx1_0 : ∀ i : grid1.Coords, EltTy.bits .bf16 = 32 ∨ (Rect.block (s := S4x4096x384) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S4x4096x384.size a
  hwx1_1 : ∀ i : grid1.Coords, EltTy.bits .bf16 = 32 ∨ (Rect.block (s := S4x4096x384) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S4x4096x384.size a
  hwx1_2 : ∀ i : grid1.Coords, EltTy.bits .bf16 = 32 ∨ (Rect.block (s := S4x4096x384) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S4x4096x128.size a
  hwx1_3 : ∀ i : grid1.Coords, EltTy.bits .f32 = 32 ∨ (Rect.block (s := S4x4096x128) S1x1024x128.size (cc1_transform_3 i) (hinb1_3 i)).WholeWords (EltTy.packing .f32)

variable [Facts₀]

def dot_S1024x1024_S1024x384_S1024x384_1_0_0_1_n_n : DotDims S1024x1024 S1024x384 S1024x384 where
  lhsContracting := [1]
  rhsContracting := [0]
  lhsNonContracting := [0]
  rhsNonContracting := [1]
  lhsBatch := []
  rhsBatch := []
  wf := dot_S1024x1024_S1024x384_S1024x384_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S128x1024 : Shape := ⟨2, ![128, 1024]⟩
abbrev S4x4096x128 : Shape := ⟨3, ![4, 4096, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S4x4096x128, .f32⟩
  | .hbm, ⟨5, _⟩ => ⟨S4x4096x128, .f32⟩
  | .hbm, ⟨6, _⟩ => ⟨S4x4096x128, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S128x1024_S4x4096x128_2_1_01_0_n_n_wf : DotDims.WF S4x4096x1024 S128x1024 S4x4096x128 [2] [1] [0, 1] [0] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x1024_S128x1024_S4x4096x128_2_1_01_0_n_n : DotDims S4x4096x1024 S128x1024 S4x4096x128 where
  lhsContracting := [2]
  rhsContracting := [1]
  lhsNonContracting := [0, 1]
  rhsNonContracting := [0]
  lhsBatch := []
  rhsBatch := []
  wf := dot_S4x4096x1024_S128x1024_S4x4096x128_2_1_01_0_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.BitsProj.lean ====
/-
  Region 0 of the kernel program: the fused projection. At grid point `t` (one of 16 row tiles) the body reads the
  tile `x[1024·t .. 1024·t+1023, :]` (1024 × 1024) and the whole weight matrix (1024 × 384, fetched once and kept),
  multiplies them onto a zero accumulator and stores the 1024 × 384 product over the whole output tile. So the output
  tile after the body is one pure function of the two input blocks, and the body keeps no state between points.
  Everything here is stated at a parameter `V`: the contents of the core's buffers when the region is entered.
-/
import proofs.«416957_j77120432767536_3_alg».proof.Proof.Gen.Kernel.Launch
import proofs.«416957_j77120432767536_3_alg».proof.Proof.Gen.Kernel.Skeleton
import proofs.«416957_j77120432767536_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of `x` at point `t`, at its literal type. -/
abbrev xTile (c : Dev nD) (t : Fin cfg0.N) : Vec F S1024x1024 .f32 := iblk0 V c 0 t
/-- The weight matrix as point `t` finds it (the same block at every point), at its literal type. -/
abbrev wMat (c : Dev nD) (t : Fin cfg0.N) : Vec F S1024x384 .f32 := iblk0 V c 1 t

/-- An input window's current staging buffer holds its block at every point, fetched there or not: where it is not
    fetched the block index has not moved and the body left the block in place. One statement per window, at the
    literal window number, so that the printed window table reduces. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t) (t : Fin cfg0.N) (d) :
    dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t) (t : Fin cfg0.N) (d) :
    dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches in the output tile: all of it. -/
abbrev rOut0 : Rect S1024x384 := Rect.unit (s := S1024x384) ![0, 0] S1024x384.size inb_S1024x384_S1024x384_0_0

theorem hzOut0 : (![0, 0] : Fin S1024x384.rank → ℕ) = fun _ => 0 := by
  funext a; match a with | ⟨0, _⟩ => rfl | ⟨1, _⟩ => rfl
theorem hzX0 : (![0, 0] : Fin S1024x1024.rank → ℕ) = fun _ => 0 := by
  funext a; match a with | ⟨0, _⟩ => rfl | ⟨1, _⟩ => rfl

set_option maxHeartbeats 1000000 in
/-- The projection body on whole staging memrefs: the inputs at `x`, `w`, the output at anything, runs to the
    continuation with the inputs unchanged and the output tile at the product payload of the two. -/
theorem sound_kernel0 (c : Dev nD) (E : Set ℕ) (i : grid0.Coords) (arg1 : Memref sig .tc .vmem S1024x1024 .f32) (harg1 : arg1.IsWhole)
    (arg2 : Memref sig .tc .vmem S1024x384 .f32) (harg2 : arg2.IsWhole) (arg3 : Memref sig .tc .vmem S1024x384 .bf16) (harg3 : arg3.IsWhole)
    (x : Vec F S1024x1024 .f32) (w : Vec F S1024x384 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (k0_pay1 x w)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (View.cover_of_tiled [⟨rOut0, _⟩] S1024x384.size (by rfl)), View.canon_unit_zero hzOut0]
  simp only [View.readAt_eq_ld, View.ld_unit_zero (S := S1024x1024) hzX0, View.ld_unit_zero (S := S1024x384) hzOut0]

/-- The proof data of pipeline 0 on core `c`: arrays as the region finds them; each input's buffer stays at its
    block, the output tile is the product payload of the two blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (xTile V c t) (wMat V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (xTile V c t) (wMat V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The library's body obligation for the projection, at every point. -/
theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)))
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (xTile V c t) (wMat V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Hand

end
-- ==== Proof.BitsFlashDefs.lean ====
/-
  Region 1 of the kernel program: attention over key/value tiles with a running softmax. The grid is (batch, query
  tile, key tile) = 4 × 4 × 4, the key tile innermost. The body keeps three buffers between points: the running row
  maximum `m`, the running denominator `l` and the running numerator `acc`. At a point whose key-tile coordinate is 0 it
  first resets them to (−∞, 0, 0); at every point it folds the point's key and value tiles into them; at a point
  whose key-tile coordinate is 3 it stores `acc / l` into the output tile. The three input windows read one array
  (the fused q | k | v matrix), at three different lane blocks.
  Everything here is stated at a parameter `V`: the contents of the core's buffers when the region is entered.
  This module holds the definitions every other module of the region shares: the blocks, the carried state as a
  recursion over the point number, the invariant, the proof data, and where the body's two conditions hold.
-/
import proofs.«416957_j77120432767536_3_alg».proof.Proof.Gen.Kernel.Launch
import proofs.«416957_j77120432767536_3_alg».proof.Proof.Gen.Kernel.Skeleton
import proofs.«416957_j77120432767536_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query, key and value tiles of point `t`, at their literal type. -/
abbrev qTile (c : Dev nD) (t : Fin cfg1.N) : Vec F S1x1024x128 .bf16 := iblk1 V c 0 t
abbrev kTile (c : Dev nD) (t : Fin cfg1.N) : Vec F S1x1024x128 .bf16 := iblk1 V c 1 t
abbrev vTile (c : Dev nD) (t : Fin cfg1.N) : Vec F S1x1024x128 .bf16 := iblk1 V c 2 t

/-- An input window's current staging buffer holds its block at every point, fetched there or not (the query tile is
    fetched only where the key-tile coordinate is 0 and kept in place over the next three points). -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t) (t : Fin cfg1.N) (d) :
    dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t) (t : Fin cfg1.N) (d) :
    dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t) (t : Fin cfg1.N) (d) :
    dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The carried state -/

/-- Running maximum (1024 × 1), running denominator (1024 × 1), running numerator (1024 × 128). -/
abbrev Sc (F : FTy → Type) [FloatOps F] : Type := Vec F S1024x1 .f32 × Vec F S1024x1 .f32 × Vec F S1024x128 .f32

/-- The state a reset leaves: (−∞, 0, 0), each broadcast over its buffer. -/
def scInit : Sc F := (k1_pay4 (F := F), k1_pay5 (F := F), k1_pay6 (F := F))

/-- One point's fold of a key tile and a value tile into the state `s` the point starts from (after the reset, if
    the point resets): the new maximum, the rescaled denominator plus the tile's row sums of exponentials, the
    rescaled numerator plus the tile's weighted values. -/
def scStep (q k v : Vec F S1x1024x128 .bf16) (s : Sc F) : Sc F :=
  (k1_pay2 (k1_pay8 q k s.1),
   k1_pay11 q k s.1 s.1 s.2.1,
   k1_pay1 (k1_pay9 q k s.1 s.1) (k1_pay12 q k s.1 v) s.2.2)

/-- The state after point `n`: a recursion over the point number that restarts from the reset state at every point
    whose number is a multiple of 4 (key-tile coordinate 0). -/
def scN (c : Dev nD) : (n : ℕ) → n < cfg1.N → Sc F
  | 0, h => scStep (qTile V c ⟨0, h⟩) (kTile V c ⟨0, h⟩) (vTile V c ⟨0, h⟩) scInit
  | n + 1, h => scStep (qTile V c ⟨n + 1, h⟩) (kTile V c ⟨n + 1, h⟩) (vTile V c ⟨n + 1, h⟩)
      (if (n + 1) % 4 = 0 then scInit else scN c n (Nat.lt_of_succ_lt h))

/-- What a point that stores the output leaves in the output tile: numerator over denominator, row by row. -/
def outTile (s : Sc F) : Vec F S1x1024x128 .f32 := k1_pay3 s.2.2 s.2.1

/-! ## The invariant -/

/-- The three scratch operands, whole buffers of the kernel's own. -/
abbrev scM0 : Memref sig .tc .vmem S1024x1 .f32 := Memref.whole cc1_scratch0
abbrev scM1 : Memref sig .tc .vmem S1024x1 .f32 := Memref.whole cc1_scratch1
abbrev scM2 : Memref sig .tc .vmem S1024x128 .f32 := Memref.whole cc1_scratch2

/-- The other region's staging buffers: scoped buffers this region's body never names, each whole at some contents. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- What is known of the scratch contents `s` before point `t`: nothing where the point resets them (and after the
    last point), else that they are the state after the point before. -/
def Tracked (c : Dev nD) (t : Fin (cfg1.N + 1)) (s : Sc F) : Prop :=
  ∀ h0 : t.val % 4 ≠ 0, s = scN V c (t.val - 1) (by have := t.isLt; omega)

/-- The invariant before point `t`: the other region's staging buffers, the three scratch buffers at tracked
    contents, the generator register at some state. -/
def Φ1 (c : Dev nD) (t : Fin (cfg1.N + 1)) : sProp 𝕄 :=
  iprop(otherStaging (F := F) c
    ∗ (∃ s : Sc F, ⌜Tracked V c t s⌝ ∗ owns (c : Thread nD τ) scM0 fullShare s.1 ∗ owns (c : Thread nD τ) scM1 fullShare s.2.1
        ∗ owns (c : Thread nD τ) scM2 fullShare s.2.2)
    ∗ ∃ r, prngReg c r)

/-! ## The proof data -/

/-- The three shares the one input array is held at, one per input window: together the full share. -/
abbrev shQ : PosShare TreeShare := fullShare.left
abbrev shK : PosShare TreeShare := fullShare.right.left
abbrev shV : PosShare TreeShare := fullShare.right.right

/-- The proof data of pipeline 1 on core `c`: arrays as the region finds them; each input's buffer stays at its block;
    the output tile after point `t` is numerator over denominator of the state after `t` (read only where the point
    stores it); the invariant tracks the scratch; nothing owed; the input array split three ways. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outTile (scN V c t.val t.isLt)
  Φ t := Φ1 V c t
  q w := match w with
    | ⟨0, _⟩ => shQ
    | ⟨1, _⟩ => shK
    | ⟨2, _⟩ => shV
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outTile (scN V c t.val t.isLt) := by dsimp only [dat1]
theorem Phi1_eq (c : Dev nD) (t : Fin (cfg1.N + 1)) : (dat1 V c).Φ t = Φ1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's two conditions, in closed form over the grid -/

/-- The reset condition: the key-tile coordinate is 0. -/
abbrev cond1_0 (i : grid1.Coords) : Prop :=
  (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The store condition: the key-tile coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- Where the output is not stored its window is idle and not written back; where it is stored the window is live. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

end Cert.Kernel.Hand

end
-- ==== Proof.BitsFlashBody.lean ====
/-
  The body obligation of region 1: at every grid point the attention body, run from the invariant and the windows'
  current buffers, reaches the invariant of the next point with the scratch at the state after this point, and
  leaves the output tile stored where the key-tile coordinate is 3 and untouched elsewhere.
-/
import proofs.«416957_j77120432767536_3_alg».proof.Proof.BitsFlashDefs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Zero offsets, however spelt -/

theorem hzCol : (![0, 0] : Fin S1024x1.rank → ℕ) = fun _ => 0 := by
  funext a; match a with | ⟨0, _⟩ => rfl | ⟨1, _⟩ => rfl
theorem hzAcc : (![0, 0] : Fin S1024x128.rank → ℕ) = fun _ => 0 := by
  funext a; match a with | ⟨0, _⟩ => rfl | ⟨1, _⟩ => rfl
theorem hzTile : (![0, 0, 0] : Fin S1x1024x128.rank → ℕ) = fun _ => 0 := by
  funext a; match a with | ⟨0, _⟩ => rfl | ⟨1, _⟩ => rfl | ⟨2, _⟩ => rfl

/-! ## The whole-buffer rectangles the body loads and stores through -/

abbrev rCol : Rect S1024x1 := Rect.unit (s := S1024x1) ![0, 0] S1024x1.size inb_S1024x1_S1024x1_0_0
abbrev rAcc : Rect S1024x128 := Rect.unit (s := S1024x128) ![0, 0] S1024x128.size inb_S1024x128_S1024x128_0_0
abbrev rTile : Rect S1x1024x128 := Rect.unit (s := S1x1024x128) ![0, 0, 0] S1x1024x128.size inb_S1x1024x128_S1x1024x128_0_0_0

set_option maxHeartbeats 1000000 in
/-- A point that resets and does not store the output: whatever the scratch held, it ends at
    `scStep q k v scInit`; everything else is handed back as found. -/
theorem sound_kernel1_A (c : Dev nD) (E : Set ℕ) (i : grid1.Coords)
    (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole) (hc0 : cond1_0 i) (hc1 : ¬cond1_1 i)
    (q k v : Vec F S1x1024x128 .bf16) (xi : Vec F S1x1024x128 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare xi
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare q ∗ owns (c : Thread nD τ) arg4 fullShare k ∗ owns (c : Thread nD τ) arg5 fullShare v
            ∗ owns (c : Thread nD τ) arg6 fullShare xi
            ∗ owns (c : Thread nD τ) arg7 fullShare (scStep q k v (scInit (F := F))).1 ∗ owns (c : Thread nD τ) arg8 fullShare (scStep q k v (scInit (F := F))).2.1
            ∗ owns (c : Thread nD τ) arg9 fullShare (scStep q k v (scInit (F := F))).2.2) -∗ K ⟨⟩))
      ⊢ wp frame (wpE (defs₀ (F := F)) Variants.none c none) E
          (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (View.cover_of_tiled [⟨rCol, _⟩, ⟨rCol, _⟩] S1024x1.size (by rfl)), View.canon_cons_unit_zero (S := S1024x1) hzCol]
    simp only [View.readAt_eq_ld, View.ld_unit_zero (S := S1x1024x128) hzTile, View.ld_unit_zero (S := S1024x1) hzCol,
      View.readCov_unit_zero (S := S1024x1) _ hzCol]
    rfl
  isplitl [H8]
  · iexists _; isplitr
    swap; · iexact H8
    ipureintro
    sl_unfold_words
    rw [View.read_writes_eq_canon _ _ _ (View.cover_of_tiled [⟨rCol, _⟩, ⟨rCol, _⟩] S1024x1.size (by rfl)), View.canon_cons_unit_zero (S := S1024x1) hzCol]
    simp only [View.readAt_eq_ld, View.ld_unit_zero (S := S1x1024x128) hzTile, View.ld_unit_zero (S := S1024x1) hzCol,
      View.readCov_unit_zero (S := S1024x1) _ hzCol]
    rfl
  iexists _; isplitr
  swap; · iexact H9
  ipureintro
  sl_unfold_words
  rw [View.read_writes_eq_canon _ _ _ (View.cover_of_tiled [⟨rAcc, _⟩, ⟨rAcc, _⟩] S1024x128.size (by rfl)), View.canon_cons_unit_zero (S := S1024x128) hzAcc]
  simp only [View.readAt_eq_ld, View.ld_unit_zero (S := S1x1024x128) hzTile, View.ld_unit_zero (S := S1024x1) hzCol,
    View.ld_unit_zero (S := S1024x128) hzAcc, View.readCov_unit_zero (S := S1024x1) _ hzCol, View.readCov_unit_zero (S := S1024x128) _ hzAcc]
  rfl

set_option maxHeartbeats 1000000 in
/-- A point that neither resets nor stores the output: the scratch goes from `s` to `scStep q k v s`, everything
    else is handed back as found. -/
theorem sound_kernel1_B (c : Dev nD) (E : Set ℕ) (i : grid1.Coords)
    (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole) (hc0 : ¬cond1_0 i) (hc1 : ¬cond1_1 i)
    (q k v : Vec F S1x1024x128 .bf16) (xi : Vec F S1x1024x128 .f32) (s : Sc F) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare xi
        ∗ owns (c : Thread nD τ) arg7 fullShare s.1 ∗ owns (c : Thread nD τ) arg8 fullShare s.2.1 ∗ owns (c : Thread nD τ) arg9 fullShare s.2.2
        ∗ (iprop(owns (c : Thread nD τ) arg3 fullShare q ∗ owns (c : Thread nD τ) arg4 fullShare k ∗ owns (c : Thread nD τ) arg5 fullShare v
            ∗ owns (c : Thread nD τ) arg6 fullShare xi
            ∗ owns (c : Thread nD τ) arg7 fullShare (scStep q k v s).1 ∗ owns (c : Thread nD τ) arg8 fullShare (scStep q k v s).2.1
            ∗ owns (c : Thread nD τ) arg9 fullShare (scStep q k v s).2.2) -∗ K ⟨⟩))
      ⊢ wp frame (wpE (defs₀ (F := F)) Variants.none c none) E
          (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (View.cover_of_tiled [⟨rCol, _⟩] S1024x1.size (by rfl)), View.canon_unit_zero hzCol]
    simp only [View.readAt_eq_ld, View.ld_unit_zero (S := S1x1024x128) hzTile, View.ld_unit_zero (S := S1024x1) hzCol, hf7]
    rfl
  isplitl [H8]
  · iexists _; isplitr
    swap; · iexact H8
    ipureintro
    rw [View.read_writes_eq_canon _ _ _ (View.cover_of_tiled [⟨rCol, _⟩] S1024x1.size (by rfl)), View.canon_unit_zero hzCol]
    simp only [View.readAt_eq_ld, View.ld_unit_zero (S := S1x1024x128) hzTile, View.ld_unit_zero (S := S1024x1) hzCol, hf7, hf8]
    rfl
  iexists _; isplitr
  swap; · iexact H9
  ipureintro
  rw [View.read_writes_eq_canon _ _ _ (View.cover_of_tiled [⟨rAcc, _⟩] S1024x128.size (by rfl)), View.canon_unit_zero hzAcc]
  simp only [View.readAt_eq_ld, View.ld_unit_zero (S := S1x1024x128) hzTile, View.ld_unit_zero (S := S1024x1) hzCol,
    View.ld_unit_zero (S := S1024x128) hzAcc, hf7, hf9]
  rfl

set_option maxHeartbeats 1000000 in
/-- A point that does not reset and stores the output: the scratch goes from `s` to `scStep q k v s`, and the
    output tile, whatever it held, ends at `outTile (scStep q k v s)`. -/
theorem sound_kernel1_C (c : Dev nD) (E : Set ℕ) (i : grid1.Coords)
    (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole) (hc0 : ¬cond1_0 i) (hc1 : cond1_1 i)
    (q k v : Vec F S1x1024x128 .bf16) (s : Sc F) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg3 fullShare q ∗ owns (c : Thread nD τ) arg4 fullShare k ∗ owns (c : Thread nD τ) arg5 fullShare v
            ∗ owns (c : Thread nD τ) arg6 fullShare (outTile (scStep q k v s))
            ∗ owns (c : Thread nD τ) arg7 fullShare (scStep q k v s).1 ∗ owns (c : Thread nD τ) arg8 fullShare (scStep q k v s).2.1
            ∗ owns (c : Thread nD τ) arg9 fullShare (scStep q k v s).2.2) -∗ K ⟨⟩))
      ⊢ wp frame (wpE (defs₀ (F := F)) Variants.none c none) E
          (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf3; subst hf4; subst hf5
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (View.cover_of_tiled [⟨rTile, _⟩] S1x1024x128.size (by rfl)), View.canon_unit_zero hzTile]
    simp only [View.readAt_eq_ld, View.ld_unit_zero (S := S1x1024x128) hzTile, View.ld_unit_zero (S := S1024x1) hzCol,
      View.ld_unit_zero (S := S1024x128) hzAcc, View.readCov_unit_zero (S := S1024x1) _ hzCol,
      View.readCov_unit_zero (S := S1024x128) _ hzAcc, hf7, hf8, hf9]
    rfl
  isplitl [H7]
  · iexists _; isplitr
    swap; · iexact H7
    ipureintro
    sl_unfold_words
    rw [View.read_writes_eq_canon _ _ _ (View.cover_of_tiled [⟨rCol, _⟩] S1024x1.size (by rfl)), View.canon_unit_zero hzCol]
    simp only [View.readAt_eq_ld, View.ld_unit_zero (S := S1x1024x128) hzTile, View.ld_unit_zero (S := S1024x1) hzCol, hf7]
    rfl
  isplitl [H8]
  · iexists _; isplitr
    swap; · iexact H8
    ipureintro
    sl_unfold_words
    rw [View.read_writes_eq_canon _ _ _ (View.cover_of_tiled [⟨rCol, _⟩] S1024x1.size (by rfl)), View.canon_unit_zero hzCol]
    simp only [View.readAt_eq_ld, View.ld_unit_zero (S := S1x1024x128) hzTile, View.ld_unit_zero (S := S1024x1) hzCol, hf7, hf8]
    rfl
  iexists _; isplitr
  swap; · iexact H9
  ipureintro
  sl_unfold_words
  rw [View.read_writes_eq_canon _ _ _ (View.cover_of_tiled [⟨rAcc, _⟩] S1024x128.size (by rfl)), View.canon_unit_zero hzAcc]
  simp only [View.readAt_eq_ld, View.ld_unit_zero (S := S1x1024x128) hzTile, View.ld_unit_zero (S := S1024x1) hzCol,
    View.ld_unit_zero (S := S1024x128) hzAcc, hf7, hf9]
  rfl

/-! ## The carried state along the grid -/

/-- The state after point `n` is one fold, from the reset state where `n` is a multiple of 4 and else from what the
    point before left. -/
theorem scN_step (c : Dev nD) (n : ℕ) (h : n < cfg1.N) (s : Sc F)
    (hs : ∀ h0 : n % 4 ≠ 0, s = scN V c (n - 1) (by omega)) :
    scN V c n h = scStep (qTile V c ⟨n, h⟩) (kTile V c ⟨n, h⟩) (vTile V c ⟨n, h⟩) (if n % 4 = 0 then scInit else s) := by
  cases n with
  | zero => rfl
  | succ n =>
    rw [scN]
    by_cases h4 : (n + 1) % 4 = 0
    · rw [if_pos h4, if_pos h4]
    · rw [if_neg h4, if_neg h4, hs h4]; rfl

/-- So the contents the body leaves at point `t` are tracked before point `t + 1`. -/
theorem tracked_succ (c : Dev nD) (t : Fin cfg1.N) (s : Sc F) (hs : Tracked V c t.castSucc s) :
    Tracked V c t.succ (scStep (qTile V c t) (kTile V c t) (vTile V c t) (if t.val % 4 = 0 then scInit else s)) := by
  intro _
  exact (scN_step V c t.val t.isLt s hs).symm

/-- A window live at a point is left at what the body stores. -/
theorem leavesExact_live {cfg : Cfg sig Λ₀} {c : Dev nD} (dat : Dat τ (Elt F) Unit ℕ (UR sig nD τ) ℕ cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]

/-! ## The obligation -/

set_option maxHeartbeats 1000000 in
/-- The library's body obligation for the attention body, at every point. -/
theorem body_obligation1 (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ (dat1 V c).leavesExact 3 t))
  unfold bodyAt1
  simp only [before1_0, before1_1, before1_2]
  rw [show (dat1 V c).owesAt () t.succ = (dat1 V c).owesAt () t.castSucc from rfl,
    Phi1_eq, Phi1_eq, after1_0, after1_1, after1_2]
  unfold Φ1
  by_cases hc0 : cond1_0 (grid1.coords t)
  · by_cases hc1 : cond1_1 (grid1.coords t)
    · exfalso
      have h0 := (hcond1_0 t).1 hc0
      have h1 := (hcond1_1 t).1 hc1
      omega
    · -- the point resets and does not store the output
      have h4 : t.val % 4 = 0 := (hcond1_0 t).1 hc0
      rw [Dat.leavesExact_idle _ 3 t (idleAt1_3 t hc1) (noFlush1_3 t hc1)]
      iintro ⟨⟨Hst, ⟨%s, %hs, Hm, Hl, Ha⟩, Hr⟩, Ho, ⟨%d0, H0⟩, ⟨%d1, H1⟩, ⟨%d2, H2⟩, ⟨%d3, H3⟩⟩
      iapply (sound_kernel1_A c Set.univ _ _ _ _ _ _ _ _ _ _ _ _ _ _ _ hc0 hc1 (qTile V c t) (kTile V c t) (vTile V c t)
        ((dat1 V c).before 3 t d3) _)
      isplitl [H0]; · iexact H0
      isplitl [H1]; · iexact H1
      isplitl [H2]; · iexact H2
      isplitl [H3]; · iexact H3
      isplitl [Hm]; · iexists _; iexact Hm
      isplitl [Hl]; · iexists _; iexact Hl
      isplitl [Ha]; · iexists _; iexact Ha
      iintro ⟨H0, H1, H2, H3, Hm, Hl, Ha⟩
      isplitl [Hst Hm Hl Ha Hr]
      · isplitl [Hst]; · iexact Hst
        isplitr [Hr]
        swap; · iexact Hr
        iexists (scStep (qTile V c t) (kTile V c t) (vTile V c t) (scInit (F := F))); isplitr
        · ipureintro
          have h := tracked_succ V c t s hs
          rw [if_pos h4] at h
          exact h
        isplitl [Hm]; · iexact Hm
        isplitl [Hl]; · iexact Hl
        iexact Ha
      isplitl [Ho]; · iexact Ho
      isplitl [H0]; · iexact H0
      isplitl [H1]; · iexact H1
      isplitl [H2]; · iexact H2
      iexists d3; iexact H3
  · have h4 : ¬t.val % 4 = 0 := fun h => hc0 ((hcond1_0 t).2 h)
    by_cases hc1 : cond1_1 (grid1.coords t)
    · -- the point does not reset and stores the output
      rw [leavesExact_live _ 3 t (liveAt1_3 t hc1), after1_3]
      iintro ⟨⟨Hst, ⟨%s, %hs, Hm, Hl, Ha⟩, Hr⟩, Ho, ⟨%d0, H0⟩, ⟨%d1, H1⟩, ⟨%d2, H2⟩, ⟨%d3, H3⟩⟩
      have hN := scN_step V c t.val t.isLt s hs
      rw [if_neg h4] at hN
      rw [hN]
      iapply (sound_kernel1_C c Set.univ _ _ _ _ _ _ _ _ _ _ _ _ _ _ _ hc0 hc1 (qTile V c t) (kTile V c t) (vTile V c t) s _)
      isplitl [H0]; · iexact H0
      isplitl [H1]; · iexact H1
      isplitl [H2]; · iexact H2
      isplitl [H3]; · iexists _; iexact H3
      isplitl [Hm]; · iexact Hm
      isplitl [Hl]; · iexact Hl
      isplitl [Ha]; · iexact Ha
      iintro ⟨H0, H1, H2, H3, Hm, Hl, Ha⟩
      isplitl [Hst Hm Hl Ha Hr]
      · isplitl [Hst]; · iexact Hst
        isplitr [Hr]
        swap; · iexact Hr
        iexists (scStep (qTile V c t) (kTile V c t) (vTile V c t) s); isplitr
        · ipureintro
          have h := tracked_succ V c t s hs
          rw [if_neg h4] at h
          exact h
        isplitl [Hm]; · iexact Hm
        isplitl [Hl]; · iexact Hl
        iexact Ha
      isplitl [Ho]; · iexact Ho
      isplitl [H0]; · iexact H0
      isplitl [H1]; · iexact H1
      isplitl [H2]; · iexact H2
      iexact H3
    · -- the point neither resets nor stores the output
      rw [Dat.leavesExact_idle _ 3 t (idleAt1_3 t hc1) (noFlush1_3 t hc1)]
      iintro ⟨⟨Hst, ⟨%s, %hs, Hm, Hl, Ha⟩, Hr⟩, Ho, ⟨%d0, H0⟩, ⟨%d1, H1⟩, ⟨%d2, H2⟩, ⟨%d3, H3⟩⟩
      iapply (sound_kernel1_B c Set.univ _ _ _ _ _ _ _ _ _ _ _ _ _ _ _ hc0 hc1 (qTile V c t) (kTile V c t) (vTile V c t)
        ((dat1 V c).before 3 t d3) s _)
      isplitl [H0]; · iexact H0
      isplitl [H1]; · iexact H1
      isplitl [H2]; · iexact H2
      isplitl [H3]; · iexact H3
      isplitl [Hm]; · iexact Hm
      isplitl [Hl]; · iexact Hl
      isplitl [Ha]; · iexact Ha
      iintro ⟨H0, H1, H2, H3, Hm, Hl, Ha⟩
      isplitl [Hst Hm Hl Ha Hr]
      · isplitl [Hst]; · iexact Hst
        isplitr [Hr]
        swap; · iexact Hr
        iexists (scStep (qTile V c t) (kTile V c t) (vTile V c t) s); isplitr
        · ipureintro
          have h := tracked_succ V c t s hs
          rw [if_neg h4] at h
          exact h
        isplitl [Hm]; · iexact Hm
        isplitl [Hl]; · iexact Hl
        iexact Ha
      isplitl [Ho]; · iexact Ho
      isplitl [H0]; · iexact H0
      isplitl [H1]; · iexact H1
      isplitl [H2]; · iexact H2
      iexists d3; iexact H3

end Cert.Kernel.Hand

end
-- ==== Proof.BitsRun.lean ====
/-
  The whole kernel program run from launch to return. Between its items (eight host operations, the projection
  region, one reshape, the attention region) the contents of the core's unscoped buffers are a fold from the launch
  memory: each host stretch applies its operations; the projection region replaces its output array by what its
  sixteen write-backs leave; the attention region replaces its output array by what its write-backs leave and
  touches nothing else. The attention region's three input windows read ONE array, so that array's ownership is
  split three ways at the region's entry and joined again at its exit. Every weakly fair execution ends with every
  unscoped buffer at the last fold; the argument arrays are never written, so they end as launched.
-/
import proofs.«416957_j77120432767536_3_alg».proof.Proof.BitsProj
import proofs.«416957_j77120432767536_3_alg».proof.Proof.BitsFlashDefs
import proofs.«416957_j77120432767536_3_alg».proof.Proof.BitsFlashBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the reshape (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: its output array at what its write-backs leave, every other buffer as entered. -/
def W4 (c : Dev nD) : Valuation τ sig (Elt F) :=
  Function.update (W3 m ρ c) (Proc.devRef .tc main_v9) ((dat1 (V3 m ρ) c).arrAt 3 cfg1.N)
theorem W4_out (c : Dev nD) : W4 m ρ c (Proc.devRef .tc main_v9) = (dat1 (V3 m ρ) c).arrAt 3 cfg1.N := by
  unfold W4; exact Function.update_self ..
theorem W4_of_ne (c : Dev nD) (b : Ref sig .tc) (hb : b ≠ main_v9) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The attention region's arrays: one buffer behind three input windows -/

variable (V : (c : Dev nD) → (b : Ref sig .tc) → Buf (Elt F) ((c : Thread nD τ).loc b))

theorem share1_0 (c : Dev nD) : (dat1 V c).share 0 = shQ := by
  show (if (cfg1.win 0).isOut = true then fullShare else (dat1 V c).q 0) = shQ
  rw [if_neg (by decide)]; dsimp only [dat1]
theorem share1_1 (c : Dev nD) : (dat1 V c).share 1 = shK := by
  show (if (cfg1.win 1).isOut = true then fullShare else (dat1 V c).q 1) = shK
  rw [if_neg (by decide)]; dsimp only [dat1]
theorem share1_2 (c : Dev nD) : (dat1 V c).share 2 = shV := by
  show (if (cfg1.win 2).isOut = true then fullShare else (dat1 V c).q 2) = shV
  rw [if_neg (by decide)]; dsimp only [dat1]
theorem share1_3 (c : Dev nD) : (dat1 V c).share 3 = fullShare := by
  show (if (cfg1.win 3).isOut = true then fullShare else (dat1 V c).q 3) = fullShare
  rw [if_pos (by decide)]

/-- The region's arrays at contents `G`, window by window: the input array three times, at the three shares, and
    the output array at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v8) ↦{shQ} G 0) ∗ (((c : Thread nD τ).loc main_v8) ↦{shK} G 1)
          ∗ (((c : Thread nD τ).loc main_v8) ↦{shV} G 2) ∗ (((c : Thread nD τ).loc main_v9) ↦{fullShare} G 3)) := by
  unfold Dat.arrays
  rw [bigSep_W1, share1_0, share1_1, share1_2, share1_3, (arr_whole1 0).set_eq_univ, (arr_whole1 3).set_eq_univ]

/-- The two buffers behind the region's arrays, each whole at the full share. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v8) ↦{fullShare} Vv main_v8) ∗ (((c : Thread nD τ).loc main_v9) ↦{fullShare} Vv main_v9)) := by
  unfold Pipeline.arrBufs
  exact bigSep_eq_bigSepL_of_eq [main_v8, main_v9] (by decide) (by decide) _

/-- A full share is the three windows' shares together. -/
theorem split3 (ℓ : Loc nD τ sig) (f : Buf (Elt F) ℓ) :
    ((ℓ ↦{fullShare} f) : sProp 𝕄) ⊢ iprop((ℓ ↦{shQ} f) ∗ (ℓ ↦{shK} f) ∗ (ℓ ↦{shV} f)) :=
  (pointsTo_share (PosShare.mem_left_op_right fullShare)).1.trans
    (sep_mono .rfl (pointsTo_share (PosShare.mem_left_op_right fullShare.right)).1)
theorem join3 (ℓ : Loc nD τ sig) (f : Buf (Elt F) ℓ) :
    (iprop((ℓ ↦{shQ} f) ∗ (ℓ ↦{shK} f) ∗ (ℓ ↦{shV} f)) : sProp 𝕄) ⊢ (ℓ ↦{fullShare} f) :=
  (sep_mono .rfl (pointsTo_share (PosShare.mem_left_op_right fullShare.right)).2).trans
    (pointsTo_share (PosShare.mem_left_op_right fullShare)).2

/-- ENTRY: the input buffer's full share splits into the three windows' shares. -/
theorem arrays1_in (c : Dev nD) (Vv : (b : Ref sig .tc) → Buf (Elt F) ((c : Thread nD τ).loc b))
    (G : (w : Fin cfg1.W) → Buf (Elt F) ((cfg1.win w).arr.view.loc (c : Thread nD τ)))
    (h0 : G 0 = Vv main_v8) (h1 : G 1 = Vv main_v8) (h2 : G 2 = Vv main_v8) (h3 : G 3 = Vv main_v9) :
    (Pipeline.arrBufs (Ix := Unit) (Name := ℕ) (U := UR sig nD τ) (Lvl := ℕ) spec1 c Vv : sProp 𝕄) ⊢ (dat1 V c).arrays G := by
  rw [arrays1_eq, arrBufs1_eq, h0, h1, h2, h3]
  iintro ⟨H8, H9⟩
  ihave H := (split3 (F := F) _ _) $$ H8
  icases H with ⟨Hq, Hk, Hv⟩
  isplitl [Hq]; · iexact Hq
  isplitl [Hk]; · iexact Hk
  isplitl [Hv]; · iexact Hv
  iexact H9

/-- EXIT: the three shares, at one contents, join into the full share again. -/
theorem arrays1_out (c : Dev nD) (Vv : (b : Ref sig .tc) → Buf (Elt F) ((c : Thread nD τ).loc b))
    (G : (w : Fin cfg1.W) → Buf (Elt F) ((cfg1.win w).arr.view.loc (c : Thread nD τ)))
    (h0 : G 0 = Vv main_v8) (h1 : G 1 = Vv main_v8) (h2 : G 2 = Vv main_v8) (h3 : G 3 = Vv main_v9) :
    ((dat1 V c).arrays G : sProp 𝕄) ⊢ Pipeline.arrBufs (Ix := Unit) (Name := ℕ) (U := UR sig nD τ) (Lvl := ℕ) spec1 c Vv := by
  rw [arrays1_eq, arrBufs1_eq, h0, h1, h2, h3]
  iintro ⟨Hq, Hk, Hv, H9⟩
  isplitr [H9]
  swap; · iexact H9
  iapply (join3 (F := F) _ _)
  isplitl [Hq]; · iexact Hq
  isplitl [Hk]; · iexact Hk
  iexact Hv

/-- The unscoped buffers that are no array of the region depend only on the contents off its two array buffers. -/
theorem rest1_congr (c : Dev nD) (Va Vb : (b : Ref sig .tc) → Buf (Elt F) ((c : Thread nD τ).loc b))
    (h : ∀ b, b ∉ Finset.univ.image (Pipeline.arrRef spec1) → Va b = Vb b) :
    (Pipeline.unscopedRest (Ix := Unit) (Name := ℕ) (U := UR sig nD τ) (Lvl := ℕ) spec1 c Va : sProp 𝕄)
      = Pipeline.unscopedRest spec1 c Vb := by
  unfold Pipeline.unscopedRest
  exact bigSep_congr fun b hb => by rw [h b (Finset.mem_sdiff.mp hb).2]

/-- The invariant with the scratch operands as plain buffers. -/
theorem Phi1_open (c : Dev nD) (t : Fin (cfg1.N + 1)) :
    (Φ1 V c t : sProp 𝕄) = iprop(otherStaging (F := F) c
      ∗ (∃ s : Sc F, ⌜Tracked V c t s⌝ ∗ (((c : Thread nD τ).loc cc1_scratch0) ↦{fullShare} s.1)
          ∗ (((c : Thread nD τ).loc cc1_scratch1) ↦{fullShare} s.2.1) ∗ (((c : Thread nD τ).loc cc1_scratch2) ↦{fullShare} s.2.2))
      ∗ ∃ r, prngReg c r) := by
  unfold Φ1; simp only [scM0, scM1, scM2, owns_whole]

/-! ## The items as segments -/

/-- A host stretch as a segment over the unscoped buffers from the contents `W`, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last fold, the generator register. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The projection region: entered from every unscoped buffer at `W1`, left at `W2`. Its three arrays are distinct
    buffers, split out of the unscoped buffers at entry and put back at exit; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention region's arrays at entry and exit, against the folds. -/
theorem hG1_in (c : Dev nD) : ∀ w : Fin cfg1.W, (dat1 (V3 m ρ) c).arrAt w 0 = V3 m ρ c (Pipeline.arrRef spec1 w) := fun _ => rfl
theorem hG1_0 (c : Dev nD) : (dat1 (V3 m ρ) c).arrAt 0 cfg1.N = V4 m ρ c main_v8 :=
  ((dat1 (V3 m ρ) c).arrAt_in 0 rfl _).trans ((A_eq1 (V3 m ρ) c 0).trans (W4_of_ne m ρ c main_v8 (by decide)).symm)
theorem hG1_1 (c : Dev nD) : (dat1 (V3 m ρ) c).arrAt 1 cfg1.N = V4 m ρ c main_v8 :=
  ((dat1 (V3 m ρ) c).arrAt_in 1 rfl _).trans ((A_eq1 (V3 m ρ) c 1).trans (W4_of_ne m ρ c main_v8 (by decide)).symm)
theorem hG1_2 (c : Dev nD) : (dat1 (V3 m ρ) c).arrAt 2 cfg1.N = V4 m ρ c main_v8 :=
  ((dat1 (V3 m ρ) c).arrAt_in 2 rfl _).trans ((A_eq1 (V3 m ρ) c 2).trans (W4_of_ne m ρ c main_v8 (by decide)).symm)
theorem hG1_3 (c : Dev nD) : (dat1 (V3 m ρ) c).arrAt 3 cfg1.N = V4 m ρ c main_v9 := (W4_out m ρ c).symm
theorem hrest1 (c : Dev nD) : ∀ b, b ∉ Finset.univ.image (Pipeline.arrRef spec1) → V3 m ρ c b = V4 m ρ c b := fun b hb =>
  (W4_of_ne m ρ c b fun e => hb (e ▸ Finset.mem_image.mpr ⟨3, Finset.mem_univ _, rfl⟩)).symm

set_option backward.isDefEq.respectTransparency.types false in
/-- The attention region: entered from every unscoped buffer at `W3`, left at `W4`. The one input array is split
    three ways among the input windows at entry and joined at exit; the output array comes back at what the
    write-backs leave; the scratch buffers and the other region's staging buffers go into the invariant (at
    contents not named) and come out; nothing is owed; no semaphore of the kernel's own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0) ∗ Pipeline.unscopedRest spec1 c (V3 m ρ c)) := by
      rw [Pipeline.unscopedBufs_split₀ (Pipeline.pin (pcfgs (F := F)) adm) 1 winFacts₀1.arr_unscoped c (V3 m ρ c)]
      exact sep_mono (arrays1_in (V3 m ρ) c (V3 m ρ c) _ rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Φ1 (V3 m ρ) c 0 from rfl, Phi1_open, (show (Pipeline.scopedRest (Ix := Unit) (Name := ℕ) (U := UR sig nD τ) (Lvl := ℕ) (Val := Elt F) (Pipeline.pin (pcfgs (F := F)) adm 1).spec c : sProp 𝕄) = Pipeline.scopedRest spec1 c from rfl), scopedRest1_eq]; unfold otherStaging
    iintro ⟨Hp, -, H0, H1, H2, H3, H4, ⟨%f0, S0⟩, ⟨%f1, S1⟩, ⟨%f2, S2⟩⟩
    isplitl [H0 H1 H2 H3 H4]
    · isplitl [H0]; · iexact H0
      isplitl [H1]; · iexact H1
      isplitl [H2]; · iexact H2
      isplitl [H3]; · iexact H3
      iexact H4
    isplitr [Hp]
    swap; · iexact Hp
    iexists (f0, f1, f2)
    isplitr; · ipureintro; exact fun h0 => absurd rfl h0
    isplitl [S0]; · iexact S0
    isplitl [S1]; · iexact S1
    iexact S2
  hout c := by
    rw [Pipeline.ownSems0_none, show (pdats m ρ 1 c).Φ (Fin.last _) = Φ1 (V3 m ρ) c (Fin.last _) from rfl, Phi1_open, (show (Pipeline.scopedRest (Ix := Unit) (Name := ℕ) (U := UR sig nD τ) (Lvl := ℕ) (Val := Elt F) (Pipeline.pin (pcfgs (F := F)) adm 1).spec c : sProp 𝕄) = Pipeline.scopedRest spec1 c from rfl), scopedRest1_eq]
    unfold otherStaging
    iintro ⟨⟨H0, H1, H2, H3, H4⟩, ⟨%s, -, S0, S1, S2⟩, Hp⟩
    isplitl [Hp]; · iexact Hp
    isplitr; · iempintro
    isplitl [H0]; · iexact H0
    isplitl [H1]; · iexact H1
    isplitl [H2]; · iexact H2
    isplitl [H3]; · iexact H3
    isplitl [H4]; · iexact H4
    isplitl [S0]; · iexists _; iexact S0
    isplitl [S1]; · iexists _; iexact S1
    iexists _; iexact S2
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) := by
      rw [Pipeline.unscopedBufs_split₀ (Pipeline.pin (pcfgs (F := F)) adm) 1 winFacts₀1.arr_unscoped c (V4 m ρ c),
        rest1_congr c (V3 m ρ c) (V4 m ρ c) (hrest1 m ρ c)]
      exact sep_mono (arrays1_out (V3 m ρ) c (V4 m ρ c) _ (hG1_0 m ρ c) (hG1_1 m ρ c) (hG1_2 m ρ c) (hG1_3 m ρ c)) .rfl
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's four items in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer of every core at the last fold `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The arguments end as launched

No host operation writes an argument and no region may change one, so the last fold at an argument's buffer walks
back to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes,
            StableHlo.reshape_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes,
            StableHlo.reshape_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.reshape_writes, Finset.mem_singleton]
          exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes,
            StableHlo.reshape_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.reshape_writes, Finset.mem_singleton]
          exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes,
            StableHlo.reshape_writes, StableHlo.nary_writes, Finset.mem_singleton]
          repeat' apply And.intro
          all_goals exact StableHlo.devRef_ne_of_ne (by decide)))
    _ = m ((c : Thread nD τ).loc main_arg3) := rfl

/-- The frame claim's post from the run's. -/
theorem args_of_run {r : PUnit × MemSt nD τ sig (Elt F)}
    (h : ∀ c : Dev nD, ∀ b ∈ Pipeline.ucRefs τ sig, r.2.mem (((c : Thread nD τ)).1, b) = W4 m ρ c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c _ (mem_uc main_arg0 (by decide))).trans (W4_main_arg0 m ρ c), (h c _ (mem_uc main_arg1 (by decide))).trans (W4_main_arg1 m ρ c),
    (h c _ (mem_uc main_arg2 (by decide))).trans (W4_main_arg2 m ρ c), (h c _ (mem_uc main_arg3 (by decide))).trans (W4_main_arg3 m ρ c)⟩

/-- THE FRAME at any float instance: every weakly fair execution terminates, nothing faulting, and the argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => args_of_run m ρ h c) (run_main m ρ)

end Cert.Kernel.Hand

end
-- ==== Proof.IdealProj.lean ====
/-
  Region 0 of the kernel program: the fused projection. At grid point `t` (one of 16 row tiles) the body reads the
  tile `x[1024·t .. 1024·t+1023, :]` (1024 × 1024) and the whole weight matrix (1024 × 384, fetched once and kept),
  multiplies them onto a zero accumulator and stores the 1024 × 384 product over the whole output tile. So the output
  tile after the body is one pure function of the two input blocks, and the body keeps no state between points.
  Everything here is stated at a parameter `V`: the contents of the core's buffers when the region is entered.
-/
import proofs.«416957_j77120432767536_3_alg».proof.Proof.Gen.KernelIdeal.Launch
import proofs.«416957_j77120432767536_3_alg».proof.Proof.Gen.KernelIdeal.Skeleton
import proofs.«416957_j77120432767536_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of `x` at point `t`, at its literal type. -/
abbrev xTile (c : Dev nD) (t : Fin cfg0.N) : Vec F S1024x1024 .f32 := iblk0 V c 0 t
/-- The weight matrix as point `t` finds it (the same block at every point), at its literal type. -/
abbrev wMat (c : Dev nD) (t : Fin cfg0.N) : Vec F S1024x384 .f32 := iblk0 V c 1 t

/-- An input window's current staging buffer holds its block at every point, fetched there or not: where it is not
    fetched the block index has not moved and the body left the block in place. One statement per window, at the
    literal window number, so that the printed window table reduces. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t) (t : Fin cfg0.N) (d) :
    dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t) (t : Fin cfg0.N) (d) :
    dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches in the output tile: all of it. -/
abbrev rOut0 : Rect S1024x384 := Rect.unit (s := S1024x384) ![0, 0] S1024x384.size inb_S1024x384_S1024x384_0_0

theorem hzOut0 : (![0, 0] : Fin S1024x384.rank → ℕ) = fun _ => 0 := by
  funext a; match a with | ⟨0, _⟩ => rfl | ⟨1, _⟩ => rfl
theorem hzX0 : (![0, 0] : Fin S1024x1024.rank → ℕ) = fun _ => 0 := by
  funext a; match a with | ⟨0, _⟩ => rfl | ⟨1, _⟩ => rfl

set_option maxHeartbeats 1000000 in
/-- The projection body on whole staging memrefs: the inputs at `x`, `w`, the output at anything, runs to the
    continuation with the inputs unchanged and the output tile at the product payload of the two. -/
theorem sound_kernel0 (c : Dev nD) (E : Set ℕ) (i : grid0.Coords) (arg1 : Memref sig .tc .vmem S1024x1024 .f32) (harg1 : arg1.IsWhole)
    (arg2 : Memref sig .tc .vmem S1024x384 .f32) (harg2 : arg2.IsWhole) (arg3 : Memref sig .tc .vmem S1024x384 .bf16) (harg3 : arg3.IsWhole)
    (x : Vec F S1024x1024 .f32) (w : Vec F S1024x384 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (k0_pay1 x w)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (View.cover_of_tiled [⟨rOut0, _⟩] S1024x384.size (by rfl)), View.canon_unit_zero hzOut0]
  simp only [View.readAt_eq_ld, View.ld_unit_zero (S := S1024x1024) hzX0, View.ld_unit_zero (S := S1024x384) hzOut0]

/-- The proof data of pipeline 0 on core `c`: arrays as the region finds them; each input's buffer stays at its
    block, the output tile is the product payload of the two blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (xTile V c t) (wMat V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (xTile V c t) (wMat V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The library's body obligation for the projection, at every point. -/
theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)))
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (xTile V c t) (wMat V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.IdealFlashDefs.lean ====
/-
  Region 1 of the kernel program: attention over key/value tiles with a running softmax. The grid is (batch, query
  tile, key tile) = 4 × 4 × 4, the key tile innermost. The body keeps three buffers between points: the running row
  maximum `m`, the running denominator `l` and the running numerator `acc`. At a point whose key-tile coordinate is 0 it
  first resets them to (−∞, 0, 0); at every point it folds the point's key and value tiles into them; at a point
  whose key-tile coordinate is 3 it stores `acc / l` into the output tile. The three input windows read one array
  (the fused q | k | v matrix), at three different lane blocks.
  Everything here is stated at a parameter `V`: the contents of the core's buffers when the region is entered.
  This module holds the definitions every other module of the region shares: the blocks, the carried state as a
  recursion over the point number, the invariant, the proof data, and where the body's two conditions hold.
-/
import proofs.«416957_j77120432767536_3_alg».proof.Proof.Gen.KernelIdeal.Launch
import proofs.«416957_j77120432767536_3_alg».proof.Proof.Gen.KernelIdeal.Skeleton
import proofs.«416957_j77120432767536_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query, key and value tiles of point `t`, at their literal type. -/
abbrev qTile (c : Dev nD) (t : Fin cfg1.N) : Vec F S1x1024x128 .bf16 := iblk1 V c 0 t
abbrev kTile (c : Dev nD) (t : Fin cfg1.N) : Vec F S1x1024x128 .bf16 := iblk1 V c 1 t
abbrev vTile (c : Dev nD) (t : Fin cfg1.N) : Vec F S1x1024x128 .bf16 := iblk1 V c 2 t

/-- An input window's current staging buffer holds its block at every point, fetched there or not (the query tile is
    fetched only where the key-tile coordinate is 0 and kept in place over the next three points). -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t) (t : Fin cfg1.N) (d) :
    dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t) (t : Fin cfg1.N) (d) :
    dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t) (t : Fin cfg1.N) (d) :
    dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The carried state -/

/-- Running maximum (1024 × 1), running denominator (1024 × 1), running numerator (1024 × 128). -/
abbrev Sc (F : FTy → Type) [FloatOps F] : Type := Vec F S1024x1 .f32 × Vec F S1024x1 .f32 × Vec F S1024x128 .f32

/-- The state a reset leaves: (−∞, 0, 0), each broadcast over its buffer. -/
def scInit : Sc F := (k1_pay4 (F := F), k1_pay5 (F := F), k1_pay6 (F := F))

/-- One point's fold of a key tile and a value tile into the state `s` the point starts from (after the reset, if
    the point resets): the new maximum, the rescaled denominator plus the tile's row sums of exponentials, the
    rescaled numerator plus the tile's weighted values. -/
def scStep (q k v : Vec F S1x1024x128 .bf16) (s : Sc F) : Sc F :=
  (k1_pay2 (k1_pay8 q k s.1),
   k1_pay11 q k s.1 s.1 s.2.1,
   k1_pay1 (k1_pay9 q k s.1 s.1) (k1_pay12 q k s.1 v) s.2.2)

/-- The state after point `n`: a recursion over the point number that restarts from the reset state at every point
    whose number is a multiple of 4 (key-tile coordinate 0). -/
def scN (c : Dev nD) : (n : ℕ) → n < cfg1.N → Sc F
  | 0, h => scStep (qTile V c ⟨0, h⟩) (kTile V c ⟨0, h⟩) (vTile V c ⟨0, h⟩) scInit
  | n + 1, h => scStep (qTile V c ⟨n + 1, h⟩) (kTile V c ⟨n + 1, h⟩) (vTile V c ⟨n + 1, h⟩)
      (if (n + 1) % 4 = 0 then scInit else scN c n (Nat.lt_of_succ_lt h))

/-- What a point that stores the output leaves in the output tile: numerator over denominator, row by row. -/
def outTile (s : Sc F) : Vec F S1x1024x128 .f32 := k1_pay3 s.2.2 s.2.1

/-! ## The invariant -/

/-- The three scratch operands, whole buffers of the kernel's own. -/
abbrev scM0 : Memref sig .tc .vmem S1024x1 .f32 := Memref.whole cc1_scratch0
abbrev scM1 : Memref sig .tc .vmem S1024x1 .f32 := Memref.whole cc1_scratch1
abbrev scM2 : Memref sig .tc .vmem S1024x128 .f32 := Memref.whole cc1_scratch2

/-- The other region's staging buffers: scoped buffers this region's body never names, each whole at some contents. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- What is known of the scratch contents `s` before point `t`: nothing where the point resets them (and after the
    last point), else that they are the state after the point before. -/
def Tracked (c : Dev nD) (t : Fin (cfg1.N + 1)) (s : Sc F) : Prop :=
  ∀ h0 : t.val % 4 ≠ 0, s = scN V c (t.val - 1) (by have := t.isLt; omega)

/-- The invariant before point `t`: the other region's staging buffers, the three scratch buffers at tracked
    contents, the generator register at some state. -/
def Φ1 (c : Dev nD) (t : Fin (cfg1.N + 1)) : sProp 𝕄 :=
  iprop(otherStaging (F := F) c
    ∗ (∃ s : Sc F, ⌜Tracked V c t s⌝ ∗ owns (c : Thread nD τ) scM0 fullShare s.1 ∗ owns (c : Thread nD τ) scM1 fullShare s.2.1
        ∗ owns (c : Thread nD τ) scM2 fullShare s.2.2)
    ∗ ∃ r, prngReg c r)

/-! ## The proof data -/

/-- The three shares the one input array is held at, one per input window: together the full share. -/
abbrev shQ : PosShare TreeShare := fullShare.left
abbrev shK : PosShare TreeShare := fullShare.right.left
abbrev shV : PosShare TreeShare := fullShare.right.right

/-- The proof data of pipeline 1 on core `c`: arrays as the region finds them; each input's buffer stays at its block;
    the output tile after point `t` is numerator over denominator of the state after `t` (read only where the point
    stores it); the invariant tracks the scratch; nothing owed; the input array split three ways. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outTile (scN V c t.val t.isLt)
  Φ t := Φ1 V c t
  q w := match w with
    | ⟨0, _⟩ => shQ
    | ⟨1, _⟩ => shK
    | ⟨2, _⟩ => shV
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outTile (scN V c t.val t.isLt) := by dsimp only [dat1]
theorem Phi1_eq (c : Dev nD) (t : Fin (cfg1.N + 1)) : (dat1 V c).Φ t = Φ1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's two conditions, in closed form over the grid -/

/-- The reset condition: the key-tile coordinate is 0. -/
abbrev cond1_0 (i : grid1.Coords) : Prop :=
  (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The store condition: the key-tile coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- Where the output is not stored its window is idle and not written back; where it is stored the window is live. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

end Cert.KernelIdeal.Hand

end
-- ==== Proof.IdealFlashBody.lean ====
/-
  The body obligation of region 1: at every grid point the attention body, run from the invariant and the windows'
  current buffers, reaches the invariant of the next point with the scratch at the state after this point, and
  leaves the output tile stored where the key-tile coordinate is 3 and untouched elsewhere.
-/
import proofs.«416957_j77120432767536_3_alg».proof.Proof.IdealFlashDefs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Zero offsets, however spelt -/

theorem hzCol : (![0, 0] : Fin S1024x1.rank → ℕ) = fun _ => 0 := by
  funext a; match a with | ⟨0, _⟩ => rfl | ⟨1, _⟩ => rfl
theorem hzAcc : (![0, 0] : Fin S1024x128.rank → ℕ) = fun _ => 0 := by
  funext a; match a with | ⟨0, _⟩ => rfl | ⟨1, _⟩ => rfl
theorem hzTile : (![0, 0, 0] : Fin S1x1024x128.rank → ℕ) = fun _ => 0 := by
  funext a; match a with | ⟨0, _⟩ => rfl | ⟨1, _⟩ => rfl | ⟨2, _⟩ => rfl

/-! ## The whole-buffer rectangles the body loads and stores through -/

abbrev rCol : Rect S1024x1 := Rect.unit (s := S1024x1) ![0, 0] S1024x1.size inb_S1024x1_S1024x1_0_0
abbrev rAcc : Rect S1024x128 := Rect.unit (s := S1024x128) ![0, 0] S1024x128.size inb_S1024x128_S1024x128_0_0
abbrev rTile : Rect S1x1024x128 := Rect.unit (s := S1x1024x128) ![0, 0, 0] S1x1024x128.size inb_S1x1024x128_S1x1024x128_0_0_0

set_option maxHeartbeats 1000000 in
/-- A point that resets and does not store the output: whatever the scratch held, it ends at
    `scStep q k v scInit`; everything else is handed back as found. -/
theorem sound_kernel1_A (c : Dev nD) (E : Set ℕ) (i : grid1.Coords)
    (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole) (hc0 : cond1_0 i) (hc1 : ¬cond1_1 i)
    (q k v : Vec F S1x1024x128 .bf16) (xi : Vec F S1x1024x128 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare xi
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare q ∗ owns (c : Thread nD τ) arg4 fullShare k ∗ owns (c : Thread nD τ) arg5 fullShare v
            ∗ owns (c : Thread nD τ) arg6 fullShare xi
            ∗ owns (c : Thread nD τ) arg7 fullShare (scStep q k v (scInit (F := F))).1 ∗ owns (c : Thread nD τ) arg8 fullShare (scStep q k v (scInit (F := F))).2.1
            ∗ owns (c : Thread nD τ) arg9 fullShare (scStep q k v (scInit (F := F))).2.2) -∗ K ⟨⟩))
      ⊢ wp frame (wpE (defs₀ (F := F)) Variants.none c none) E
          (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (View.cover_of_tiled [⟨rCol, _⟩, ⟨rCol, _⟩] S1024x1.size (by rfl)), View.canon_cons_unit_zero (S := S1024x1) hzCol]
    simp only [View.readAt_eq_ld, View.ld_unit_zero (S := S1x1024x128) hzTile, View.ld_unit_zero (S := S1024x1) hzCol,
      View.readCov_unit_zero (S := S1024x1) _ hzCol]
    rfl
  isplitl [H8]
  · iexists _; isplitr
    swap; · iexact H8
    ipureintro
    sl_unfold_words
    rw [View.read_writes_eq_canon _ _ _ (View.cover_of_tiled [⟨rCol, _⟩, ⟨rCol, _⟩] S1024x1.size (by rfl)), View.canon_cons_unit_zero (S := S1024x1) hzCol]
    simp only [View.readAt_eq_ld, View.ld_unit_zero (S := S1x1024x128) hzTile, View.ld_unit_zero (S := S1024x1) hzCol,
      View.readCov_unit_zero (S := S1024x1) _ hzCol]
    rfl
  iexists _; isplitr
  swap; · iexact H9
  ipureintro
  sl_unfold_words
  rw [View.read_writes_eq_canon _ _ _ (View.cover_of_tiled [⟨rAcc, _⟩, ⟨rAcc, _⟩] S1024x128.size (by rfl)), View.canon_cons_unit_zero (S := S1024x128) hzAcc]
  simp only [View.readAt_eq_ld, View.ld_unit_zero (S := S1x1024x128) hzTile, View.ld_unit_zero (S := S1024x1) hzCol,
    View.ld_unit_zero (S := S1024x128) hzAcc, View.readCov_unit_zero (S := S1024x1) _ hzCol, View.readCov_unit_zero (S := S1024x128) _ hzAcc]
  rfl

set_option maxHeartbeats 1000000 in
/-- A point that neither resets nor stores the output: the scratch goes from `s` to `scStep q k v s`, everything
    else is handed back as found. -/
theorem sound_kernel1_B (c : Dev nD) (E : Set ℕ) (i : grid1.Coords)
    (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole) (hc0 : ¬cond1_0 i) (hc1 : ¬cond1_1 i)
    (q k v : Vec F S1x1024x128 .bf16) (xi : Vec F S1x1024x128 .f32) (s : Sc F) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare xi
        ∗ owns (c : Thread nD τ) arg7 fullShare s.1 ∗ owns (c : Thread nD τ) arg8 fullShare s.2.1 ∗ owns (c : Thread nD τ) arg9 fullShare s.2.2
        ∗ (iprop(owns (c : Thread nD τ) arg3 fullShare q ∗ owns (c : Thread nD τ) arg4 fullShare k ∗ owns (c : Thread nD τ) arg5 fullShare v
            ∗ owns (c : Thread nD τ) arg6 fullShare xi
            ∗ owns (c : Thread nD τ) arg7 fullShare (scStep q k v s).1 ∗ owns (c : Thread nD τ) arg8 fullShare (scStep q k v s).2.1
            ∗ owns (c : Thread nD τ) arg9 fullShare (scStep q k v s).2.2) -∗ K ⟨⟩))
      ⊢ wp frame (wpE (defs₀ (F := F)) Variants.none c none) E
          (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (View.cover_of_tiled [⟨rCol, _⟩] S1024x1.size (by rfl)), View.canon_unit_zero hzCol]
    simp only [View.readAt_eq_ld, View.ld_unit_zero (S := S1x1024x128) hzTile, View.ld_unit_zero (S := S1024x1) hzCol, hf7]
    rfl
  isplitl [H8]
  · iexists _; isplitr
    swap; · iexact H8
    ipureintro
    rw [View.read_writes_eq_canon _ _ _ (View.cover_of_tiled [⟨rCol, _⟩] S1024x1.size (by rfl)), View.canon_unit_zero hzCol]
    simp only [View.readAt_eq_ld, View.ld_unit_zero (S := S1x1024x128) hzTile, View.ld_unit_zero (S := S1024x1) hzCol, hf7, hf8]
    rfl
  iexists _; isplitr
  swap; · iexact H9
  ipureintro
  rw [View.read_writes_eq_canon _ _ _ (View.cover_of_tiled [⟨rAcc, _⟩] S1024x128.size (by rfl)), View.canon_unit_zero hzAcc]
  simp only [View.readAt_eq_ld, View.ld_unit_zero (S := S1x1024x128) hzTile, View.ld_unit_zero (S := S1024x1) hzCol,
    View.ld_unit_zero (S := S1024x128) hzAcc, hf7, hf9]
  rfl

set_option maxHeartbeats 1000000 in
/-- A point that does not reset and stores the output: the scratch goes from `s` to `scStep q k v s`, and the
    output tile, whatever it held, ends at `outTile (scStep q k v s)`. -/
theorem sound_kernel1_C (c : Dev nD) (E : Set ℕ) (i : grid1.Coords)
    (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole) (hc0 : ¬cond1_0 i) (hc1 : cond1_1 i)
    (q k v : Vec F S1x1024x128 .bf16) (s : Sc F) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg3 fullShare q ∗ owns (c : Thread nD τ) arg4 fullShare k ∗ owns (c : Thread nD τ) arg5 fullShare v
            ∗ owns (c : Thread nD τ) arg6 fullShare (outTile (scStep q k v s))
            ∗ owns (c : Thread nD τ) arg7 fullShare (scStep q k v s).1 ∗ owns (c : Thread nD τ) arg8 fullShare (scStep q k v s).2.1
            ∗ owns (c : Thread nD τ) arg9 fullShare (scStep q k v s).2.2) -∗ K ⟨⟩))
      ⊢ wp frame (wpE (defs₀ (F := F)) Variants.none c none) E
          (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf3; subst hf4; subst hf5
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (View.cover_of_tiled [⟨rTile, _⟩] S1x1024x128.size (by rfl)), View.canon_unit_zero hzTile]
    simp only [View.readAt_eq_ld, View.ld_unit_zero (S := S1x1024x128) hzTile, View.ld_unit_zero (S := S1024x1) hzCol,
      View.ld_unit_zero (S := S1024x128) hzAcc, View.readCov_unit_zero (S := S1024x1) _ hzCol,
      View.readCov_unit_zero (S := S1024x128) _ hzAcc, hf7, hf8, hf9]
    rfl
  isplitl [H7]
  · iexists _; isplitr
    swap; · iexact H7
    ipureintro
    sl_unfold_words
    rw [View.read_writes_eq_canon _ _ _ (View.cover_of_tiled [⟨rCol, _⟩] S1024x1.size (by rfl)), View.canon_unit_zero hzCol]
    simp only [View.readAt_eq_ld, View.ld_unit_zero (S := S1x1024x128) hzTile, View.ld_unit_zero (S := S1024x1) hzCol, hf7]
    rfl
  isplitl [H8]
  · iexists _; isplitr
    swap; · iexact H8
    ipureintro
    sl_unfold_words
    rw [View.read_writes_eq_canon _ _ _ (View.cover_of_tiled [⟨rCol, _⟩] S1024x1.size (by rfl)), View.canon_unit_zero hzCol]
    simp only [View.readAt_eq_ld, View.ld_unit_zero (S := S1x1024x128) hzTile, View.ld_unit_zero (S := S1024x1) hzCol, hf7, hf8]
    rfl
  iexists _; isplitr
  swap; · iexact H9
  ipureintro
  sl_unfold_words
  rw [View.read_writes_eq_canon _ _ _ (View.cover_of_tiled [⟨rAcc, _⟩] S1024x128.size (by rfl)), View.canon_unit_zero hzAcc]
  simp only [View.readAt_eq_ld, View.ld_unit_zero (S := S1x1024x128) hzTile, View.ld_unit_zero (S := S1024x1) hzCol,
    View.ld_unit_zero (S := S1024x128) hzAcc, hf7, hf9]
  rfl

/-! ## The carried state along the grid -/

/-- The state after point `n` is one fold, from the reset state where `n` is a multiple of 4 and else from what the
    point before left. -/
theorem scN_step (c : Dev nD) (n : ℕ) (h : n < cfg1.N) (s : Sc F)
    (hs : ∀ h0 : n % 4 ≠ 0, s = scN V c (n - 1) (by omega)) :
    scN V c n h = scStep (qTile V c ⟨n, h⟩) (kTile V c ⟨n, h⟩) (vTile V c ⟨n, h⟩) (if n % 4 = 0 then scInit else s) := by
  cases n with
  | zero => rfl
  | succ n =>
    rw [scN]
    by_cases h4 : (n + 1) % 4 = 0
    · rw [if_pos h4, if_pos h4]
    · rw [if_neg h4, if_neg h4, hs h4]; rfl

/-- So the contents the body leaves at point `t` are tracked before point `t + 1`. -/
theorem tracked_succ (c : Dev nD) (t : Fin cfg1.N) (s : Sc F) (hs : Tracked V c t.castSucc s) :
    Tracked V c t.succ (scStep (qTile V c t) (kTile V c t) (vTile V c t) (if t.val % 4 = 0 then scInit else s)) := by
  intro _
  exact (scN_step V c t.val t.isLt s hs).symm

/-- A window live at a point is left at what the body stores. -/
theorem leavesExact_live {cfg : Cfg sig Λ₀} {c : Dev nD} (dat : Dat τ (Elt F) Unit ℕ (UR sig nD τ) ℕ cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]

/-! ## The obligation -/

set_option maxHeartbeats 1000000 in
/-- The library's body obligation for the attention body, at every point. -/
theorem body_obligation1 (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ (dat1 V c).leavesExact 3 t))
  unfold bodyAt1
  simp only [before1_0, before1_1, before1_2]
  rw [show (dat1 V c).owesAt () t.succ = (dat1 V c).owesAt () t.castSucc from rfl,
    Phi1_eq, Phi1_eq, after1_0, after1_1, after1_2]
  unfold Φ1
  by_cases hc0 : cond1_0 (grid1.coords t)
  · by_cases hc1 : cond1_1 (grid1.coords t)
    · exfalso
      have h0 := (hcond1_0 t).1 hc0
      have h1 := (hcond1_1 t).1 hc1
      omega
    · -- the point resets and does not store the output
      have h4 : t.val % 4 = 0 := (hcond1_0 t).1 hc0
      rw [Dat.leavesExact_idle _ 3 t (idleAt1_3 t hc1) (noFlush1_3 t hc1)]
      iintro ⟨⟨Hst, ⟨%s, %hs, Hm, Hl, Ha⟩, Hr⟩, Ho, ⟨%d0, H0⟩, ⟨%d1, H1⟩, ⟨%d2, H2⟩, ⟨%d3, H3⟩⟩
      iapply (sound_kernel1_A c Set.univ _ _ _ _ _ _ _ _ _ _ _ _ _ _ _ hc0 hc1 (qTile V c t) (kTile V c t) (vTile V c t)
        ((dat1 V c).before 3 t d3) _)
      isplitl [H0]; · iexact H0
      isplitl [H1]; · iexact H1
      isplitl [H2]; · iexact H2
      isplitl [H3]; · iexact H3
      isplitl [Hm]; · iexists _; iexact Hm
      isplitl [Hl]; · iexists _; iexact Hl
      isplitl [Ha]; · iexists _; iexact Ha
      iintro ⟨H0, H1, H2, H3, Hm, Hl, Ha⟩
      isplitl [Hst Hm Hl Ha Hr]
      · isplitl [Hst]; · iexact Hst
        isplitr [Hr]
        swap; · iexact Hr
        iexists (scStep (qTile V c t) (kTile V c t) (vTile V c t) (scInit (F := F))); isplitr
        · ipureintro
          have h := tracked_succ V c t s hs
          rw [if_pos h4] at h
          exact h
        isplitl [Hm]; · iexact Hm
        isplitl [Hl]; · iexact Hl
        iexact Ha
      isplitl [Ho]; · iexact Ho
      isplitl [H0]; · iexact H0
      isplitl [H1]; · iexact H1
      isplitl [H2]; · iexact H2
      iexists d3; iexact H3
  · have h4 : ¬t.val % 4 = 0 := fun h => hc0 ((hcond1_0 t).2 h)
    by_cases hc1 : cond1_1 (grid1.coords t)
    · -- the point does not reset and stores the output
      rw [leavesExact_live _ 3 t (liveAt1_3 t hc1), after1_3]
      iintro ⟨⟨Hst, ⟨%s, %hs, Hm, Hl, Ha⟩, Hr⟩, Ho, ⟨%d0, H0⟩, ⟨%d1, H1⟩, ⟨%d2, H2⟩, ⟨%d3, H3⟩⟩
      have hN := scN_step V c t.val t.isLt s hs
      rw [if_neg h4] at hN
      rw [hN]
      iapply (sound_kernel1_C c Set.univ _ _ _ _ _ _ _ _ _ _ _ _ _ _ _ hc0 hc1 (qTile V c t) (kTile V c t) (vTile V c t) s _)
      isplitl [H0]; · iexact H0
      isplitl [H1]; · iexact H1
      isplitl [H2]; · iexact H2
      isplitl [H3]; · iexists _; iexact H3
      isplitl [Hm]; · iexact Hm
      isplitl [Hl]; · iexact Hl
      isplitl [Ha]; · iexact Ha
      iintro ⟨H0, H1, H2, H3, Hm, Hl, Ha⟩
      isplitl [Hst Hm Hl Ha Hr]
      · isplitl [Hst]; · iexact Hst
        isplitr [Hr]
        swap; · iexact Hr
        iexists (scStep (qTile V c t) (kTile V c t) (vTile V c t) s); isplitr
        · ipureintro
          have h := tracked_succ V c t s hs
          rw [if_neg h4] at h
          exact h
        isplitl [Hm]; · iexact Hm
        isplitl [Hl]; · iexact Hl
        iexact Ha
      isplitl [Ho]; · iexact Ho
      isplitl [H0]; · iexact H0
      isplitl [H1]; · iexact H1
      isplitl [H2]; · iexact H2
      iexact H3
    · -- the point neither resets nor stores the output
      rw [Dat.leavesExact_idle _ 3 t (idleAt1_3 t hc1) (noFlush1_3 t hc1)]
      iintro ⟨⟨Hst, ⟨%s, %hs, Hm, Hl, Ha⟩, Hr⟩, Ho, ⟨%d0, H0⟩, ⟨%d1, H1⟩, ⟨%d2, H2⟩, ⟨%d3, H3⟩⟩
      iapply (sound_kernel1_B c Set.univ _ _ _ _ _ _ _ _ _ _ _ _ _ _ _ hc0 hc1 (qTile V c t) (kTile V c t) (vTile V c t)
        ((dat1 V c).before 3 t d3) s _)
      isplitl [H0]; · iexact H0
      isplitl [H1]; · iexact H1
      isplitl [H2]; · iexact H2
      isplitl [H3]; · iexact H3
      isplitl [Hm]; · iexact Hm
      isplitl [Hl]; · iexact Hl
      isplitl [Ha]; · iexact Ha
      iintro ⟨H0, H1, H2, H3, Hm, Hl, Ha⟩
      isplitl [Hst Hm Hl Ha Hr]
      · isplitl [Hst]; · iexact Hst
        isplitr [Hr]
        swap; · iexact Hr
        iexists (scStep (qTile V c t) (kTile V c t) (vTile V c t) s); isplitr
        · ipureintro
          have h := tracked_succ V c t s hs
          rw [if_neg h4] at h
          exact h
        isplitl [Hm]; · iexact Hm
        isplitl [Hl]; · iexact Hl
        iexact Ha
      isplitl [Ho]; · iexact Ho
      isplitl [H0]; · iexact H0
      isplitl [H1]; · iexact H1
      isplitl [H2]; · iexact H2
      iexists d3; iexact H3

end Cert.KernelIdeal.Hand

end
-- ==== Proof.IdealRun.lean ====
/-
  The whole kernel program run from launch to return. Between its items (eight host operations, the projection
  region, one reshape, the attention region) the contents of the core's unscoped buffers are a fold from the launch
  memory: each host stretch applies its operations; the projection region replaces its output array by what its
  sixteen write-backs leave; the attention region replaces its output array by what its write-backs leave and
  touches nothing else. The attention region's three input windows read ONE array, so that array's ownership is
  split three ways at the region's entry and joined again at its exit. Every weakly fair execution ends with every
  unscoped buffer at the last fold; the argument arrays are never written, so they end as launched.
-/
import proofs.«416957_j77120432767536_3_alg».proof.Proof.IdealProj
import proofs.«416957_j77120432767536_3_alg».proof.Proof.IdealFlashDefs
import proofs.«416957_j77120432767536_3_alg».proof.Proof.IdealFlashBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the reshape (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: its output array at what its write-backs leave, every other buffer as entered. -/
def W4 (c : Dev nD) : Valuation τ sig (Elt F) :=
  Function.update (W3 m ρ c) (Proc.devRef .tc main_v9) ((dat1 (V3 m ρ) c).arrAt 3 cfg1.N)
theorem W4_out (c : Dev nD) : W4 m ρ c (Proc.devRef .tc main_v9) = (dat1 (V3 m ρ) c).arrAt 3 cfg1.N := by
  unfold W4; exact Function.update_self ..
theorem W4_of_ne (c : Dev nD) (b : Ref sig .tc) (hb : b ≠ main_v9) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The attention region's arrays: one buffer behind three input windows -/

variable (V : (c : Dev nD) → (b : Ref sig .tc) → Buf (Elt F) ((c : Thread nD τ).loc b))

theorem share1_0 (c : Dev nD) : (dat1 V c).share 0 = shQ := by
  show (if (cfg1.win 0).isOut = true then fullShare else (dat1 V c).q 0) = shQ
  rw [if_neg (by decide)]; dsimp only [dat1]
theorem share1_1 (c : Dev nD) : (dat1 V c).share 1 = shK := by
  show (if (cfg1.win 1).isOut = true then fullShare else (dat1 V c).q 1) = shK
  rw [if_neg (by decide)]; dsimp only [dat1]
theorem share1_2 (c : Dev nD) : (dat1 V c).share 2 = shV := by
  show (if (cfg1.win 2).isOut = true then fullShare else (dat1 V c).q 2) = shV
  rw [if_neg (by decide)]; dsimp only [dat1]
theorem share1_3 (c : Dev nD) : (dat1 V c).share 3 = fullShare := by
  show (if (cfg1.win 3).isOut = true then fullShare else (dat1 V c).q 3) = fullShare
  rw [if_pos (by decide)]

/-- The region's arrays at contents `G`, window by window: the input array three times, at the three shares, and
    the output array at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v8) ↦{shQ} G 0) ∗ (((c : Thread nD τ).loc main_v8) ↦{shK} G 1)
          ∗ (((c : Thread nD τ).loc main_v8) ↦{shV} G 2) ∗ (((c : Thread nD τ).loc main_v9) ↦{fullShare} G 3)) := by
  unfold Dat.arrays
  rw [bigSep_W1, share1_0, share1_1, share1_2, share1_3, (arr_whole1 0).set_eq_univ, (arr_whole1 3).set_eq_univ]

/-- The two buffers behind the region's arrays, each whole at the full share. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v8) ↦{fullShare} Vv main_v8) ∗ (((c : Thread nD τ).loc main_v9) ↦{fullShare} Vv main_v9)) := by
  unfold Pipeline.arrBufs
  exact bigSep_eq_bigSepL_of_eq [main_v8, main_v9] (by decide) (by decide) _

/-- A full share is the three windows' shares together. -/
theorem split3 (ℓ : Loc nD τ sig) (f : Buf (Elt F) ℓ) :
    ((ℓ ↦{fullShare} f) : sProp 𝕄) ⊢ iprop((ℓ ↦{shQ} f) ∗ (ℓ ↦{shK} f) ∗ (ℓ ↦{shV} f)) :=
  (pointsTo_share (PosShare.mem_left_op_right fullShare)).1.trans
    (sep_mono .rfl (pointsTo_share (PosShare.mem_left_op_right fullShare.right)).1)
theorem join3 (ℓ : Loc nD τ sig) (f : Buf (Elt F) ℓ) :
    (iprop((ℓ ↦{shQ} f) ∗ (ℓ ↦{shK} f) ∗ (ℓ ↦{shV} f)) : sProp 𝕄) ⊢ (ℓ ↦{fullShare} f) :=
  (sep_mono .rfl (pointsTo_share (PosShare.mem_left_op_right fullShare.right)).2).trans
    (pointsTo_share (PosShare.mem_left_op_right fullShare)).2

/-- ENTRY: the input buffer's full share splits into the three windows' shares. -/
theorem arrays1_in (c : Dev nD) (Vv : (b : Ref sig .tc) → Buf (Elt F) ((c : Thread nD τ).loc b))
    (G : (w : Fin cfg1.W) → Buf (Elt F) ((cfg1.win w).arr.view.loc (c : Thread nD τ)))
    (h0 : G 0 = Vv main_v8) (h1 : G 1 = Vv main_v8) (h2 : G 2 = Vv main_v8) (h3 : G 3 = Vv main_v9) :
    (Pipeline.arrBufs (Ix := Unit) (Name := ℕ) (U := UR sig nD τ) (Lvl := ℕ) spec1 c Vv : sProp 𝕄) ⊢ (dat1 V c).arrays G := by
  rw [arrays1_eq, arrBufs1_eq, h0, h1, h2, h3]
  iintro ⟨H8, H9⟩
  ihave H := (split3 (F := F) _ _) $$ H8
  icases H with ⟨Hq, Hk, Hv⟩
  isplitl [Hq]; · iexact Hq
  isplitl [Hk]; · iexact Hk
  isplitl [Hv]; · iexact Hv
  iexact H9

/-- EXIT: the three shares, at one contents, join into the full share again. -/
theorem arrays1_out (c : Dev nD) (Vv : (b : Ref sig .tc) → Buf (Elt F) ((c : Thread nD τ).loc b))
    (G : (w : Fin cfg1.W) → Buf (Elt F) ((cfg1.win w).arr.view.loc (c : Thread nD τ)))
    (h0 : G 0 = Vv main_v8) (h1 : G 1 = Vv main_v8) (h2 : G 2 = Vv main_v8) (h3 : G 3 = Vv main_v9) :
    ((dat1 V c).arrays G : sProp 𝕄) ⊢ Pipeline.arrBufs (Ix := Unit) (Name := ℕ) (U := UR sig nD τ) (Lvl := ℕ) spec1 c Vv := by
  rw [arrays1_eq, arrBufs1_eq, h0, h1, h2, h3]
  iintro ⟨Hq, Hk, Hv, H9⟩
  isplitr [H9]
  swap; · iexact H9
  iapply (join3 (F := F) _ _)
  isplitl [Hq]; · iexact Hq
  isplitl [Hk]; · iexact Hk
  iexact Hv

/-- The unscoped buffers that are no array of the region depend only on the contents off its two array buffers. -/
theorem rest1_congr (c : Dev nD) (Va Vb : (b : Ref sig .tc) → Buf (Elt F) ((c : Thread nD τ).loc b))
    (h : ∀ b, b ∉ Finset.univ.image (Pipeline.arrRef spec1) → Va b = Vb b) :
    (Pipeline.unscopedRest (Ix := Unit) (Name := ℕ) (U := UR sig nD τ) (Lvl := ℕ) spec1 c Va : sProp 𝕄)
      = Pipeline.unscopedRest spec1 c Vb := by
  unfold Pipeline.unscopedRest
  exact bigSep_congr fun b hb => by rw [h b (Finset.mem_sdiff.mp hb).2]

/-- The invariant with the scratch operands as plain buffers. -/
theorem Phi1_open (c : Dev nD) (t : Fin (cfg1.N + 1)) :
    (Φ1 V c t : sProp 𝕄) = iprop(otherStaging (F := F) c
      ∗ (∃ s : Sc F, ⌜Tracked V c t s⌝ ∗ (((c : Thread nD τ).loc cc1_scratch0) ↦{fullShare} s.1)
          ∗ (((c : Thread nD τ).loc cc1_scratch1) ↦{fullShare} s.2.1) ∗ (((c : Thread nD τ).loc cc1_scratch2) ↦{fullShare} s.2.2))
      ∗ ∃ r, prngReg c r) := by
  unfold Φ1; simp only [scM0, scM1, scM2, owns_whole]

/-! ## The items as segments -/

/-- A host stretch as a segment over the unscoped buffers from the contents `W`, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last fold, the generator register. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The projection region: entered from every unscoped buffer at `W1`, left at `W2`. Its three arrays are distinct
    buffers, split out of the unscoped buffers at entry and put back at exit; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention region's arrays at entry and exit, against the folds. -/
theorem hG1_in (c : Dev nD) : ∀ w : Fin cfg1.W, (dat1 (V3 m ρ) c).arrAt w 0 = V3 m ρ c (Pipeline.arrRef spec1 w) := fun _ => rfl
theorem hG1_0 (c : Dev nD) : (dat1 (V3 m ρ) c).arrAt 0 cfg1.N = V4 m ρ c main_v8 :=
  ((dat1 (V3 m ρ) c).arrAt_in 0 rfl _).trans ((A_eq1 (V3 m ρ) c 0).trans (W4_of_ne m ρ c main_v8 (by decide)).symm)
theorem hG1_1 (c : Dev nD) : (dat1 (V3 m ρ) c).arrAt 1 cfg1.N = V4 m ρ c main_v8 :=
  ((dat1 (V3 m ρ) c).arrAt_in 1 rfl _).trans ((A_eq1 (V3 m ρ) c 1).trans (W4_of_ne m ρ c main_v8 (by decide)).symm)
theorem hG1_2 (c : Dev nD) : (dat1 (V3 m ρ) c).arrAt 2 cfg1.N = V4 m ρ c main_v8 :=
  ((dat1 (V3 m ρ) c).arrAt_in 2 rfl _).trans ((A_eq1 (V3 m ρ) c 2).trans (W4_of_ne m ρ c main_v8 (by decide)).symm)
theorem hG1_3 (c : Dev nD) : (dat1 (V3 m ρ) c).arrAt 3 cfg1.N = V4 m ρ c main_v9 := (W4_out m ρ c).symm
theorem hrest1 (c : Dev nD) : ∀ b, b ∉ Finset.univ.image (Pipeline.arrRef spec1) → V3 m ρ c b = V4 m ρ c b := fun b hb =>
  (W4_of_ne m ρ c b fun e => hb (e ▸ Finset.mem_image.mpr ⟨3, Finset.mem_univ _, rfl⟩)).symm

set_option backward.isDefEq.respectTransparency.types false in
/-- The attention region: entered from every unscoped buffer at `W3`, left at `W4`. The one input array is split
    three ways among the input windows at entry and joined at exit; the output array comes back at what the
    write-backs leave; the scratch buffers and the other region's staging buffers go into the invariant (at
    contents not named) and come out; nothing is owed; no semaphore of the kernel's own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0) ∗ Pipeline.unscopedRest spec1 c (V3 m ρ c)) := by
      rw [Pipeline.unscopedBufs_split₀ (Pipeline.pin (pcfgs (F := F)) adm) 1 winFacts₀1.arr_unscoped c (V3 m ρ c)]
      exact sep_mono (arrays1_in (V3 m ρ) c (V3 m ρ c) _ rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Φ1 (V3 m ρ) c 0 from rfl, Phi1_open, (show (Pipeline.scopedRest (Ix := Unit) (Name := ℕ) (U := UR sig nD τ) (Lvl := ℕ) (Val := Elt F) (Pipeline.pin (pcfgs (F := F)) adm 1).spec c : sProp 𝕄) = Pipeline.scopedRest spec1 c from rfl), scopedRest1_eq]; unfold otherStaging
    iintro ⟨Hp, -, H0, H1, H2, H3, H4, ⟨%f0, S0⟩, ⟨%f1, S1⟩, ⟨%f2, S2⟩⟩
    isplitl [H0 H1 H2 H3 H4]
    · isplitl [H0]; · iexact H0
      isplitl [H1]; · iexact H1
      isplitl [H2]; · iexact H2
      isplitl [H3]; · iexact H3
      iexact H4
    isplitr [Hp]
    swap; · iexact Hp
    iexists (f0, f1, f2)
    isplitr; · ipureintro; exact fun h0 => absurd rfl h0
    isplitl [S0]; · iexact S0
    isplitl [S1]; · iexact S1
    iexact S2
  hout c := by
    rw [Pipeline.ownSems0_none, show (pdats m ρ 1 c).Φ (Fin.last _) = Φ1 (V3 m ρ) c (Fin.last _) from rfl, Phi1_open, (show (Pipeline.scopedRest (Ix := Unit) (Name := ℕ) (U := UR sig nD τ) (Lvl := ℕ) (Val := Elt F) (Pipeline.pin (pcfgs (F := F)) adm 1).spec c : sProp 𝕄) = Pipeline.scopedRest spec1 c from rfl), scopedRest1_eq]
    unfold otherStaging
    iintro ⟨⟨H0, H1, H2, H3, H4⟩, ⟨%s, -, S0, S1, S2⟩, Hp⟩
    isplitl [Hp]; · iexact Hp
    isplitr; · iempintro
    isplitl [H0]; · iexact H0
    isplitl [H1]; · iexact H1
    isplitl [H2]; · iexact H2
    isplitl [H3]; · iexact H3
    isplitl [H4]; · iexact H4
    isplitl [S0]; · iexists _; iexact S0
    isplitl [S1]; · iexists _; iexact S1
    iexists _; iexact S2
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) := by
      rw [Pipeline.unscopedBufs_split₀ (Pipeline.pin (pcfgs (F := F)) adm) 1 winFacts₀1.arr_unscoped c (V4 m ρ c),
        rest1_congr c (V3 m ρ c) (V4 m ρ c) (hrest1 m ρ c)]
      exact sep_mono (arrays1_out (V3 m ρ) c (V4 m ρ c) _ (hG1_0 m ρ c) (hG1_1 m ρ c) (hG1_2 m ρ c) (hG1_3 m ρ c)) .rfl
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's four items in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer of every core at the last fold `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The arguments end as launched

No host operation writes an argument and no region may change one, so the last fold at an argument's buffer walks
back to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes,
            StableHlo.reshape_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes,
            StableHlo.reshape_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.reshape_writes, Finset.mem_singleton]
          exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes,
            StableHlo.reshape_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.reshape_writes, Finset.mem_singleton]
          exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes,
            StableHlo.reshape_writes, StableHlo.nary_writes, Finset.mem_singleton]
          repeat' apply And.intro
          all_goals exact StableHlo.devRef_ne_of_ne (by decide)))
    _ = m ((c : Thread nD τ).loc main_arg3) := rfl

/-- The frame claim's post from the run's. -/
theorem args_of_run {r : PUnit × MemSt nD τ sig (Elt F)}
    (h : ∀ c : Dev nD, ∀ b ∈ Pipeline.ucRefs τ sig, r.2.mem (((c : Thread nD τ)).1, b) = W4 m ρ c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c _ (mem_uc main_arg0 (by decide))).trans (W4_main_arg0 m ρ c), (h c _ (mem_uc main_arg1 (by decide))).trans (W4_main_arg1 m ρ c),
    (h c _ (mem_uc main_arg2 (by decide))).trans (W4_main_arg2 m ρ c), (h c _ (mem_uc main_arg3 (by decide))).trans (W4_main_arg3 m ρ c)⟩

/-- THE FRAME at any float instance: every weakly fair execution terminates, nothing faulting, and the argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => args_of_run m ρ h c) (run_main m ρ)

end Cert.KernelIdeal.Hand

end
-- ==== Proof.Spec.lean ====
/-
  The mathematics both programs compute, over the extended reals, with no program in sight.

  For one output entry (batch b, query row n, head column h) attention weighs the value column
  v[b, ·, h] by the softmax of the score row s[b, n, ·]. The reference takes the row maximum M over all 4096 keys,
  exponentiates s − M, normalises by the sum and contracts with the values (`softAtt`). The kernel walks the keys in four
  tiles of 1024, carrying a running maximum m, a running denominator l and a running numerator a, rescaling l and a
  by exp(m_old − m_new) whenever the maximum grows, and divides a by l at the end (`fold1`, `online4`). Over REAL scores
  and values the two agree: exp(x − m)·exp(m − m') = exp(x − m'), so after each tile l and a are the sums of
  exp(s − m) and exp(s − m)·v over the keys seen so far at the current maximum m, and a/l = Σ (exp(s − M)/L)·v.

  The scores differ in where the scale 1/32 sits: the kernel scales the query weights before projecting
  (`projS`, `scoreK`), the reference scales the finished score (`scoreR`); over reals these are one number.
-/
import Idealize.ShloMosaic.PureOps.Ideal
import Idealize.ShloMosaic.Lib.ValueIdx

noncomputable section

open scoped BigOperators

namespace Cert.Spec

open Idealize.ShloMosaic Idealize.ShloMosaic.ValueIdx

/-- The scale both programs spell, as the f32 word for 1/32. -/
def scale : EReal := Ideal.ofBits .f32 0x3D000000#32

/-- One key tile folded into the running (maximum, denominator, numerator) of one output entry: `s c` the tile's
    scores on the entry's row, `v c` the tile's values on the entry's column. -/
def fold1 {C : Type} [Fintype C] (s v : C → EReal) (st : EReal × EReal × EReal) : EReal × EReal × EReal :=
  (max st.1 (Finset.univ.fold max ⊥ s),
   Ideal.exp (st.1 - max st.1 (Finset.univ.fold max ⊥ s)) * st.2.1
     + ∑ c, Ideal.exp (s c - max st.1 (Finset.univ.fold max ⊥ s)),
   Ideal.exp (st.1 - max st.1 (Finset.univ.fold max ⊥ s)) * st.2.2
     + ∑ c, Ideal.exp (s c - max st.1 (Finset.univ.fold max ⊥ s)) * v c)

/-- Four tiles folded in order from the reset state (−∞, 0, 0), then numerator over denominator. -/
def online4 {C : Type} [Fintype C] (s v : Fin 4 → C → EReal) : EReal :=
  Ideal.div (fold1 (s 3) (v 3) (fold1 (s 2) (v 2) (fold1 (s 1) (v 1) (fold1 (s 0) (v 0) (⊥, 0, 0))))).2.2
    (fold1 (s 3) (v 3) (fold1 (s 2) (v 2) (fold1 (s 1) (v 1) (fold1 (s 0) (v 0) (⊥, 0, 0))))).2.1

/-- The reference's form over one key index set: maximum (taken against −∞ once more, as the reference does),
    exponentials, their sum from 0, the quotient, the contraction with the values. -/
def softAtt {K : Type} [Fintype K] (s v : K → EReal) : EReal :=
  ∑ k, Ideal.div (Ideal.exp (s k - max ⊥ (Finset.univ.fold max ⊥ s)))
        (0 + ∑ k', Ideal.exp (s k' - max ⊥ (Finset.univ.fold max ⊥ s))) * v k

/-! ## Both programs' results as functions of the argument arrays -/

abbrev SX : Shape := ⟨3, ![4, 4096, 1024]⟩
abbrev SW : Shape := ⟨2, ![128, 1024]⟩

/-- A plain projection x[b, n, :] · W[h, :]. -/
def proj (x : SX.Idx → EReal) (W : SW.Idx → EReal) (b : Fin 4) (n : Fin 4096) (h : Fin 128) : EReal :=
  ∑ d : Fin 1024, x (ix3 b n d) * W (ix2 h d)

/-- The projection with the weights scaled first: x[b, n, :] · (W[h, :] · scale). -/
def projS (x : SX.Idx → EReal) (W : SW.Idx → EReal) (b : Fin 4) (n : Fin 4096) (h : Fin 128) : EReal :=
  ∑ d : Fin 1024, x (ix3 b n d) * (W (ix2 h d) * scale)

/-- The kernel's score of query row n against key row m. -/
def scoreK (x : SX.Idx → EReal) (Wq Wk : SW.Idx → EReal) (b : Fin 4) (n m : Fin 4096) : EReal :=
  ∑ h : Fin 128, projS x Wq b n h * proj x Wk b m h

/-- The reference's score of query row n against key row m. -/
def scoreR (x : SX.Idx → EReal) (Wq Wk : SW.Idx → EReal) (b : Fin 4) (n m : Fin 4096) : EReal :=
  (∑ h : Fin 128, proj x Wq b n h * proj x Wk b m h) * scale

/-- Key row c of key tile j. -/
def tileRow (j : Fin 4) (c : Fin 1024) : Fin 4096 := ⟨1024 * j.val + c.val, by have := j.isLt; have := c.isLt; omega⟩

/-- Lane h of the q (k = 0), k (k = 1) or v (k = 2) block of the fused 384-lane matrix. -/
def lane (k : Fin 3) (h : Fin 128) : Fin 384 := ⟨128 * k.val + h.val, by have := k.isLt; have := h.isLt; omega⟩

/-- The kernel's result at (b, n, h). -/
def GkAt (x : SX.Idx → EReal) (Wq Wk Wv : SW.Idx → EReal) (b : Fin 4) (n : Fin 4096) (h : Fin 128) : EReal :=
  online4 (fun j c => scoreK x Wq Wk b n (tileRow j c)) (fun j c => proj x Wv b (tileRow j c) h)

/-- The reference's result at (b, n, h). -/
def GrAt (x : SX.Idx → EReal) (Wq Wk Wv : SW.Idx → EReal) (b : Fin 4) (n : Fin 4096) (h : Fin 128) : EReal :=
  softAtt (fun m : Fin 4096 => scoreR x Wq Wk b n m) (fun m => proj x Wv b m h)

end Cert.Spec

end
-- ==== Proof.KValueProj.lean ====
/-
  What region 0 leaves in its output array, at the ideal values: entry (r, j) of the 16384 × 384 fused matrix is the
  product of row r of the flattened input with column j of the fused weight matrix. Row r lies in tile r / 1024,
  which point r / 1024 writes back, and no other point touches it.
-/
import proofs.«416957_j77120432767536_3_alg».proof.Proof.IdealProj
import proofs.«416957_j77120432767536_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

/-! ## The tile product at an index -/

/-- Where the product reads its operands: the left one on the output's row and the contraction index, the right one
    on the contraction index and the output's column. One statement per operand axis. -/
theorem lhs_proj_0 (i : S1024x384.Idx) (q : dot_S1024x1024_S1024x384_S1024x384_1_0_0_1_n_n.contr.Idx) :
    (dot_S1024x1024_S1024x384_S1024x384_1_0_0_1_n_n.lhsIdx i q 0).val = (i 0).val := by
  unfold DotDims.lhsIdx
  rw [dif_neg (show ¬(0 : Fin S1024x1024.rank) ∈ dot_S1024x1024_S1024x384_S1024x384_1_0_0_1_n_n.lhsBatch by decide), dif_pos (show (0 : Fin S1024x1024.rank) ∈ dot_S1024x1024_S1024x384_S1024x384_1_0_0_1_n_n.lhsNonContracting by decide)]
  rfl
theorem lhs_proj_1 (i : S1024x384.Idx) (q : dot_S1024x1024_S1024x384_S1024x384_1_0_0_1_n_n.contr.Idx) :
    (dot_S1024x1024_S1024x384_S1024x384_1_0_0_1_n_n.lhsIdx i q 1).val = (q ⟨0, by decide⟩).val :=
  dot_S1024x1024_S1024x384_S1024x384_1_0_0_1_n_n.lhsIdx_val_of_single rfl i q
theorem rhs_proj_0 (i : S1024x384.Idx) (q : dot_S1024x1024_S1024x384_S1024x384_1_0_0_1_n_n.contr.Idx) :
    (dot_S1024x1024_S1024x384_S1024x384_1_0_0_1_n_n.rhsIdx i q 0).val = (q ⟨0, by decide⟩).val :=
  dot_S1024x1024_S1024x384_S1024x384_1_0_0_1_n_n.rhsIdx_val_of_single rfl i q
theorem rhs_proj_1 (i : S1024x384.Idx) (q : dot_S1024x1024_S1024x384_S1024x384_1_0_0_1_n_n.contr.Idx) :
    (dot_S1024x1024_S1024x384_S1024x384_1_0_0_1_n_n.rhsIdx i q 1).val = (i 1).val := by
  unfold DotDims.rhsIdx
  rw [dif_neg (show ¬(1 : Fin S1024x384.rank) ∈ dot_S1024x1024_S1024x384_S1024x384_1_0_0_1_n_n.rhsBatch by decide), dif_pos (show (1 : Fin S1024x384.rank) ∈ dot_S1024x1024_S1024x384_S1024x384_1_0_0_1_n_n.rhsNonContracting by decide)]
  rfl

/-- The body's payload at entry (p, j): row p of the input tile against column j of the weight matrix. The casts and
    roundings around the product are identities at the ideal values, and the accumulator is the zero splat. -/
theorem pay_apply (x : Vec Ideal S1024x1024 .f32) (w : Vec Ideal S1024x384 .f32) (p : Fin 1024) (j : Fin 384) :
    k0_pay1 (F := Ideal) x w (ix2 p j) = ∑ d : Fin 1024, (x : S1024x1024.Idx → EReal) (ix2 p d) * (w : S1024x384.Idx → EReal) (ix2 d j) := by
  unfold k0_pay1
  simp only [truncf_apply, shapeCast_self, matmul]
  rw [Ideal.matmul_constant_zero_apply, ← Equiv.sum_comp (contrEquiv1 dot_S1024x1024_S1024x384_S1024x384_1_0_0_1_n_n 1024 rfl rfl).symm]
  refine Finset.sum_congr rfl fun d _ => ?_
  have hd := contrEquiv1_symm_val dot_S1024x1024_S1024x384_S1024x384_1_0_0_1_n_n 1024 rfl rfl d
  have el : dot_S1024x1024_S1024x384_S1024x384_1_0_0_1_n_n.lhsIdx (ix2 p j) ((contrEquiv1 dot_S1024x1024_S1024x384_S1024x384_1_0_0_1_n_n 1024 rfl rfl).symm d) = ix2 p d := funext fun a => Fin.ext (by
    match a with
    | ⟨0, _⟩ => exact lhs_proj_0 _ _
    | ⟨1, _⟩ => exact (lhs_proj_1 _ _).trans hd)
  have er : dot_S1024x1024_S1024x384_S1024x384_1_0_0_1_n_n.rhsIdx (ix2 p j) ((contrEquiv1 dot_S1024x1024_S1024x384_S1024x384_1_0_0_1_n_n 1024 rfl rfl).symm d) = ix2 d j := funext fun a => Fin.ext (by
    match a with
    | ⟨0, _⟩ => exact (rhs_proj_0 _ _).trans hd
    | ⟨1, _⟩ => exact rhs_proj_1 _ _)
  simp only [truncf_apply]
  rw [el, er]

/-- The body's payload at any entry of the tile. -/
theorem pay_apply_idx (x : Vec Ideal S1024x1024 .f32) (w : Vec Ideal S1024x384 .f32) (i : S1024x384.Idx) :
    k0_pay1 (F := Ideal) x w i = ∑ d : Fin 1024, (x : S1024x1024.Idx → EReal) (ix2 (i 0) d) * (w : S1024x384.Idx → EReal) (ix2 d (i 1)) :=
  (congrArg (k0_pay1 (F := Ideal) x w) (eq_ix2 i)).trans (pay_apply x w (i 0) (i 1))

/-! ## The blocks as parts of their arrays -/

/-- The printed index maps, decided over the grid: the input tile and the output tile sit at block row `t`, block
    column 0; the weight matrix is the one block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The flattened input, the fused weight matrix and the region's output array, each at its literal type. -/
abbrev v0Arr (c : Dev nD) : S16384x1024.Idx → EReal := V c main_v0
abbrev v6Arr (c : Dev nD) : S1024x384.Idx → EReal := V c main_v6
abbrev qkvOut (c : Dev nD) : S16384x384.Idx → EReal := (dat0 (F := Ideal) V c).arrAt 2 cfg0.N

/-- Row p of the input tile at point `t` is row 1024·t + p of the flattened input. -/
theorem xTile_apply (c : Dev nD) (t : Fin cfg0.N) (p d : Fin 1024) (r : Fin 16384) (hr : r.val = 1024 * t.val + p.val) :
    (xTile V c t : S1024x1024.Idx → EReal) (ix2 p d) = v0Arr V c (ix2 r d) := by
  obtain ⟨e0, e1, -⟩ := idx_facts0 t
  show iblk0 V c 0 t (ix2 p d) = _
  unfold iblk0
  rw [View.read_apply]
  show V c main_v0 _ = V c main_v0 _
  congr 1
  funext a
  apply Fin.ext
  match a with
  | ⟨0, _⟩ => show win0_0.index t (0 : Fin 2) * 1024 + 1 * p.val = r.val; omega
  | ⟨1, _⟩ => show win0_0.index t (1 : Fin 2) * 1024 + 1 * d.val = d.val; omega

/-- The weight block at every point is the whole weight matrix. -/
theorem wMat_apply (c : Dev nD) (t : Fin cfg0.N) (d : Fin 1024) (j j' : Fin 384) (hj : j'.val = j.val) :
    (wMat V c t : S1024x384.Idx → EReal) (ix2 d j) = v6Arr V c (ix2 d j') := by
  obtain ⟨-, -, e2, e3, -⟩ := idx_facts0 t
  show iblk0 V c 1 t (ix2 d j) = _
  unfold iblk0
  rw [View.read_apply]
  show V c main_v6 _ = V c main_v6 _
  congr 1
  funext a
  apply Fin.ext
  match a with
  | ⟨0, _⟩ => show win0_1.index t (0 : Fin 2) * 1024 + 1 * d.val = d.val; omega
  | ⟨1, _⟩ => show win0_1.index t (1 : Fin 2) * 384 + 1 * j.val = j'.val; omega

/-! ## What a point writes back, and the array after all of them -/

/-- The fused projection as one function of the two argument arrays. -/
abbrev Gproj (c : Dev nD) : S16384x384.Idx → EReal :=
  fun i => ∑ d : Fin 1024, v0Arr V c (ix2 (i 0) d) * v6Arr V c (ix2 d (i 1))

/-- What point `t` writes back is block `t` of the fused projection. -/
theorem flushed2_eq (c : Dev nD) (t : Fin cfg0.N) :
    (dat0 (F := Ideal) V c).flushed 2 t = ((cfg0.win 2).blk t).view.read (Elt Ideal) (Gproj V c) := by
  obtain ⟨-, -, -, -, e4, e5⟩ := idx_facts0 t
  show (cfg0.win 2).cut (grid0.coords t) ((dat0 V c).after 2 t) = _
  rw [after0_2]
  funext i
  rw [View.read_apply]
  refine (pay_apply_idx (xTile V c t) (wMat V c t) _).trans ?_
  refine Finset.sum_congr rfl fun d _ => ?_
  refine congrArg₂ (· * ·) (xTile_apply V c t _ d _ ?_) (wMat_apply V c t d _ _ ?_)
  · show win0_2.index t (0 : Fin 2) * 1024 + 1 * (i 0).val = 1024 * t.val + (i 0).val; omega
  · show win0_2.index t (1 : Fin 2) * 384 + 1 * (i 1).val = (i 1).val; omega

/-- An entry of the array is in point `t`'s block iff each coordinate is in the block's range on its axis. -/
theorem mem_blk2 (t : Fin cfg0.N) (i : S16384x384.Idx) :
    i ∈ ((cfg0.win 2).blk t).view.set ↔ ∀ a : Fin 2, win0_2.index t a * S1024x384.size a ≤ (i a).val ∧ (i a).val < win0_2.index t a * S1024x384.size a + S1024x384.size a := by
  show i ∈ ((View.whole main_v7).slice (win0_2.rect t)).set ↔ _
  rw [View.set_slice_whole, Rect.mem_set_unit]
  exact Iff.rfl

/-- Every entry lies in the block of the point its row's tile names. -/
theorem covered2 (i : S16384x384.Idx) :
    ∃ t : Fin cfg0.N, (cfg0.win 2).flush t = true ∧ i ∈ ((cfg0.win 2).blk t).view.set := by
  have hi0 : (i 0).val < 16384 := (i 0).isLt
  have hi1 : (i 1).val < 384 := (i 1).isLt
  have hN : cfg0.N = 16 := N_0
  refine ⟨⟨(i 0).val / 1024, by omega⟩, flush0_2 _, ?_⟩
  obtain ⟨-, -, -, -, e4, e5⟩ := idx_facts0 ⟨(i 0).val / 1024, by omega⟩
  rw [mem_blk2]
  intro a
  match a with
  | ⟨0, _⟩ =>
    show win0_2.index ⟨(i 0).val / 1024, _⟩ (0 : Fin 2) * 1024 ≤ (i 0).val ∧ (i 0).val < win0_2.index ⟨(i 0).val / 1024, _⟩ (0 : Fin 2) * 1024 + 1024
    rw [e4]; show (i 0).val / 1024 * 1024 ≤ (i 0).val ∧ (i 0).val < (i 0).val / 1024 * 1024 + 1024; omega
  | ⟨1, _⟩ =>
    show win0_2.index ⟨(i 0).val / 1024, _⟩ (1 : Fin 2) * 384 ≤ (i 1).val ∧ (i 1).val < win0_2.index ⟨(i 0).val / 1024, _⟩ (1 : Fin 2) * 384 + 384
    rw [e5]; omega

/-- The output array after the region's points is the fused projection. -/
theorem qkvOut_eq (c : Dev nD) : qkvOut V c = Gproj V c :=
  (dat0 (F := Ideal) V c).arrAt_eq_of_cover 2 (Gproj V c) (fun t _ => flushed2_eq V c t) (fun i => covered2 i)

/-- The output array of region 0 after its 16 points, entry by entry. -/
theorem proj_arr (c : Dev nD) (r : Fin 16384) (j : Fin 384) :
    qkvOut V c (ix2 r j) = ∑ d : Fin 1024, v0Arr V c (ix2 r d) * v6Arr V c (ix2 d j) :=
  congrFun (qkvOut_eq V c) (ix2 r j)

end Cert.KernelIdeal.Hand

end
-- ==== Proof.KFlashEntry.lean ====
/-
  One point of the attention body read at one entry, at the ideal values. For row r of the query tile and column h,
  the new running maximum at r, the new denominator at r and the new numerator at (r, h) depend only on the old
  three at the same places, on the scores of row r against the key tile's 1024 rows (each a contraction over the 128
  lanes) and on column h of the value tile: exactly one fold of the specification. The reset state is (−∞, 0, 0)
  everywhere, and the stored output at (r, h) is numerator over denominator.
-/
import proofs.«416957_j77120432767536_3_alg».proof.Proof.IdealFlashDefs
import proofs.«416957_j77120432767536_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

namespace FlashEntry

/-! ## Layout operations on a column, read at coordinates -/

/-- An `[a]` array cast to `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The constants -/

/-- The f32 word 0xFF800000 denotes −∞. -/
theorem ofBits_neg_inf_f32 : Ideal.ofBits .f32 0xFF800000#32 = (⊥ : EReal) := by
  simp [Ideal.ofBits, Ideal.ieee]

/-! ## The two matrix products' operand indices, axis by axis -/

/-- The score product contracts lane axis 1 of both operands: at output `(r, cc)` and contraction position `q` the
    left operand is read at row `r`. -/
theorem lhs_score_0 (j : S1024x1024.Idx) (q : dot_S1024x128_S1024x128_S1024x1024_1_1_0_0_n_n.contr.Idx) :
    (dot_S1024x128_S1024x128_S1024x1024_1_1_0_0_n_n.lhsIdx j q 0).val = (j 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl
theorem lhs_score_1 (j : S1024x1024.Idx) (q : dot_S1024x128_S1024x128_S1024x1024_1_1_0_0_n_n.contr.Idx) :
    (dot_S1024x128_S1024x128_S1024x1024_1_1_0_0_n_n.lhsIdx j q 1).val = (q ⟨0, by decide⟩).val :=
  dot_S1024x128_S1024x128_S1024x1024_1_1_0_0_n_n.lhsIdx_val_of_single rfl j q
/-- … and the right operand at row `cc`, the output's column. -/
theorem rhs_score_0 (j : S1024x1024.Idx) (q : dot_S1024x128_S1024x128_S1024x1024_1_1_0_0_n_n.contr.Idx) :
    (dot_S1024x128_S1024x128_S1024x1024_1_1_0_0_n_n.rhsIdx j q 0).val = (j 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl
theorem rhs_score_1 (j : S1024x1024.Idx) (q : dot_S1024x128_S1024x128_S1024x1024_1_1_0_0_n_n.contr.Idx) :
    (dot_S1024x128_S1024x128_S1024x1024_1_1_0_0_n_n.rhsIdx j q 1).val = (q ⟨0, by decide⟩).val :=
  dot_S1024x128_S1024x128_S1024x1024_1_1_0_0_n_n.rhsIdx_val_of_single rfl j q

/-- The weights-times-values product contracts axis 1 of the weights with axis 0 of the values. -/
theorem lhs_wv_0 (j : S1024x128.Idx) (q : dot_S1024x1024_S1024x128_S1024x128_1_0_0_1_n_n.contr.Idx) :
    (dot_S1024x1024_S1024x128_S1024x128_1_0_0_1_n_n.lhsIdx j q 0).val = (j 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
theorem lhs_wv_1 (j : S1024x128.Idx) (q : dot_S1024x1024_S1024x128_S1024x128_1_0_0_1_n_n.contr.Idx) :
    (dot_S1024x1024_S1024x128_S1024x128_1_0_0_1_n_n.lhsIdx j q 1).val = (q ⟨0, by decide⟩).val :=
  dot_S1024x1024_S1024x128_S1024x128_1_0_0_1_n_n.lhsIdx_val_of_single rfl j q
theorem rhs_wv_0 (j : S1024x128.Idx) (q : dot_S1024x1024_S1024x128_S1024x128_1_0_0_1_n_n.contr.Idx) :
    (dot_S1024x1024_S1024x128_S1024x128_1_0_0_1_n_n.rhsIdx j q 0).val = (q ⟨0, by decide⟩).val :=
  dot_S1024x1024_S1024x128_S1024x128_1_0_0_1_n_n.rhsIdx_val_of_single rfl j q
theorem rhs_wv_1 (j : S1024x128.Idx) (q : dot_S1024x1024_S1024x128_S1024x128_1_0_0_1_n_n.contr.Idx) :
    (dot_S1024x1024_S1024x128_S1024x128_1_0_0_1_n_n.rhsIdx j q 1).val = (j 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- The source index of a row reduction of a 1024 × 1024 tile: row `r` with `cc` put back on the reduced axis. -/
theorem lift_row (hR : S1024x1024.Reduces [1] S1024) (r : Fin 1024) (cc : Fin 1024) : hR.lift (ix1 r) cc = ix2 r cc :=
  funext fun a => Fin.ext (by match a with | ⟨0, _⟩ => rfl | ⟨1, _⟩ => rfl)

/-! ## The payloads, entry by entry -/

section Payloads
variable (q k v : Vec Ideal S1x1024x128 .bf16) (m : Vec Ideal S1024x1 .f32)

/-- The score of query row `r` against key row `cc`: the contraction over the 128 lanes. -/
def score (r cc : Fin 1024) : EReal :=
  ∑ h' : Fin 128, (q : S1x1024x128.Idx → EReal) (ix3 0 r h') * (k : S1x1024x128.Idx → EReal) (ix3 0 cc h')

/-- The new running maximum at row `r`, given the old one. -/
def newMax (r : Fin 1024) : EReal := max (m (ix2 r 0)) (Finset.univ.fold max ⊥ (score q k r))

/-- The score tile. -/
theorem pay7_apply (r cc : Fin 1024) : k1_pay7 q k (ix2 r cc) = score q k r cc := by
  unfold k1_pay7 score
  refine (Ideal.matmul_constant_zero_apply dot_S1024x128_S1024x128_S1024x1024_1_1_0_0_n_n none _ _ (ix2 r cc)).trans ?_
  rw [← Equiv.sum_comp (contrEquiv1 dot_S1024x128_S1024x128_S1024x1024_1_1_0_0_n_n 128 rfl rfl).symm]
  refine Finset.sum_congr rfl fun h' _ => ?_
  have hk := contrEquiv1_symm_val dot_S1024x128_S1024x128_S1024x1024_1_1_0_0_n_n 128 rfl rfl h'
  have el : dot_S1024x128_S1024x128_S1024x1024_1_1_0_0_n_n.lhsIdx (ix2 r cc)
      ((contrEquiv1 dot_S1024x128_S1024x128_S1024x1024_1_1_0_0_n_n 128 rfl rfl).symm h') = ix2 r h' :=
    funext fun a => Fin.ext (by
      match a with
      | ⟨0, _⟩ => exact lhs_score_0 _ _
      | ⟨1, _⟩ => exact (lhs_score_1 _ _).trans hk)
  have er : dot_S1024x128_S1024x128_S1024x1024_1_1_0_0_n_n.rhsIdx (ix2 r cc)
      ((contrEquiv1 dot_S1024x128_S1024x128_S1024x1024_1_1_0_0_n_n 128 rfl rfl).symm h') = ix2 cc h' :=
    funext fun a => Fin.ext (by
      match a with
      | ⟨0, _⟩ => exact rhs_score_0 _ _
      | ⟨1, _⟩ => exact (rhs_score_1 _ _).trans hk)
  rw [el, er, shapeCast_1ab_ab_apply, shapeCast_1ab_ab_apply]

/-- The new running maximum: the old one against the row maximum of the score tile. -/
theorem pay8_apply (r : Fin 1024) : k1_pay8 q k m (ix2 r 0) = newMax q k m r := by
  unfold k1_pay8 newMax
  refine congrArg (max (m (ix2 r 0))) ?_
  refine (shapeCast_a_a1_apply _ _ r 0).trans ?_
  refine (Ideal.multiReduction_maximumf_single (k1_pay7 q k) _ reduces_S1024x1024_S1024 _ _ (ix1 r)).trans ?_
  have e1 : FloatOps.ofBits (F := Ideal) .f32 0xFF800000#32 = (⊥ : EReal) := ofBits_neg_inf_f32
  have e2 : (k1_pay7 q k ∘ reduces_S1024x1024_S1024.lift (ix1 r)) = score q k r :=
    funext fun cc => (congrArg (k1_pay7 q k) (lift_row _ r cc)).trans (pay7_apply q k r cc)
  rw [e1, e2]
  rfl

end Payloads

section Payloads2
variable (q k v : Vec Ideal S1x1024x128 .bf16) (m m' l : Vec Ideal S1024x1 .f32)

/-- The rescaling factor exp(old − new maximum). -/
theorem pay9_apply (r : Fin 1024) :
    k1_pay9 q k m m' (ix2 r 0) = Ideal.exp (m' (ix2 r 0) - newMax q k m r) := by
  unfold k1_pay9
  exact congrArg (fun x => Ideal.exp (m' (ix2 r 0) - x)) (pay8_apply q k m r)

/-- The tile's weights exp(score − new maximum). -/
theorem pay10_apply (r cc : Fin 1024) :
    k1_pay10 q k m (ix2 r cc) = Ideal.exp (score q k r cc - newMax q k m r) := by
  unfold k1_pay10
  show Ideal.exp (k1_pay7 q k (ix2 r cc) - broadcastTo S1024x1024 (k1_pay8 q k m) broadcasts_S1024x1_S1024x1024 (ix2 r cc)) = _
  rw [broadcastTo_a1_ab_apply, pay7_apply, pay8_apply]

/-- The new denominator: the old one rescaled plus the row sum of the weights. -/
theorem pay11_apply (r : Fin 1024) :
    k1_pay11 q k m m' l (ix2 r 0)
      = Ideal.exp (m' (ix2 r 0) - newMax q k m r) * l (ix2 r 0) + ∑ cc : Fin 1024, Ideal.exp (score q k r cc - newMax q k m r) := by
  unfold k1_pay11
  refine (congrFun (shapeCast_self _ _) (ix2 r 0)).trans ?_
  show k1_pay9 q k m m' (ix2 r 0) * l (ix2 r 0)
      + shapeCast S1024x1 (multiReduction .add [1] S1024 (k1_pay10 q k m) 0x00000000#32 reduces_S1024x1024_S1024 (.inl rfl) rfl)
          shapeCasts_S1024_S1024x1 (ix2 r 0) = _
  rw [pay9_apply]
  refine congrArg (fun x : EReal => Ideal.exp (m' (ix2 r 0) - newMax q k m r) * l (ix2 r 0) + x) ?_
  refine (shapeCast_a_a1_apply _ _ r 0).trans ?_
  refine (Ideal.multiReduction_add_single (k1_pay10 q k m) _ reduces_S1024x1024_S1024 _ _ (ix1 r)).trans ?_
  exact Finset.sum_congr rfl fun cc _ => (congrArg (k1_pay10 q k m) (lift_row _ r cc)).trans (pay10_apply q k m r cc)

/-- The tile's weighted values at (r, h): the weights of row r against column h of the value tile. -/
theorem pay12_apply (r : Fin 1024) (h : Fin 128) :
    k1_pay12 q k m v (ix2 r h)
      = ∑ cc : Fin 1024, Ideal.exp (score q k r cc - newMax q k m r) * (v : S1x1024x128.Idx → EReal) (ix3 0 cc h) := by
  unfold k1_pay12
  refine (Ideal.matmul_constant_zero_apply dot_S1024x1024_S1024x128_S1024x128_1_0_0_1_n_n none _ _ (ix2 r h)).trans ?_
  rw [← Equiv.sum_comp (contrEquiv1 dot_S1024x1024_S1024x128_S1024x128_1_0_0_1_n_n 1024 rfl rfl).symm]
  refine Finset.sum_congr rfl fun cc _ => ?_
  have hk := contrEquiv1_symm_val dot_S1024x1024_S1024x128_S1024x128_1_0_0_1_n_n 1024 rfl rfl cc
  have el : dot_S1024x1024_S1024x128_S1024x128_1_0_0_1_n_n.lhsIdx (ix2 r h)
      ((contrEquiv1 dot_S1024x1024_S1024x128_S1024x128_1_0_0_1_n_n 1024 rfl rfl).symm cc) = ix2 r cc :=
    funext fun a => Fin.ext (by
      match a with
      | ⟨0, _⟩ => exact lhs_wv_0 _ _
      | ⟨1, _⟩ => exact (lhs_wv_1 _ _).trans hk)
  have er : dot_S1024x1024_S1024x128_S1024x128_1_0_0_1_n_n.rhsIdx (ix2 r h)
      ((contrEquiv1 dot_S1024x1024_S1024x128_S1024x128_1_0_0_1_n_n 1024 rfl rfl).symm cc) = ix2 cc h :=
    funext fun a => Fin.ext (by
      match a with
      | ⟨0, _⟩ => exact (rhs_wv_0 _ _).trans hk
      | ⟨1, _⟩ => exact rhs_wv_1 _ _)
  rw [el, er, shapeCast_1ab_ab_apply]
  exact congrArg (· * (v : S1x1024x128.Idx → EReal) (ix3 0 cc h)) (pay10_apply q k m r cc)

end Payloads2

/-- The new numerator: the old one rescaled row by row plus the tile's weighted values. -/
theorem pay1_apply (a : FVec Ideal S1024x1 .f32) (b : FVec Ideal S1024x128 .f32) (c : Vec Ideal S1024x128 .f32)
    (r : Fin 1024) (h : Fin 128) :
    k1_pay1 a b c (ix2 r h) = a (ix2 r 0) * c (ix2 r h) + b (ix2 r h) := by
  unfold k1_pay1
  refine (congrFun (shapeCast_self _ _) (ix2 r h)).trans ?_
  show broadcastTo S1024x128 a broadcasts_S1024x1_S1024x128 (ix2 r h) * c (ix2 r h) + b (ix2 r h) = _
  rw [broadcastTo_a1_ab_apply]

/-- The stored maximum is the computed one. -/
theorem pay2_eq (x : FVec Ideal S1024x1 .f32) : k1_pay2 x = x := by
  unfold k1_pay2
  exact shapeCast_self _ _

end FlashEntry

open FlashEntry

/-- The reset state, entry by entry. -/
theorem scInit_entry (r : Fin 1024) (h : Fin 128) :
    ((scInit (F := Ideal)).1 (ix2 r 0), (scInit (F := Ideal)).2.1 (ix2 r 0), (scInit (F := Ideal)).2.2 (ix2 r h)) = ((⊥ : EReal), (0 : EReal), (0 : EReal)) := by
  have h4 : k1_pay4 (F := Ideal) (ix2 r 0) = (⊥ : EReal) := by
    unfold k1_pay4
    refine (congrFun (shapeCast_self _ _) (ix2 r 0)).trans ?_
    exact ofBits_neg_inf_f32
  have h5 : k1_pay5 (F := Ideal) (ix2 r 0) = (0 : EReal) := by
    unfold k1_pay5
    refine (congrFun (shapeCast_self _ _) (ix2 r 0)).trans ?_
    exact Ideal.ofBits_zero_f32
  have h6 : k1_pay6 (F := Ideal) (ix2 r h) = (0 : EReal) := by
    unfold k1_pay6
    refine (congrFun (shapeCast_self _ _) (ix2 r h)).trans ?_
    exact Ideal.ofBits_zero_f32
  exact Prod.ext h4 (Prod.ext h5 h6)

/-- One point's fold, entry by entry, is the specification's fold of the tile's score row and value column. -/
theorem scStep_entry (q k v : Vec Ideal S1x1024x128 .bf16) (s : Sc Ideal) (r : Fin 1024) (h : Fin 128) :
    ((scStep q k v s).1 (ix2 r 0), (scStep q k v s).2.1 (ix2 r 0), (scStep q k v s).2.2 (ix2 r h))
      = Cert.Spec.fold1 (fun cc : Fin 1024 => ∑ h' : Fin 128, (q : S1x1024x128.Idx → EReal) (ix3 0 r h') * (k : S1x1024x128.Idx → EReal) (ix3 0 cc h'))
          (fun cc : Fin 1024 => (v : S1x1024x128.Idx → EReal) (ix3 0 cc h))
          (s.1 (ix2 r 0), s.2.1 (ix2 r 0), s.2.2 (ix2 r h)) := by
  have h1 : (scStep q k v s).1 (ix2 r 0) = newMax q k s.1 r := by
    unfold scStep
    show k1_pay2 (k1_pay8 q k s.1) (ix2 r 0) = _
    rw [pay2_eq, pay8_apply]
  have h2 : (scStep q k v s).2.1 (ix2 r 0)
      = Ideal.exp (s.1 (ix2 r 0) - newMax q k s.1 r) * s.2.1 (ix2 r 0) + ∑ cc : Fin 1024, Ideal.exp (score q k r cc - newMax q k s.1 r) := by
    unfold scStep
    exact pay11_apply q k s.1 s.1 s.2.1 r
  have h3 : (scStep q k v s).2.2 (ix2 r h)
      = Ideal.exp (s.1 (ix2 r 0) - newMax q k s.1 r) * s.2.2 (ix2 r h)
        + ∑ cc : Fin 1024, Ideal.exp (score q k r cc - newMax q k s.1 r) * (v : S1x1024x128.Idx → EReal) (ix3 0 cc h) := by
    unfold scStep
    show k1_pay1 (k1_pay9 q k s.1 s.1) (k1_pay12 q k s.1 v) s.2.2 (ix2 r h) = _
    rw [pay1_apply, pay9_apply, pay12_apply]
  exact Prod.ext h1 (Prod.ext h2 h3)

/-- The stored output tile, entry by entry. -/
theorem outTile_entry (s : Sc Ideal) (r : Fin 1024) (h : Fin 128) :
    (outTile s : S1x1024x128.Idx → EReal) (ix3 0 r h) = Ideal.div (s.2.2 (ix2 r h)) (s.2.1 (ix2 r 0)) := by
  unfold outTile k1_pay3
  refine (shapeCast_ab_1ab_apply _ _ 0 r h).trans ?_
  show Ideal.div (s.2.2 (ix2 r h)) (broadcastTo S1024x128 s.2.1 broadcasts_S1024x1_S1024x128 (ix2 r h)) = _
  rw [broadcastTo_a1_ab_apply]

end Cert.KernelIdeal.Hand

end
-- ==== Proof.KValueFlash.lean ====
/-
  What region 1 leaves in its output array, at the ideal values: entry (b, n, h) is the four-tile running softmax of
  the scores of query row n against the key rows, weighing value column h, all read off the fused q | k | v array
  (q in lanes 0–127, k in lanes 128–255, v in lanes 256–383). Row n of batch b lies in the query tile n / 1024; the
  point (b, n / 1024, 3) writes that tile back, after the four key tiles of that batch have been folded in.
-/
import proofs.«416957_j77120432767536_3_alg».proof.Proof.IdealFlashDefs
import proofs.«416957_j77120432767536_3_alg».proof.Proof.Spec
import proofs.«416957_j77120432767536_3_alg».proof.Proof.KFlashEntry
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (V : (c : Dev nD) → (b : Ref sig .tc) → Buf (Elt Ideal) ((c : Thread nD τ).loc b))

/-- The fused q | k | v array as the region finds it, and the region's output array, each at its literal type. -/
abbrev v8Arr (c : Dev nD) : S4x4096x384.Idx → EReal := V c main_v8
abbrev attOut (c : Dev nD) : S4x4096x128.Idx → EReal := (dat1 (F := Ideal) V c).arrAt 3 cfg1.N

/-! ## The carried state over one group of four points -/

/-- A point past the first unfolds one step of the recursion. -/
theorem scN_succ (c : Dev nD) (n : ℕ) (h : n + 1 < cfg1.N) :
    scN V c (n + 1) h = scStep (qTile V c ⟨n + 1, h⟩) (kTile V c ⟨n + 1, h⟩) (vTile V c ⟨n + 1, h⟩)
      (if (n + 1) % 4 = 0 then scInit else scN V c n (Nat.lt_of_succ_lt h)) := rfl

/-- At a point whose number is a multiple of 4 the fold starts from the reset state. -/
theorem scN_reset (c : Dev nD) (n : ℕ) (h : n < cfg1.N) (h0 : n % 4 = 0) :
    scN V c n h = scStep (qTile V c ⟨n, h⟩) (kTile V c ⟨n, h⟩) (vTile V c ⟨n, h⟩) scInit := by
  cases n with
  | zero => rfl
  | succ m => rw [scN_succ, if_pos h0]

/-- At any other point it starts from the state after the point before. -/
theorem scN_carry (c : Dev nD) (n : ℕ) (h : n + 1 < cfg1.N) (h0 : (n + 1) % 4 ≠ 0) :
    scN V c (n + 1) h = scStep (qTile V c ⟨n + 1, h⟩) (kTile V c ⟨n + 1, h⟩) (vTile V c ⟨n + 1, h⟩)
      (scN V c n (Nat.lt_of_succ_lt h)) := by
  rw [scN_succ, if_neg h0]

/-- The state after the last point of group `g`: four folds from the reset state, over the points 4g, …, 4g + 3. -/
theorem scN_group (c : Dev nD) (g : ℕ) (h3 : 4 * g + 3 < cfg1.N) :
    scN V c (4 * g + 3) h3
      = scStep (qTile V c ⟨4 * g + 3, h3⟩) (kTile V c ⟨4 * g + 3, h3⟩) (vTile V c ⟨4 * g + 3, h3⟩)
          (scStep (qTile V c ⟨4 * g + 2, by omega⟩) (kTile V c ⟨4 * g + 2, by omega⟩) (vTile V c ⟨4 * g + 2, by omega⟩)
            (scStep (qTile V c ⟨4 * g + 1, by omega⟩) (kTile V c ⟨4 * g + 1, by omega⟩) (vTile V c ⟨4 * g + 1, by omega⟩)
              (scStep (qTile V c ⟨4 * g, by omega⟩) (kTile V c ⟨4 * g, by omega⟩) (vTile V c ⟨4 * g, by omega⟩) scInit))) := by
  rw [scN_carry V c (4 * g + 2) h3 (by omega), scN_carry V c (4 * g + 1) (by omega) (by omega),
    scN_carry V c (4 * g) (by omega) (by omega), scN_reset V c (4 * g) (by omega) (by omega)]

/-! ## The tiles read off the fused array -/

/-- The grid has 64 points. -/
theorem N1 : cfg1.N = 64 := N_1

/-- Where each window's block sits at point `t`: the query and output blocks at (batch, query tile, 0), the key block
    at (batch, key tile, 1), the value block at (batch, key tile, 2), with batch = t / 16, query tile = (t / 4) % 4,
    key tile = t % 4. -/
theorem index1 : ∀ t : Fin cfg1.N,
    (win1_0.index t 0 = t.val / 16 ∧ win1_0.index t 1 = (t.val / 4) % 4 ∧ win1_0.index t 2 = 0)
    ∧ (win1_1.index t 0 = t.val / 16 ∧ win1_1.index t 1 = t.val % 4 ∧ win1_1.index t 2 = 1)
    ∧ (win1_2.index t 0 = t.val / 16 ∧ win1_2.index t 1 = t.val % 4 ∧ win1_2.index t 2 = 2)
    ∧ (win1_3.index t 0 = t.val / 16 ∧ win1_3.index t 1 = (t.val / 4) % 4 ∧ win1_3.index t 2 = 0) :=
  (by decide +kernel : ∀ t : Fin grid1.N,
    (win1_0.index t 0 = t.val / 16 ∧ win1_0.index t 1 = (t.val / 4) % 4 ∧ win1_0.index t 2 = 0)
    ∧ (win1_1.index t 0 = t.val / 16 ∧ win1_1.index t 1 = t.val % 4 ∧ win1_1.index t 2 = 1)
    ∧ (win1_2.index t 0 = t.val / 16 ∧ win1_2.index t 1 = t.val % 4 ∧ win1_2.index t 2 = 2)
    ∧ (win1_3.index t 0 = t.val / 16 ∧ win1_3.index t 1 = (t.val / 4) % 4 ∧ win1_3.index t 2 = 0))

/-- The query tile of point `t`: row `r` of it is row 1024·(query tile) + r of batch t / 16, in lanes 0–127. -/
theorem qTile_apply (c : Dev nD) (t : Fin cfg1.N) (b : Fin 4) (n : Fin 4096) (r : Fin 1024) (h' : Fin 128)
    (hb : b.val = t.val / 16) (hn : n.val = 1024 * ((t.val / 4) % 4) + r.val) :
    (qTile V c t : S1x1024x128.Idx → EReal) (ix3 0 r h') = v8Arr V c (ix3 b n (Cert.Spec.lane 0 h')) := by
  have hi := (index1 t).1
  unfold qTile iblk1
  rw [View.read_apply]
  show V c main_v8 _ = V c main_v8 _
  congr 1
  funext a
  apply Fin.ext
  match a with
  | ⟨0, _⟩ =>
    show win1_0.index t 0 * 1 + 1 * 0 = b.val
    rw [hi.1, hb]; omega
  | ⟨1, _⟩ =>
    show win1_0.index t 1 * 1024 + 1 * r.val = n.val
    rw [hi.2.1, hn]; omega
  | ⟨2, _⟩ =>
    show win1_0.index t 2 * 128 + 1 * h'.val = 128 * 0 + h'.val
    rw [hi.2.2]; omega

/-- The key tile of point `t`: row `cc` of it is row 1024·(key tile) + cc of batch t / 16, in lanes 128–255. -/
theorem kTile_apply (c : Dev nD) (t : Fin cfg1.N) (b : Fin 4) (n : Fin 4096) (cc : Fin 1024) (h' : Fin 128)
    (hb : b.val = t.val / 16) (hn : n.val = 1024 * (t.val % 4) + cc.val) :
    (kTile V c t : S1x1024x128.Idx → EReal) (ix3 0 cc h') = v8Arr V c (ix3 b n (Cert.Spec.lane 1 h')) := by
  have hi := (index1 t).2.1
  unfold kTile iblk1
  rw [View.read_apply]
  show V c main_v8 _ = V c main_v8 _
  congr 1
  funext a
  apply Fin.ext
  match a with
  | ⟨0, _⟩ =>
    show win1_1.index t 0 * 1 + 1 * 0 = b.val
    rw [hi.1, hb]; omega
  | ⟨1, _⟩ =>
    show win1_1.index t 1 * 1024 + 1 * cc.val = n.val
    rw [hi.2.1, hn]; omega
  | ⟨2, _⟩ =>
    show win1_1.index t 2 * 128 + 1 * h'.val = 128 * 1 + h'.val
    rw [hi.2.2]; omega

/-- The value tile of point `t`: row `cc` of it is row 1024·(key tile) + cc of batch t / 16, in lanes 256–383. -/
theorem vTile_apply (c : Dev nD) (t : Fin cfg1.N) (b : Fin 4) (n : Fin 4096) (cc : Fin 1024) (h' : Fin 128)
    (hb : b.val = t.val / 16) (hn : n.val = 1024 * (t.val % 4) + cc.val) :
    (vTile V c t : S1x1024x128.Idx → EReal) (ix3 0 cc h') = v8Arr V c (ix3 b n (Cert.Spec.lane 2 h')) := by
  have hi := (index1 t).2.2.1
  unfold vTile iblk1
  rw [View.read_apply]
  show V c main_v8 _ = V c main_v8 _
  congr 1
  funext a
  apply Fin.ext
  match a with
  | ⟨0, _⟩ =>
    show win1_2.index t 0 * 1 + 1 * 0 = b.val
    rw [hi.1, hb]; omega
  | ⟨1, _⟩ =>
    show win1_2.index t 1 * 1024 + 1 * cc.val = n.val
    rw [hi.2.1, hn]; omega
  | ⟨2, _⟩ =>
    show win1_2.index t 2 * 128 + 1 * h'.val = 128 * 2 + h'.val
    rw [hi.2.2]; omega

/-! ## The entry recursion -/

/-- The carried state at one output entry: maximum and denominator of row `r`, numerator at (r, h). -/
abbrev ent (s : Sc Ideal) (r : Fin 1024) (h : Fin 128) : EReal × EReal × EReal :=
  (s.1 (ix2 r 0), s.2.1 (ix2 r 0), s.2.2 (ix2 r h))

/-- One point's fold at an entry, over the fused array: at point `t` (batch b = t / 16, query row n in tile
    (t / 4) % 4 at offset r, key tile j = t % 4) the entry's triple is folded with the scores of row n against the
    rows of key tile j and with column h of the values of those rows. -/
theorem step_entry (c : Dev nD) (t : Fin cfg1.N) (b : Fin 4) (n : Fin 4096) (h : Fin 128) (r : Fin 1024) (j : Fin 4)
    (s : Sc Ideal) (hb : b.val = t.val / 16) (hn : n.val = 1024 * ((t.val / 4) % 4) + r.val) (hj : j.val = t.val % 4) :
    ent (scStep (qTile V c t) (kTile V c t) (vTile V c t) s) r h
      = Cert.Spec.fold1
          (fun cc : Fin 1024 => ∑ h' : Fin 128, v8Arr V c (ix3 b n (Cert.Spec.lane 0 h')) * v8Arr V c (ix3 b (Cert.Spec.tileRow j cc) (Cert.Spec.lane 1 h')))
          (fun cc : Fin 1024 => v8Arr V c (ix3 b (Cert.Spec.tileRow j cc) (Cert.Spec.lane 2 h)))
          (ent s r h) := by
  have hrow : ∀ cc : Fin 1024, (Cert.Spec.tileRow j cc).val = 1024 * (t.val % 4) + cc.val := fun cc => by
    show 1024 * j.val + cc.val = _
    rw [hj]
  have e1 : (fun cc : Fin 1024 => ∑ h' : Fin 128, (qTile V c t : S1x1024x128.Idx → EReal) (ix3 0 r h') * (kTile V c t : S1x1024x128.Idx → EReal) (ix3 0 cc h'))
      = fun cc : Fin 1024 => ∑ h' : Fin 128, v8Arr V c (ix3 b n (Cert.Spec.lane 0 h')) * v8Arr V c (ix3 b (Cert.Spec.tileRow j cc) (Cert.Spec.lane 1 h')) :=
    funext fun cc => Finset.sum_congr rfl fun h' _ => by
      rw [qTile_apply V c t b n r h' hb hn, kTile_apply V c t b (Cert.Spec.tileRow j cc) cc h' hb (hrow cc)]
  have e2 : (fun cc : Fin 1024 => (vTile V c t : S1x1024x128.Idx → EReal) (ix3 0 cc h))
      = fun cc : Fin 1024 => v8Arr V c (ix3 b (Cert.Spec.tileRow j cc) (Cert.Spec.lane 2 h)) :=
    funext fun cc => vTile_apply V c t b (Cert.Spec.tileRow j cc) cc h hb (hrow cc)
  refine (scStep_entry (qTile V c t) (kTile V c t) (vTile V c t) s r h).trans ?_
  rw [e1, e2]

/-- The tile the last point of group `g` stores, at an entry: for batch b and query row n = 1024·(query tile) + r with
    g = 4·b + (query tile), the four key tiles of batch b folded in order from the reset state, then numerator over
    denominator. -/
theorem group_out (c : Dev nD) (b : Fin 4) (n : Fin 4096) (h : Fin 128) (g : ℕ) (r : Fin 1024)
    (hg : g = 4 * b.val + n.val / 1024) (hr : r.val = n.val % 1024) (h3 : 4 * g + 3 < cfg1.N) :
    (outTile (scN V c (4 * g + 3) h3) : S1x1024x128.Idx → EReal) (ix3 0 r h)
      = Cert.Spec.online4
          (fun j cc => ∑ h' : Fin 128, v8Arr V c (ix3 b n (Cert.Spec.lane 0 h')) * v8Arr V c (ix3 b (Cert.Spec.tileRow j cc) (Cert.Spec.lane 1 h')))
          (fun j cc => v8Arr V c (ix3 b (Cert.Spec.tileRow j cc) (Cert.Spec.lane 2 h))) := by
  have hbl : b.val < 4 := b.isLt
  have hnl : n.val < 4096 := n.isLt
  have e0 : ent (scInit (F := Ideal)) r h = ((⊥ : EReal), (0 : EReal), (0 : EReal)) := scInit_entry r h
  have key : ent (scN V c (4 * g + 3) h3) r h
      = Cert.Spec.fold1
          (fun cc : Fin 1024 => ∑ h' : Fin 128, v8Arr V c (ix3 b n (Cert.Spec.lane 0 h')) * v8Arr V c (ix3 b (Cert.Spec.tileRow 3 cc) (Cert.Spec.lane 1 h')))
          (fun cc : Fin 1024 => v8Arr V c (ix3 b (Cert.Spec.tileRow 3 cc) (Cert.Spec.lane 2 h)))
          (Cert.Spec.fold1
            (fun cc : Fin 1024 => ∑ h' : Fin 128, v8Arr V c (ix3 b n (Cert.Spec.lane 0 h')) * v8Arr V c (ix3 b (Cert.Spec.tileRow 2 cc) (Cert.Spec.lane 1 h')))
            (fun cc : Fin 1024 => v8Arr V c (ix3 b (Cert.Spec.tileRow 2 cc) (Cert.Spec.lane 2 h)))
            (Cert.Spec.fold1
              (fun cc : Fin 1024 => ∑ h' : Fin 128, v8Arr V c (ix3 b n (Cert.Spec.lane 0 h')) * v8Arr V c (ix3 b (Cert.Spec.tileRow 1 cc) (Cert.Spec.lane 1 h')))
              (fun cc : Fin 1024 => v8Arr V c (ix3 b (Cert.Spec.tileRow 1 cc) (Cert.Spec.lane 2 h)))
              (Cert.Spec.fold1
                (fun cc : Fin 1024 => ∑ h' : Fin 128, v8Arr V c (ix3 b n (Cert.Spec.lane 0 h')) * v8Arr V c (ix3 b (Cert.Spec.tileRow 0 cc) (Cert.Spec.lane 1 h')))
                (fun cc : Fin 1024 => v8Arr V c (ix3 b (Cert.Spec.tileRow 0 cc) (Cert.Spec.lane 2 h)))
                ((⊥ : EReal), (0 : EReal), (0 : EReal))))) := by
    rw [scN_group V c g h3,
      step_entry V c ⟨4 * g + 3, h3⟩ b n h r 3 _ (by show b.val = (4 * g + 3) / 16; omega)
        (by show n.val = 1024 * (((4 * g + 3) / 4) % 4) + r.val; omega) (by show 3 = (4 * g + 3) % 4; omega),
      step_entry V c ⟨4 * g + 2, by omega⟩ b n h r 2 _ (by show b.val = (4 * g + 2) / 16; omega)
        (by show n.val = 1024 * (((4 * g + 2) / 4) % 4) + r.val; omega) (by show 2 = (4 * g + 2) % 4; omega),
      step_entry V c ⟨4 * g + 1, by omega⟩ b n h r 1 _ (by show b.val = (4 * g + 1) / 16; omega)
        (by show n.val = 1024 * (((4 * g + 1) / 4) % 4) + r.val; omega) (by show 1 = (4 * g + 1) % 4; omega),
      step_entry V c ⟨4 * g, by omega⟩ b n h r 0 _ (by show b.val = (4 * g) / 16; omega)
        (by show n.val = 1024 * (((4 * g) / 4) % 4) + r.val; omega) (by show 0 = (4 * g) % 4; omega),
      e0]
  rw [outTile_entry]
  show Ideal.div (ent (scN V c (4 * g + 3) h3) r h).2.2 (ent (scN V c (4 * g + 3) h3) r h).2.1 = _
  rw [key]
  rfl

/-! ## From the stored tiles to the array -/

/-- The state after a point depends on the point's number only. -/
theorem scN_congr (c : Dev nD) (m m' : ℕ) (hm : m < cfg1.N) (hm' : m' < cfg1.N) (e : m = m') :
    scN V c m hm = scN V c m' hm' := by
  subst e; rfl

/-- The tile a storing point `t` (key tile 3) leaves, at an entry: the running softmax of batch t / 16, query row
    1024·((t / 4) % 4) + r. -/
theorem point_out (c : Dev nD) (t : Fin cfg1.N) (h3 : t.val % 4 = 3) (b : Fin 4) (n : Fin 4096) (h : Fin 128) (r : Fin 1024)
    (hb : b.val = t.val / 16) (hn : n.val = 1024 * ((t.val / 4) % 4) + r.val) :
    (outTile (scN V c t.val t.isLt) : S1x1024x128.Idx → EReal) (ix3 0 r h)
      = Cert.Spec.online4
          (fun j cc => ∑ h' : Fin 128, v8Arr V c (ix3 b n (Cert.Spec.lane 0 h')) * v8Arr V c (ix3 b (Cert.Spec.tileRow j cc) (Cert.Spec.lane 1 h')))
          (fun j cc => v8Arr V c (ix3 b (Cert.Spec.tileRow j cc) (Cert.Spec.lane 2 h))) := by
  have hrl : r.val < 1024 := r.isLt
  have htl : t.val < cfg1.N := t.isLt
  have hg3 : 4 * (t.val / 4) + 3 < cfg1.N := by omega
  rw [scN_congr V c t.val (4 * (t.val / 4) + 3) t.isLt hg3 (by omega)]
  exact group_out V c b n h (t.val / 4) r (by omega) (by omega) hg3

/-- The array the region leaves, as one function of the fused array: entry i = (b, n, h) the running softmax of
    query row n of batch b over the four key tiles, weighing value column h. -/
abbrev Gout (c : Dev nD) : S4x4096x128.Idx → EReal := fun i =>
  Cert.Spec.online4
    (fun j cc => ∑ h' : Fin 128, v8Arr V c (ix3 (i 0 : Fin 4) (i 1 : Fin 4096) (Cert.Spec.lane 0 h')) * v8Arr V c (ix3 (i 0 : Fin 4) (Cert.Spec.tileRow j cc) (Cert.Spec.lane 1 h')))
    (fun j cc => v8Arr V c (ix3 (i 0 : Fin 4) (Cert.Spec.tileRow j cc) (Cert.Spec.lane 2 (i 2 : Fin 128))))

/-- It depends on the index through its three coordinates. -/
theorem Gout_apply (c : Dev nD) (i : S4x4096x128.Idx) (b : Fin 4) (n : Fin 4096) (h : Fin 128)
    (hb : (i 0).val = b.val) (hn : (i 1).val = n.val) (hh : (i 2).val = h.val) :
    Gout V c i = Cert.Spec.online4
          (fun j cc => ∑ h' : Fin 128, v8Arr V c (ix3 b n (Cert.Spec.lane 0 h')) * v8Arr V c (ix3 b (Cert.Spec.tileRow j cc) (Cert.Spec.lane 1 h')))
          (fun j cc => v8Arr V c (ix3 b (Cert.Spec.tileRow j cc) (Cert.Spec.lane 2 h))) := by
  have e : i = ix3 b n h := by
    funext a
    match a with
    | ⟨0, _⟩ => exact Fin.ext hb
    | ⟨1, _⟩ => exact Fin.ext hn
    | ⟨2, _⟩ => exact Fin.ext hh
  subst e
  rfl

/-- What a storing point writes back is its block of that function. -/
theorem flushed3_eq (c : Dev nD) (t : Fin cfg1.N) (hf : (cfg1.win 3).flush t = true) :
    (dat1 V c).flushed 3 t = ((cfg1.win 3).blk t).view.read (Elt Ideal) (Gout V c) := by
  have h3 : t.val % 4 = 3 := (flush1_3 t).mp hf
  have hN : cfg1.N = 64 := N1
  have htl : t.val < cfg1.N := t.isLt
  have hi := (index1 t).2.2.2
  show (cfg1.win 3).cut (grid1.coords t) ((dat1 V c).after 3 t) = _
  rw [after1_3]
  funext y
  obtain ⟨y0, r, h, rfl⟩ : ∃ (y0 : Fin 1) (r : Fin 1024) (h : Fin 128), y = ix3 y0 r h := ⟨y 0, y 1, y 2, eq_ix3 y⟩
  obtain rfl : y0 = 0 := Subsingleton.elim _ _
  have hrl : r.val < 1024 := r.isLt
  rw [View.read_apply]
  show (outTile (scN V c t.val t.isLt) : S1x1024x128.Idx → EReal) (ix3 0 r h)
    = Gout V c (((cfg1.win 3).blk t).view.emb (ix3 0 r h))
  refine (point_out V c t h3 ⟨t.val / 16, by omega⟩ ⟨1024 * ((t.val / 4) % 4) + r.val, by omega⟩ h r rfl rfl).trans ?_
  refine (Gout_apply V c _ ⟨t.val / 16, by omega⟩ ⟨1024 * ((t.val / 4) % 4) + r.val, by omega⟩ h ?_ ?_ ?_).symm
  · show win1_3.index t 0 * 1 + 1 * 0 = t.val / 16
    rw [hi.1]; omega
  · show win1_3.index t 1 * 1024 + 1 * r.val = 1024 * ((t.val / 4) % 4) + r.val
    rw [hi.2.1]; omega
  · show win1_3.index t 2 * 128 + 1 * h.val = h.val
    rw [hi.2.2]; omega

/-- The output array of region 1 after its 64 points, entry by entry. -/
theorem flash_arr (c : Dev nD) (b : Fin 4) (n : Fin 4096) (h : Fin 128) :
    attOut V c (ix3 b n h)
      = Cert.Spec.online4
          (fun j cc => ∑ h' : Fin 128, v8Arr V c (ix3 b n (Cert.Spec.lane 0 h')) * v8Arr V c (ix3 b (Cert.Spec.tileRow j cc) (Cert.Spec.lane 1 h')))
          (fun j cc => v8Arr V c (ix3 b (Cert.Spec.tileRow j cc) (Cert.Spec.lane 2 h))) := by
  have hN : cfg1.N = 64 := N1
  have hbl : b.val < 4 := b.isLt
  have hnl : n.val < 4096 := n.isLt
  have hhl : h.val < 128 := h.isLt
  -- the one point whose block holds the entry and that stores it: batch b, query tile n / 1024, key tile 3
  obtain ⟨t, ht⟩ : ∃ t : Fin cfg1.N, t.val = 16 * b.val + 4 * (n.val / 1024) + 3 := ⟨⟨16 * b.val + 4 * (n.val / 1024) + 3, by omega⟩, rfl⟩
  have hf : (cfg1.win 3).flush t = true := (flush1_3 t).mpr (by omega)
  have hi := (index1 t).2.2.2
  have hmem : (ix3 b n h : S4x4096x128.Idx) ∈ ((cfg1.win 3).blk t).view.set := by
    show (ix3 b n h : S4x4096x128.Idx) ∈ ((View.whole main_v9).slice (win1_3.rect t)).set
    rw [View.set_slice_whole, Rect.mem_set_unit]
    intro a
    match a with
    | ⟨0, _⟩ =>
      show win1_3.index t 0 * 1 ≤ b.val ∧ b.val < win1_3.index t 0 * 1 + 1
      rw [hi.1]; omega
    | ⟨1, _⟩ =>
      show win1_3.index t 1 * 1024 ≤ n.val ∧ n.val < win1_3.index t 1 * 1024 + 1024
      rw [hi.2.1]; omega
    | ⟨2, _⟩ =>
      show win1_3.index t 2 * 128 ≤ h.val ∧ h.val < win1_3.index t 2 * 128 + 128
      rw [hi.2.2]; omega
  exact (dat1 V c).arrAt_apply_of_mem 3 (Gout V c) (fun t hf => flushed3_eq V c t hf) cfg1.N t (ix3 b n h) t.isLt hf hmem

end Cert.KernelIdeal.Hand

end
-- ==== Proof.LibNary3.lean ====
import Idealize.ShloMosaic.Lib.StableHlo.Run

noncomputable section

namespace Idealize.ShloMosaic.StableHlo

open Idealize.SL.Sem

variable {τ : Topo} {sig : RefSig} {Val : EltTy → Type}

section Nary3

variable {x a b y : Ref sig .tc}

/-- An operation over a LITERAL family of three operand references (a concatenation of three operands,
    `nary ![x, a, b] …`) leaves at its result reference its function's value at the three operands' contents, each
    read AT ITS OWN REFERENCE: `Fin.cons (F ↑x) (Fin.cons (F ↑a) (Fin.cons (F ↑b) _))` in place of
    `fun k => F ↑(![x, a, b] k)`. Under the binder the reference `![x, a, b] k` is no literal, so the operands'
    contents could not be read further; here each is. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- `nary3_result` with the result reference left out of the rewriting index, for use as a simplification rule. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Nary3

end Idealize.ShloMosaic.StableHlo

end
-- ==== Proof.KValue.lean ====
/-
  The kernel program's result as a function of its arguments, at the ideal values. The first host stretch flattens
  x to 16384 × 1024 and builds the fused weight matrix (the transposed query weights times 1/32, the transposed key
  weights, the transposed value weights, side by side: 1024 × 384). The projection region multiplies the two; the
  reshape reads the product as 4 × 4096 × 384; the attention region folds it. Entry by entry this is the
  specification's kernel form: the query lanes are the scaled projection, the key and value lanes the plain ones.
-/
import proofs.«416957_j77120432767536_3_alg».proof.Proof.IdealRun
import proofs.«416957_j77120432767536_3_alg».proof.Proof.KValueProj
import proofs.«416957_j77120432767536_3_alg».proof.Proof.KValueFlash
import proofs.«416957_j77120432767536_3_alg».proof.Proof.LibNary3
import proofs.«416957_j77120432767536_3_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (m : (ℓ : Loc nD τ sig) → Buf (Elt Ideal) ℓ) (ρ : Dev nD → PrngReg)

/-- The four argument arrays as launched, each at its literal type. -/
abbrev xArr (c : Dev nD) : S4x4096x1024.Idx → EReal := m ((c : Thread nD τ).loc main_arg0)
abbrev wqArr (c : Dev nD) : S128x1024.Idx → EReal := m ((c : Thread nD τ).loc main_arg1)
abbrev wkArr (c : Dev nD) : S128x1024.Idx → EReal := m ((c : Thread nD τ).loc main_arg2)
abbrev wvArr (c : Dev nD) : S128x1024.Idx → EReal := m ((c : Thread nD τ).loc main_arg3)

/-- Row n of batch b in the flattened 16384-row matrices. -/
def flatRow (b : Fin 4) (n : Fin 4096) : Fin 16384 := ⟨4096 * b.val + n.val, by have := b.isLt; have := n.isLt; omega⟩

/-- The rewriting loop for a host stretch's results once the fold is opened. -/
local macro "after_rest" : tactic =>
  `(tactic| repeat (first
      | rw [StableHlo.nullary_result] | rw [StableHlo.unary_result] | rw [StableHlo.binary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide)
      | (rw [StableHlo.nary_result_ne]; rotate_left; decide)))

/-! ## What the first host stretch writes -/

/-- The flattened input is the reshape of x. -/
theorem V1_v0_eq (c : Dev nD) :
    (V1 m ρ c main_v0 : S16384x1024.Idx → EReal) = shapeCast S16384x1024 (xArr m c) shapeCasts_S4x4096x1024_S16384x1024 := by
  show StableHlo.after hostOps0 (W0 m ρ c) (Proc.devRef .tc main_v0) = _
  after_results
  rfl

/-- Entry (4096·b + n, d) of the flattened input is x[b, n, d]. -/
theorem v0_at (c : Dev nD) (b : Fin 4) (n : Fin 4096) (d : Fin 1024) :
    v0Arr (V1 m ρ) c (ix2 (flatRow b n) d) = xArr m c (ix3 b n d) := by
  show (V1 m ρ c main_v0 : S16384x1024.Idx → EReal) (ix2 (flatRow b n) d) = _
  rw [V1_v0_eq]
  exact shapeCast_apply _ _ _ _ (by
    rw [Shape.rowMajor_val_three, Shape.rowMajor_val_two]
    show (b.val * 4096 + n.val) * 1024 + d.val = (4096 * b.val + n.val) * 1024 + d.val
    omega)

/-- The three 1024 × 128 blocks of the fused weight matrix. -/
abbrev wqT (c : Dev nD) : S1024x128.Idx → EReal :=
  mulf (transpose S1024x128 [1, 0] (wqArr m c) transposes_S128x1024_S1024x128_1_0)
    (broadcastInDim S1024x128 ![] bcast_S_S1024x128 (constant (F := Ideal) S_ .f32 0x3D000000#32))
abbrev wkT (c : Dev nD) : S1024x128.Idx → EReal := transpose S1024x128 [1, 0] (wkArr m c) transposes_S128x1024_S1024x128_1_0
abbrev wvT (c : Dev nD) : S1024x128.Idx → EReal := transpose S1024x128 [1, 0] (wvArr m c) transposes_S128x1024_S1024x128_1_0

/-- The fused weight matrix is the three blocks side by side. -/
theorem V1_v6_eq (c : Dev nD) :
    (V1 m ρ c main_v6 : S1024x384.Idx → EReal)
      = concatenate S1024x384 1 [⟨S1024x128, wqT m c⟩, ⟨S1024x128, wkT m c⟩, ⟨S1024x128, wvT m c⟩]
          concatenates_S1024x128_S1024x128_S1024x128_S1024x384_d1 := by
  show StableHlo.after hostOps0 (W0 m ρ c) (Proc.devRef .tc main_v6) = _
  simp only [StableHlo.after_cons, StableHlo.after_nil]
  rw [StableHlo.nary3_result]
  after_rest
  rfl

theorem wqT_at (c : Dev nD) (d : Fin 1024) (h : Fin 128) : wqT m c (ix2 d h) = wqArr m c (ix2 h d) * Cert.Spec.scale := by
  show (transpose S1024x128 [1, 0] (wqArr m c) transposes_S128x1024_S1024x128_1_0) (ix2 d h)
      * (broadcastInDim S1024x128 ![] bcast_S_S1024x128 (constant (F := Ideal) S_ .f32 0x3D000000#32)) (ix2 d h) = _
  rw [transpose_ix2_apply, broadcastInDim_apply _ _ _ _ ix0 (fun a => a.elim0)]
  rfl
theorem wkT_at (c : Dev nD) (d : Fin 1024) (h : Fin 128) : wkT m c (ix2 d h) = wkArr m c (ix2 h d) :=
  transpose_ix2_apply _ _ _ _
theorem wvT_at (c : Dev nD) (d : Fin 1024) (h : Fin 128) : wvT m c (ix2 d h) = wvArr m c (ix2 h d) :=
  transpose_ix2_apply _ _ _ _

/-- Lane 128·k + h of the fused weight matrix is column h of block k (k = 0, 1, 2: query, key, value). -/
theorem v6_q (c : Dev nD) (d : Fin 1024) (h : Fin 128) :
    v6Arr (V1 m ρ) c (ix2 d (Cert.Spec.lane 0 h)) = wqT m c (ix2 d h) := by
  show (V1 m ρ c main_v6 : S1024x384.Idx → EReal) (ix2 d (Cert.Spec.lane 0 h)) = _
  rw [V1_v6_eq]
  exact concatenate_apply_piece (a := (1 : Fin S1024x384.rank))
    (xs := [⟨S1024x128, wqT m c⟩, ⟨S1024x128, wkT m c⟩, ⟨S1024x128, wvT m c⟩])
    (h := concatenates_S1024x128_S1024x128_S1024x128_S1024x384_d1) (j := ix2 d (Cert.Spec.lane 0 h))
    (k := 0) (hk := by simp only [List.length_cons, List.length_nil]; omega) (s₁ := S1024x128) (x₁ := wqT m c) (hxk := rfl) (hr := rfl) (pre := 0) (hpre := by rfl)
    (i := ix2 d h)
    (hi := fun a ha => by match a with | ⟨0, _⟩ => rfl | ⟨1, _⟩ => exact absurd rfl ha)
    (ha := by show 0 + h.val = 128 * 0 + h.val; omega)

theorem v6_k (c : Dev nD) (d : Fin 1024) (h : Fin 128) :
    v6Arr (V1 m ρ) c (ix2 d (Cert.Spec.lane 1 h)) = wkT m c (ix2 d h) := by
  show (V1 m ρ c main_v6 : S1024x384.Idx → EReal) (ix2 d (Cert.Spec.lane 1 h)) = _
  rw [V1_v6_eq]
  exact concatenate_apply_piece (a := (1 : Fin S1024x384.rank))
    (xs := [⟨S1024x128, wqT m c⟩, ⟨S1024x128, wkT m c⟩, ⟨S1024x128, wvT m c⟩])
    (h := concatenates_S1024x128_S1024x128_S1024x128_S1024x384_d1) (j := ix2 d (Cert.Spec.lane 1 h))
    (k := 1) (hk := by simp only [List.length_cons, List.length_nil]; omega) (s₁ := S1024x128) (x₁ := wkT m c) (hxk := rfl) (hr := rfl) (pre := 128) (hpre := by rfl)
    (i := ix2 d h)
    (hi := fun a ha => by match a with | ⟨0, _⟩ => rfl | ⟨1, _⟩ => exact absurd rfl ha)
    (ha := by show 128 + h.val = 128 * 1 + h.val; omega)

theorem v6_v (c : Dev nD) (d : Fin 1024) (h : Fin 128) :
    v6Arr (V1 m ρ) c (ix2 d (Cert.Spec.lane 2 h)) = wvT m c (ix2 d h) := by
  show (V1 m ρ c main_v6 : S1024x384.Idx → EReal) (ix2 d (Cert.Spec.lane 2 h)) = _
  rw [V1_v6_eq]
  exact concatenate_apply_piece (a := (1 : Fin S1024x384.rank))
    (xs := [⟨S1024x128, wqT m c⟩, ⟨S1024x128, wkT m c⟩, ⟨S1024x128, wvT m c⟩])
    (h := concatenates_S1024x128_S1024x128_S1024x128_S1024x384_d1) (j := ix2 d (Cert.Spec.lane 2 h))
    (k := 2) (hk := by simp only [List.length_cons, List.length_nil]; omega) (s₁ := S1024x128) (x₁ := wvT m c) (hxk := rfl) (hr := rfl) (pre := 256) (hpre := by rfl)
    (i := ix2 d h)
    (hi := fun a ha => by match a with | ⟨0, _⟩ => rfl | ⟨1, _⟩ => exact absurd rfl ha)
    (ha := by show 256 + h.val = 128 * 2 + h.val; omega)

/-! ## What the reshape between the regions writes -/

/-- The attention region's input array is the projection region's output read as 4 × 4096 × 384. -/
theorem V3_v8_eq (c : Dev nD) :
    (V3 m ρ c main_v8 : S4x4096x384.Idx → EReal) = shapeCast S4x4096x384 (qkvOut (V1 m ρ) c) shapeCasts_S16384x384_S4x4096x384 := by
  show StableHlo.after hostOps1 (W2 m ρ c) (Proc.devRef .tc main_v8) = _
  after_results
  rw [show W2 m ρ c (Proc.devRef .tc main_v7) = (dat0 (V1 m ρ) c).arrAt 2 cfg0.N from W2_arr m ρ c 2]
  rfl

theorem v8_at (c : Dev nD) (b : Fin 4) (n : Fin 4096) (j : Fin 384) :
    v8Arr (V3 m ρ) c (ix3 b n j) = qkvOut (V1 m ρ) c (ix2 (flatRow b n) j) := by
  show (V3 m ρ c main_v8 : S4x4096x384.Idx → EReal) (ix3 b n j) = _
  rw [V3_v8_eq]
  exact shapeCast_apply _ _ _ _ (by
    rw [Shape.rowMajor_val_two, Shape.rowMajor_val_three]
    show (4096 * b.val + n.val) * 384 + j.val = (b.val * 4096 + n.val) * 384 + j.val
    omega)

/-! ## The fused array's lanes are the specification's projections -/

/-- Query lane h' of row (b, n): the projection with the scaled query weights. -/
theorem v8_q (c : Dev nD) (b : Fin 4) (n : Fin 4096) (h' : Fin 128) :
    v8Arr (V3 m ρ) c (ix3 b n (Cert.Spec.lane 0 h')) = Cert.Spec.projS (xArr m c) (wqArr m c) b n h' := by
  rw [v8_at, proj_arr]
  unfold Cert.Spec.projS
  exact Finset.sum_congr rfl fun d _ => by rw [v0_at, v6_q, wqT_at]

/-- Key lane h' of row (b, n): the plain projection with the key weights. -/
theorem v8_k (c : Dev nD) (b : Fin 4) (n : Fin 4096) (h' : Fin 128) :
    v8Arr (V3 m ρ) c (ix3 b n (Cert.Spec.lane 1 h')) = Cert.Spec.proj (xArr m c) (wkArr m c) b n h' := by
  rw [v8_at, proj_arr]
  unfold Cert.Spec.proj
  exact Finset.sum_congr rfl fun d _ => by rw [v0_at, v6_k, wkT_at]

/-- Value lane h of row (b, n): the plain projection with the value weights. -/
theorem v8_v (c : Dev nD) (b : Fin 4) (n : Fin 4096) (h : Fin 128) :
    v8Arr (V3 m ρ) c (ix3 b n (Cert.Spec.lane 2 h)) = Cert.Spec.proj (xArr m c) (wvArr m c) b n h := by
  rw [v8_at, proj_arr]
  unfold Cert.Spec.proj
  exact Finset.sum_congr rfl fun d _ => by rw [v0_at, v6_v, wvT_at]

/-! ## The program's result -/

/-- The result array after the run, entry by entry, is the specification's kernel form of the four arguments. -/
theorem kernel_val (c : Dev nD) (b : Fin 4) (n : Fin 4096) (h : Fin 128) :
    (W4 m ρ c (Proc.devRef .tc main_v9) : S4x4096x128.Idx → EReal) (ix3 b n h)
      = Cert.Spec.GkAt (xArr m c) (wqArr m c) (wkArr m c) (wvArr m c) b n h := by
  rw [W4_out]
  show attOut (V3 m ρ) c (ix3 b n h) = _
  rw [flash_arr]
  unfold Cert.Spec.GkAt Cert.Spec.scoreK
  have e1 : (fun (j : Fin 4) (cc : Fin 1024) => ∑ h' : Fin 128, v8Arr (V3 m ρ) c (ix3 b n (Cert.Spec.lane 0 h'))
        * v8Arr (V3 m ρ) c (ix3 b (Cert.Spec.tileRow j cc) (Cert.Spec.lane 1 h')))
      = fun j cc => ∑ h' : Fin 128, Cert.Spec.projS (xArr m c) (wqArr m c) b n h' * Cert.Spec.proj (xArr m c) (wkArr m c) b (Cert.Spec.tileRow j cc) h' := by
    funext j cc
    exact Finset.sum_congr rfl fun h' _ => by rw [v8_q, v8_k]
  have e2 : (fun (j : Fin 4) (cc : Fin 1024) => v8Arr (V3 m ρ) c (ix3 b (Cert.Spec.tileRow j cc) (Cert.Spec.lane 2 h)))
      = fun j cc => Cert.Spec.proj (xArr m c) (wvArr m c) b (Cert.Spec.tileRow j cc) h := by
    funext j cc
    exact v8_v m ρ c b (Cert.Spec.tileRow j cc) h
  rw [e1, e2]

end Cert.KernelIdeal.Hand

end
-- ==== Proof.RefValue.lean ====
/-
  The reference's result read at an index, at the ideal values: entry (b, n, h) of its composed term is the one-pass
  softmax attention of the specification — three projections, the scores scaled by 1/32, the row maximum (taken
  against −∞), exponentials, their sum, the quotient, the contraction with the values.
-/
import proofs.«416957_j77120432767536_3_alg».proof.Proof.Gen.ReferenceIdeal.Run
import proofs.«416957_j77120432767536_3_alg».proof.Proof.Gen.ReferenceIdeal.Read
import proofs.«416957_j77120432767536_3_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable (x0 : (⟨S4x4096x1024, .f32⟩ : BufTy).Contents (Elt Ideal)) (x1 x2 x3 : (⟨S128x1024, .f32⟩ : BufTy).Contents (Elt Ideal))

/-! ## The three projections -/

/-- The query projection at (b, n, h): the row x[b, n, :] against the weight row W[h, :]. -/
theorem q_at (b : Fin 4) (n : Fin 4096) (h : Fin 128) :
    Read.val_main_v0 (F := Ideal) x0 x1 (ix3 b n h) = Cert.Spec.proj x0 x1 b n h := by
  rw [Read.val_main_v0_apply]
  unfold Cert.Spec.proj
  refine Finset.sum_congr rfl fun k _ => ?_
  rw [show Read.lidx_main_v0 (ix3 b n h) k = ix3 b n k from
        funext fun a => by match a with | ⟨0, _⟩ => rfl | ⟨1, _⟩ => rfl | ⟨2, _⟩ => rfl,
      show Read.ridx_main_v0 (ix3 b n h) k = ix2 h k from
        funext fun a => by match a with | ⟨0, _⟩ => rfl | ⟨1, _⟩ => rfl]

/-- The key projection at (b, m, h). -/
theorem k_at (b : Fin 4) (m : Fin 4096) (h : Fin 128) :
    Read.val_main_v1 (F := Ideal) x0 x2 (ix3 b m h) = Cert.Spec.proj x0 x2 b m h := by
  rw [Read.val_main_v1_apply]
  unfold Cert.Spec.proj
  refine Finset.sum_congr rfl fun k _ => ?_
  rw [show Read.lidx_main_v1 (ix3 b m h) k = ix3 b m k from
        funext fun a => by match a with | ⟨0, _⟩ => rfl | ⟨1, _⟩ => rfl | ⟨2, _⟩ => rfl,
      show Read.ridx_main_v1 (ix3 b m h) k = ix2 h k from
        funext fun a => by match a with | ⟨0, _⟩ => rfl | ⟨1, _⟩ => rfl]

/-- The value projection at (b, m, h). -/
theorem v_at (b : Fin 4) (m : Fin 4096) (h : Fin 128) :
    Read.val_main_v2 (F := Ideal) x0 x3 (ix3 b m h) = Cert.Spec.proj x0 x3 b m h := by
  rw [Read.val_main_v2_apply]
  unfold Cert.Spec.proj
  refine Finset.sum_congr rfl fun k _ => ?_
  rw [show Read.lidx_main_v2 (ix3 b m h) k = ix3 b m k from
        funext fun a => by match a with | ⟨0, _⟩ => rfl | ⟨1, _⟩ => rfl | ⟨2, _⟩ => rfl,
      show Read.ridx_main_v2 (ix3 b m h) k = ix2 h k from
        funext fun a => by match a with | ⟨0, _⟩ => rfl | ⟨1, _⟩ => rfl]

/-! ## The scaled scores -/

/-- The score of query row n against key row m: the contraction of the two projections over the 128 lanes, times 1/32. -/
theorem score_at (b : Fin 4) (n m : Fin 4096) :
    Read.val_main_v5 (F := Ideal) x0 x1 x2 (ix3 b n m) = Cert.Spec.scoreR x0 x1 x2 b n m := by
  rw [Read.val_main_v5_apply, Read.val_main_v3_apply, Read.val_main_v4_apply, Read.val_main_cst_apply,
    Ideal.mulf_def, Ideal.ofBits_def]
  unfold Cert.Spec.scoreR Cert.Spec.scale
  refine congrArg (· * _) (Finset.sum_congr rfl fun k _ => ?_)
  rw [show Read.lidx_main_v3 (ix3 b n m) k = ix3 b n k from
        funext fun a => by match a with | ⟨0, _⟩ => rfl | ⟨1, _⟩ => rfl | ⟨2, _⟩ => rfl,
      show Read.ridx_main_v3 (ix3 b n m) k = ix3 b m k from
        funext fun a => by match a with | ⟨0, _⟩ => rfl | ⟨1, _⟩ => rfl | ⟨2, _⟩ => rfl,
      q_at, k_at]

/-! ## The row maximum -/

/-- The f32 word 0xFF800000 is −∞. -/
theorem ofBits_neg_inf_f32 : Ideal.ofBits .f32 0xFF800000#32 = (⊥ : EReal) := by
  simp [Ideal.ofBits, Ideal.ieee]

/-- The reduction over the key axis at (b, n): the fold of max from −∞ over the 4096 scores of the row. -/
theorem rowmax_at (b : Fin 4) (n : Fin 4096) :
    Read.val_main_v6 (F := Ideal) x0 x1 x2 (ix2 b n)
      = Finset.univ.fold max ⊥ (fun m : Fin 4096 => Cert.Spec.scoreR x0 x1 x2 b n m) := by
  have hR : S4x4096x4096.Reduces [2] S4x4096 := by decide
  unfold Read.val_main_v6
  rw [Host.reduce_eq_fold_single FloatOps.maximumf _ _ reducesTo_S4x4096x4096_S4x4096_d2 hR h_S_]
  have h0 : Read.val_main_cst_0 (F := Ideal) (Shape.Idx.first h_S_) = (⊥ : EReal) := by
    rw [Read.val_main_cst_0_apply, Ideal.ofBits_def, ofBits_neg_inf_f32]
  have hf : (Read.val_main_v5 (F := Ideal) x0 x1 x2 ∘ hR.lift (ix2 b n))
      = fun m : Fin 4096 => Cert.Spec.scoreR x0 x1 x2 b n m := by
    refine funext fun (m : Fin 4096) => ?_
    show Read.val_main_v5 (F := Ideal) x0 x1 x2 (hR.lift (ix2 b n) m) = _
    rw [show hR.lift (ix2 b n) m = ix3 b n m from
          funext fun c => Fin.ext (by match c with | ⟨0, _⟩ => rfl | ⟨1, _⟩ => rfl | ⟨2, _⟩ => rfl),
        score_at]
  rw [h0, hf]
  rfl

/-- The maximum the reference subtracts at (b, n): the row maximum taken against −∞ once more. -/
theorem max_at (b : Fin 4) (n : Fin 4096) :
    Read.val_main_v8 (F := Ideal) x0 x1 x2 (ix2 b n)
      = max ⊥ (Finset.univ.fold max ⊥ (fun m : Fin 4096 => Cert.Spec.scoreR x0 x1 x2 b n m)) := by
  rw [Read.val_main_v8_apply, Read.val_main_v7_apply, Read.val_main_cst_1_apply, Ideal.maximumf_def, Ideal.ofBits_def,
    ofBits_neg_inf_f32, rowmax_at]

/-! ## Exponentials, their sum, the quotient -/

/-- The exponential at (b, n, m): exp of the score less the row's maximum. -/
theorem exp_at (b : Fin 4) (n m : Fin 4096) :
    Read.val_main_v12 (F := Ideal) x0 x1 x2 (ix3 b n m)
      = Ideal.exp (Cert.Spec.scoreR x0 x1 x2 b n m
          - max ⊥ (Finset.univ.fold max ⊥ (fun m' : Fin 4096 => Cert.Spec.scoreR x0 x1 x2 b n m'))) := by
  rw [Read.val_main_v12_apply, Read.val_main_v11_apply, Read.val_main_v10_apply, Read.val_main_v9_apply,
    Ideal.hostUnary_exp_def, Ideal.subf_def, score_at,
    show Read.idx_main_v9 (Read.idx_main_v10 (ix3 b n m)) = ix2 b n from
      funext fun a => by match a with | ⟨0, _⟩ => rfl | ⟨1, _⟩ => rfl,
    max_at]

/-- The denominator at (b, n): 0 plus the sum of the row's exponentials. -/
theorem den_at (b : Fin 4) (n : Fin 4096) :
    Read.val_main_v13 (F := Ideal) x0 x1 x2 (ix2 b n)
      = 0 + ∑ k : Fin 4096, Ideal.exp (Cert.Spec.scoreR x0 x1 x2 b n k
          - max ⊥ (Finset.univ.fold max ⊥ (fun m' : Fin 4096 => Cert.Spec.scoreR x0 x1 x2 b n m'))) := by
  rw [Read.val_main_v13_apply, Read.val_main_cst_2_apply, Ideal.ofBits_def, Ideal.ofBits_zero_f32]
  refine congrArg (0 + ·) (Finset.sum_congr rfl fun k _ => ?_)
  rw [show Read.idx_main_v13 (ix2 b n) k = ix3 b n k from
        funext fun a => by match a with | ⟨0, _⟩ => rfl | ⟨1, _⟩ => rfl | ⟨2, _⟩ => rfl,
      exp_at]

/-- The softmax weight at (b, n, m): the exponential over the denominator. -/
theorem weight_at (b : Fin 4) (n m : Fin 4096) :
    Read.val_main_v16 (F := Ideal) x0 x1 x2 (ix3 b n m)
      = Ideal.div
          (Ideal.exp (Cert.Spec.scoreR x0 x1 x2 b n m
            - max ⊥ (Finset.univ.fold max ⊥ (fun m' : Fin 4096 => Cert.Spec.scoreR x0 x1 x2 b n m'))))
          (0 + ∑ k : Fin 4096, Ideal.exp (Cert.Spec.scoreR x0 x1 x2 b n k
            - max ⊥ (Finset.univ.fold max ⊥ (fun m' : Fin 4096 => Cert.Spec.scoreR x0 x1 x2 b n m')))) := by
  rw [Read.val_main_v16_apply, Read.val_main_v15_apply, Read.val_main_v14_apply, Ideal.hostDivf_def, exp_at,
    show Read.idx_main_v14 (Read.idx_main_v15 (ix3 b n m)) = ix2 b n from
      funext fun a => by match a with | ⟨0, _⟩ => rfl | ⟨1, _⟩ => rfl,
    den_at]

/-! ## The result -/

/-- The reference's last stage at (b, n, h) is the specification's reference form. -/
theorem ref_at (b : Fin 4) (n : Fin 4096) (h : Fin 128) :
    Cert.ReferenceIdeal.Read.val_main_v17 (F := Ideal) x0 x1 x2 x3 (ix3 b n h) = Cert.Spec.GrAt x0 x1 x2 x3 b n h := by
  rw [Read.val_main_v17_apply]
  unfold Cert.Spec.GrAt Cert.Spec.softAtt
  refine Finset.sum_congr rfl fun k _ => ?_
  rw [show Read.lidx_main_v17 (ix3 b n h) k = ix3 b n k from
        funext fun a => by match a with | ⟨0, _⟩ => rfl | ⟨1, _⟩ => rfl | ⟨2, _⟩ => rfl,
      show Read.ridx_main_v17 (ix3 b n h) k = ix3 b k h from
        funext fun a => by match a with | ⟨0, _⟩ => rfl | ⟨1, _⟩ => rfl | ⟨2, _⟩ => rfl,
      weight_at, v_at]

end Cert.ReferenceIdeal.RefValue

end
-- ==== Proof.SpecSoftmax.lean ====
/-
  Over real scores and values the four-tile running softmax is the one-pass softmax: the algebra that joins the kernel
  and the reference.

  The quotient numerator / denominator of a softmax does not depend on the number M subtracted inside the
  exponentials: Σ exp(σ k − M)·ν k = exp(−M)·Σ exp(σ k)·ν k and Σ exp(σ k − M) = exp(−M)·Σ exp(σ k), and the
  common factor exp(−M) ≠ 0 cancels. So it is enough to know that after every tile the running state is
      (M, exp(−M)·c, exp(−M)·a)        for SOME real M,
  where c = Σ exp(σ k) and a = Σ exp(σ k)·ν k run over the keys seen so far (\`Tracks\`). A new tile moves M to
  M' = max M m (m the tile's real maximum), rescales by exp(M − M'), and exp(M − M')·exp(−M) = exp(−M'), so the
  form is kept with c and a grown by the tile's own sums. The reference's side has the same form with M the
  maximum over all keys. Both quotients are a / c.
-/
import proofs.«416957_j77120432767536_3_alg».proof.Proof.Spec

noncomputable section

open scoped BigOperators

namespace Cert.Spec

open Idealize.ShloMosaic

/-! ## Reals inside the extended reals -/

/-- A finite sum of reals, read in the extended reals, is the sum of the readings. -/
theorem coe_sum {C : Type} (t : Finset C) (g : C → ℝ) :
    ((∑ c ∈ t, g c : ℝ) : EReal) = ∑ c ∈ t, ((g c : ℝ) : EReal) := by
  classical
  refine Finset.induction_on t ?_ ?_
  · simp
  · intro a t ha ih
    rw [Finset.sum_insert ha, Finset.sum_insert ha, EReal.coe_add, ih]

/-- The maximum of two reals, read in the extended reals. -/
theorem coe_max (x y : ℝ) : max (x : EReal) (y : EReal) = ((max x y : ℝ) : EReal) :=
  (EReal.coe_strictMono.monotone.map_max).symm

/-- The maximum of a nonempty finite family of reals, folded from −∞ in the extended reals, is the real maximum. -/
theorem fold_max_coe {C : Type} [Fintype C] [Nonempty C] (f : C → ℝ) :
    Finset.univ.fold max (⊥ : EReal) (fun c => ((f c : ℝ) : EReal))
      = ((Finset.univ.sup' Finset.univ_nonempty f : ℝ) : EReal) := by
  apply le_antisymm
  · rw [Finset.fold_max_le]
    exact ⟨bot_le, fun x _ => EReal.coe_le_coe_iff.2 (Finset.le_sup' f (Finset.mem_univ x))⟩
  · rw [Finset.le_fold_max]
    obtain ⟨x, hx, hxe⟩ := Finset.exists_mem_eq_sup' Finset.univ_nonempty f
    exact Or.inr ⟨x, hx, by rw [hxe]⟩

/-! ## The exponential sums at a shifted origin -/

theorem exp_sub_eq (y m : ℝ) : Real.exp (y - m) = Real.exp (-m) * Real.exp y := by
  rw [← Real.exp_add]; congr 1; ring

theorem sum_exp_sub {C : Type} [Fintype C] (s : C → ℝ) (m : ℝ) :
    ∑ x, Real.exp (s x - m) = Real.exp (-m) * ∑ x, Real.exp (s x) := by
  rw [Finset.mul_sum]
  exact Finset.sum_congr rfl (fun x _ => exp_sub_eq (s x) m)

theorem sum_exp_sub_mul {C : Type} [Fintype C] (s v : C → ℝ) (m : ℝ) :
    ∑ x, Real.exp (s x - m) * v x = Real.exp (-m) * ∑ x, Real.exp (s x) * v x := by
  rw [Finset.mul_sum]
  exact Finset.sum_congr rfl (fun x _ => by rw [exp_sub_eq, mul_assoc])

/-! ## The running state -/

/-- The state carries some real maximum M, and its denominator and numerator are exp(−M)·c and exp(−M)·a. -/
def Tracks (c a : ℝ) (st : EReal × EReal × EReal) : Prop :=
  ∃ M : ℝ, st = ((M : EReal), ((Real.exp (-M) * c : ℝ) : EReal), ((Real.exp (-M) * a : ℝ) : EReal))

/-- The first tile, from the reset state (−∞, 0, 0): exp(−∞ − m) = 0 wipes the (zero) carried sums. -/
theorem tracks_fold1_reset {C : Type} [Fintype C] [Nonempty C] (s v : C → ℝ) :
    Tracks (∑ x, Real.exp (s x)) (∑ x, Real.exp (s x) * v x)
      (fold1 (fun x => ((s x : ℝ) : EReal)) (fun x => ((v x : ℝ) : EReal)) (⊥, 0, 0)) := by
  refine ⟨Finset.univ.sup' Finset.univ_nonempty s, ?_⟩
  unfold fold1
  dsimp only
  rw [fold_max_coe]
  simp only [max_bot_left, EReal.bot_sub, Ideal.exp_bot, mul_zero, zero_add, ← EReal.coe_sub, Ideal.exp_coe,
    ← EReal.coe_mul, ← coe_sum, sum_exp_sub, sum_exp_sub_mul]

/-- A later tile: the maximum grows to M' = max M m, the carried sums are rescaled by exp(M − M'), and
    exp(M − M')·exp(−M) = exp(−M'). -/
theorem tracks_fold1 {C : Type} [Fintype C] [Nonempty C] (s v : C → ℝ) {c a : ℝ} {st : EReal × EReal × EReal}
    (h : Tracks c a st) :
    Tracks (c + ∑ x, Real.exp (s x)) (a + ∑ x, Real.exp (s x) * v x)
      (fold1 (fun x => ((s x : ℝ) : EReal)) (fun x => ((v x : ℝ) : EReal)) st) := by
  obtain ⟨M, rfl⟩ := h
  refine ⟨max M (Finset.univ.sup' Finset.univ_nonempty s), ?_⟩
  have e2 : Real.exp (M - max M (Finset.univ.sup' Finset.univ_nonempty s)) * Real.exp (-M)
      = Real.exp (-max M (Finset.univ.sup' Finset.univ_nonempty s)) := by
    rw [← Real.exp_add]; congr 1; ring
  unfold fold1
  dsimp only
  rw [fold_max_coe, coe_max]
  simp only [← EReal.coe_sub, Ideal.exp_coe, ← EReal.coe_mul, ← coe_sum, ← EReal.coe_add, sum_exp_sub,
    sum_exp_sub_mul, ← mul_assoc, e2, mul_add]

/-- At the end the common factor exp(−M) cancels in numerator / denominator. -/
theorem div_of_tracks {c a : ℝ} (hc : 0 < c) {st : EReal × EReal × EReal} (h : Tracks c a st) :
    Ideal.div st.2.2 st.2.1 = ((a / c : ℝ) : EReal) := by
  obtain ⟨M, rfl⟩ := h
  dsimp only
  have he : Real.exp (-M) ≠ 0 := Real.exp_ne_zero _
  have hc' : c ≠ 0 := hc.ne'
  have hne : Real.exp (-M) * c ≠ 0 := mul_ne_zero he hc'
  rw [Ideal.div_coe hne, ← EReal.coe_mul, EReal.coe_eq_coe_iff]
  field_simp

/-! ## The one-pass softmax -/

/-- The reference's form over a nonempty key set of real scores and values is a / c. -/
theorem softAtt_coe {K : Type} [Fintype K] [Nonempty K] (σ ν : K → ℝ) :
    softAtt (fun k => ((σ k : ℝ) : EReal)) (fun k => ((ν k : ℝ) : EReal))
      = (((∑ k, Real.exp (σ k) * ν k) / (∑ k, Real.exp (σ k)) : ℝ) : EReal) := by
  have hS : (∑ k, Real.exp (σ k)) ≠ 0 :=
    (Finset.sum_pos (fun k _ => Real.exp_pos (σ k)) Finset.univ_nonempty).ne'
  have he : Real.exp (-(Finset.univ.sup' Finset.univ_nonempty σ)) ≠ 0 := Real.exp_ne_zero _
  have hD : Real.exp (-(Finset.univ.sup' Finset.univ_nonempty σ)) * ∑ k, Real.exp (σ k) ≠ 0 := mul_ne_zero he hS
  unfold softAtt
  rw [fold_max_coe]
  simp only [max_bot_left, ← EReal.coe_sub, Ideal.exp_coe, ← coe_sum, zero_add, sum_exp_sub, Ideal.div_coe hD,
    ← EReal.coe_mul]
  rw [EReal.coe_eq_coe_iff, Finset.sum_div]
  refine Finset.sum_congr rfl (fun k _ => ?_)
  rw [exp_sub_eq]
  field_simp

/-! ## The four tiles -/

/-- Four tiles of real scores and values, folded with the running maximum, give the softmax-weighted sum over all
    the keys (indexed by tile and position in the tile). -/
theorem online4_eq_softAtt {C : Type} [Fintype C] [Nonempty C] (s v : Fin 4 → C → ℝ) :
    online4 (fun j c => ((s j c : ℝ) : EReal)) (fun j c => ((v j c : ℝ) : EReal))
      = softAtt (fun k : Fin 4 × C => ((s k.1 k.2 : ℝ) : EReal)) (fun k : Fin 4 × C => ((v k.1 k.2 : ℝ) : EReal)) := by
  have h3 := tracks_fold1 (s 3) (v 3) (tracks_fold1 (s 2) (v 2) (tracks_fold1 (s 1) (v 1)
    (tracks_fold1_reset (s 0) (v 0))))
  have hp : ∀ j, 0 < ∑ x, Real.exp (s j x) :=
    fun j => Finset.sum_pos (fun x _ => Real.exp_pos (s j x)) Finset.univ_nonempty
  have hc := add_pos (add_pos (add_pos (hp 0) (hp 1)) (hp 2)) (hp 3)
  have hk := div_of_tracks hc h3
  have hr := softAtt_coe (fun k : Fin 4 × C => s k.1 k.2) (fun k : Fin 4 × C => v k.1 k.2)
  refine (hk.trans ?_).trans hr.symm
  simp only [Fintype.sum_prod_type, Fin.sum_univ_four]

end Cert.Spec

end
-- ==== Proof.Bridge.lean ====
/-
  On real inputs the kernel's result function and the reference's are one function: the scale commutes out of the
  query projection and the score, the 4096 keys are the 4 × 1024 keys of the tiles, and the running softmax is the
  one-pass softmax.
-/
import proofs.«416957_j77120432767536_3_alg».proof.Proof.Spec
import proofs.«416957_j77120432767536_3_alg».proof.Proof.SpecSoftmax

noncomputable section

open scoped BigOperators

namespace Cert.Spec

open Idealize.ShloMosaic Idealize.ShloMosaic.ValueIdx

/-! ## The scale is the real 1/32 -/

/-- The f32 word 0x3D000000 has sign 0, exponent field 122 and mantissa 0: it denotes 2^(122 − 127) = 1/32. -/
theorem scale_eq : scale = (((1 : ℝ) / 32 : ℝ) : EReal) := by
  unfold scale
  simp [Ideal.ofBits, Ideal.ieee, -EReal.coe_mul]; norm_num

/-! ## Finite sums of reals inside the extended reals -/

/-- The inclusion ℝ → EReal carries a finite sum to the sum of the images. -/
theorem coe_finsum {ι : Type} (t : Finset ι) (f : ι → ℝ) :
    ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-- A projection of real arrays is the real dot product. -/
theorem proj_coe (xr : SX.Idx → ℝ) (wr : SW.Idx → ℝ) (b : Fin 4) (n : Fin 4096) (h : Fin 128) :
    proj (fun i => ((xr i : ℝ) : EReal)) (fun i => ((wr i : ℝ) : EReal)) b n h
      = ((∑ d : Fin 1024, xr (ix3 b n d) * wr (ix2 h d) : ℝ) : EReal) := by
  unfold proj
  rw [coe_finsum]
  simp only [EReal.coe_mul]

/-- The scaled projection of real arrays is the real dot product against the scaled weights. -/
theorem projS_coe (xr : SX.Idx → ℝ) (wr : SW.Idx → ℝ) (b : Fin 4) (n : Fin 4096) (h : Fin 128) :
    projS (fun i => ((xr i : ℝ) : EReal)) (fun i => ((wr i : ℝ) : EReal)) b n h
      = ((∑ d : Fin 1024, xr (ix3 b n d) * (wr (ix2 h d) * (1 / 32)) : ℝ) : EReal) := by
  unfold projS
  rw [coe_finsum, scale_eq]
  simp only [EReal.coe_mul]

/-- The real score: (Σ_h (x[n]·Wq[h]) (x[m]·Wk[h])) / 32. -/
def scoreReal (xr : SX.Idx → ℝ) (qr kr : SW.Idx → ℝ) (b : Fin 4) (n m : Fin 4096) : ℝ :=
  (∑ h : Fin 128, (∑ d : Fin 1024, xr (ix3 b n d) * qr (ix2 h d)) * (∑ d : Fin 1024, xr (ix3 b m d) * kr (ix2 h d)))
    * (1 / 32)

/-- The reference's score on real arrays is the real score. -/
theorem scoreR_coe (xr : SX.Idx → ℝ) (qr kr : SW.Idx → ℝ) (b : Fin 4) (n m : Fin 4096) :
    scoreR (fun i => ((xr i : ℝ) : EReal)) (fun i => ((qr i : ℝ) : EReal)) (fun i => ((kr i : ℝ) : EReal)) b n m
      = ((scoreReal xr qr kr b n m : ℝ) : EReal) := by
  unfold scoreR scoreReal
  simp only [proj_coe]
  rw [scale_eq, EReal.coe_mul, coe_finsum]
  simp only [EReal.coe_mul]

/-- The kernel's score on real arrays is the same real score: the factor 1/32 moves out of the inner sum over d and
    then out of the outer sum over h. -/
theorem scoreK_coe (xr : SX.Idx → ℝ) (qr kr : SW.Idx → ℝ) (b : Fin 4) (n m : Fin 4096) :
    scoreK (fun i => ((xr i : ℝ) : EReal)) (fun i => ((qr i : ℝ) : EReal)) (fun i => ((kr i : ℝ) : EReal)) b n m
      = ((scoreReal xr qr kr b n m : ℝ) : EReal) := by
  unfold scoreK
  simp only [proj_coe, projS_coe]
  simp only [← EReal.coe_mul]
  rw [← coe_finsum]
  congr 1
  unfold scoreReal
  rw [Finset.sum_mul]
  refine Finset.sum_congr rfl (fun h _ => ?_)
  have hin : (∑ d : Fin 1024, xr (ix3 b n d) * (qr (ix2 h d) * (1 / 32)))
      = (∑ d : Fin 1024, xr (ix3 b n d) * qr (ix2 h d)) * (1 / 32) := by
    rw [Finset.sum_mul]
    exact Finset.sum_congr rfl (fun d _ => by ring)
  rw [hin]
  ring

/-! ## The 4096 keys as 4 tiles of 1024 -/

/-- (tile, position) ↦ key row is a bijection, with inverse m ↦ (m / 1024, m % 1024). -/
def tileEquiv : Fin 4 × Fin 1024 ≃ Fin 4096 where
  toFun p := tileRow p.1 p.2
  invFun m := (⟨m.val / 1024, by have := m.isLt; omega⟩, ⟨m.val % 1024, by omega⟩)
  left_inv p := by
    obtain ⟨j, c⟩ := p
    have hj := j.isLt
    have hc := c.isLt
    apply Prod.ext <;> apply Fin.ext <;> simp only [tileRow] <;> omega
  right_inv m := by
    apply Fin.ext
    simp only [tileRow]
    omega

/-- The one-pass form does not see how its keys are named: along any bijection of key sets the maximum, the
    denominator and the weighted sum are unchanged. -/
theorem softAtt_comp_equiv {K K' : Type} [Fintype K] [Fintype K'] (e : K ≃ K') (s v : K' → EReal) :
    softAtt (fun k => s (e k)) (fun k => v (e k)) = softAtt s v := by
  unfold softAtt
  have hfold : Finset.univ.fold max ⊥ (fun k => s (e k)) = Finset.univ.fold max ⊥ s := by
    have h := Finset.fold_map (op := max) (b := (⊥ : EReal)) (f := s) (g := e.toEmbedding) (s := Finset.univ)
    rw [Finset.map_univ_equiv] at h
    rw [h]
    rfl
  rw [hfold]
  have hin : (∑ k', Ideal.exp (s (e k') - max ⊥ (Finset.univ.fold max ⊥ s)))
      = ∑ k', Ideal.exp (s k' - max ⊥ (Finset.univ.fold max ⊥ s)) :=
    Equiv.sum_comp e (fun k' => Ideal.exp (s k' - max ⊥ (Finset.univ.fold max ⊥ s)))
  rw [hin]
  exact Equiv.sum_comp e (fun k => Ideal.div (Ideal.exp (s k - max ⊥ (Finset.univ.fold max ⊥ s)))
    (0 + ∑ k', Ideal.exp (s k' - max ⊥ (Finset.univ.fold max ⊥ s))) * v k)

/-! ## The two result functions agree -/

/-- With every input entry a real number, the kernel's result at (b, n, h) is the reference's. -/
theorem GkAt_eq_GrAt (x : SX.Idx → EReal) (Wq Wk Wv : SW.Idx → EReal)
    (hx : ∀ i, ∃ r : ℝ, x i = (r : EReal)) (hq : ∀ i, ∃ r : ℝ, Wq i = (r : EReal))
    (hk : ∀ i, ∃ r : ℝ, Wk i = (r : EReal)) (hv : ∀ i, ∃ r : ℝ, Wv i = (r : EReal))
    (b : Fin 4) (n : Fin 4096) (h : Fin 128) :
    GkAt x Wq Wk Wv b n h = GrAt x Wq Wk Wv b n h := by
  choose xr hxr using hx
  choose qr hqr using hq
  choose kr hkr using hk
  choose vr hvr using hv
  obtain rfl : x = fun i => ((xr i : ℝ) : EReal) := funext hxr
  obtain rfl : Wq = fun i => ((qr i : ℝ) : EReal) := funext hqr
  obtain rfl : Wk = fun i => ((kr i : ℝ) : EReal) := funext hkr
  obtain rfl : Wv = fun i => ((vr i : ℝ) : EReal) := funext hvr
  unfold GkAt GrAt
  simp only [scoreK_coe, scoreR_coe, proj_coe]
  rw [← softAtt_comp_equiv tileEquiv]
  exact online4_eq_softAtt (fun j c => scoreReal xr qr kr b n (tileRow j c))
    (fun j c => ∑ d : Fin 1024, xr (ix3 b (tileRow j c) d) * vr (ix2 h d))

end Cert.Spec

end
-- ==== Proof.Finite.lean ====
/-
  The precondition read: where the printed finiteness predicate is all ones, every entry of every input array is a
  real number (no infinity), which is what the bridge between the two result functions needs.
-/
import proofs.«416957_j77120432767536_3_alg».proof.Defs
import proofs.«416957_j77120432767536_3_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.TcCoe Idealize.SL.Sem

/-- The f32 word 0x7F800000 is +∞. -/
theorem ofBits_pos_inf_f32 : Ideal.ofBits .f32 0x7F800000#32 = (⊤ : EReal) := by
  simp [Ideal.ofBits, Ideal.ieee]

/-- An extended real whose absolute value max(x, −x) compares strictly below +∞ is a real number: at −∞ and at +∞ the
    absolute value is +∞, which is not below itself. -/
theorem real_of_abs_lt_top (x : EReal)
    (hx : FloatOps.cmpf (F := Ideal) (φ := .f32) .olt (FloatOps.hostAbsf (F := Ideal) (φ := .f32) x)
            (FloatOps.ofBits (F := Ideal) .f32 0x7F800000#32) = 1#1) :
    ∃ r : ℝ, x = (r : EReal) := by
  rw [Ideal.cmpf_def, Ideal.hostAbsf_def, Ideal.absf_def, Ideal.ofBits_def, ofBits_pos_inf_f32] at hx
  induction x using EReal.rec with
  | bot => exact absurd hx (by simp [Ideal.cmp])
  | coe r => exact ⟨r, rfl⟩
  | top => exact absurd hx (by simp [Ideal.cmp])

/-- The scalar shape has one index. -/
instance : Subsingleton Cert.Pre_finite_inputs.S_.Idx := ⟨fun a b => funext fun d => d.elim0⟩

/-- One conjunct of the predicate, `all(|x| < +∞)` over an array of any shape, read back: every entry is real. -/
theorem all_real {s : Shape} {axes : List (Fin s.rank)} (x : FVec Ideal s .f32)
    (bc : Cert.Pre_finite_inputs.S_.BroadcastsInDim s (![] : Fin 0 → Fin s.rank))
    (rd : s.ReducesTo axes Cert.Pre_finite_inputs.S_) (hu : 0 < Cert.Pre_finite_inputs.S_.numel)
    (e : Host.reduce IntOp.andi
          (cmpf .olt (Host.absf x) (broadcastInDim s ![] bc (constant Cert.Pre_finite_inputs.S_ .f32 0x7F800000#32)))
          (constantI Cert.Pre_finite_inputs.S_ 1 1#1) rd hu ValueIdx.ix0 = 1#1) (i : s.Idx) :
    ∃ r : ℝ, x i = (r : EReal) :=
  real_of_abs_lt_top (x i) (Host.reduce_andi_all _ _ rd hu ValueIdx.ix0 e i)

/-- Under the precondition of the idealized kernel every input entry is real. -/
theorem reals_of_pre [hP : Cert.Pre_finite_inputs.Facts]
    (x0 : (⟨Cert.KernelIdeal.S4x4096x1024, .f32⟩ : BufTy).Contents (Elt Ideal))
    (x1 x2 x3 : (⟨Cert.KernelIdeal.S128x1024, .f32⟩ : BufTy).Contents (Elt Ideal))
    (h : Cert.Pre_finite_inputs.fn (F := Ideal) x0 x1 x2 x3 = (fun _ => 1#1)) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h1 := congrFun h ValueIdx.ix0
  unfold Cert.Pre_finite_inputs.fn Cert.Pre_finite_inputs.fn_part1 at h1
  dsimp only [andi] at h1
  obtain ⟨h012, e3⟩ := IntOp.andi_eq_one.1 h1
  obtain ⟨h01, e2⟩ := IntOp.andi_eq_one.1 h012
  obtain ⟨e0, e1⟩ := IntOp.andi_eq_one.1 h01
  exact ⟨all_real (s := Cert.Pre_finite_inputs.S4x4096x1024) x0 _ _ _ e0,
    all_real (s := Cert.Pre_finite_inputs.S128x1024) x1 _ _ _ e1,
    all_real (s := Cert.Pre_finite_inputs.S128x1024) x2 _ _ _ e2,
    all_real (s := Cert.Pre_finite_inputs.S128x1024) x3 _ _ _ e3⟩

end Cert.Finite

end
-- ==== Proof.lean ====
/-
  The proof of the certificate's claim: the attention kernel (a fused q | k | v projection, then attention over four
  key tiles with a running softmax) against the plain reference (three projections, scores scaled by 1/32, softmax,
  weights times values).

  Frames. Both printings of the kernel program run to the end, fault nowhere and leave the four argument arrays as
  launched: one run theorem, generic in the float instance (Proof/IdealRun.lean and its twin for the word-level
  program), follows the program item by item and ends with every unscoped buffer at a fold of the launch memory; no
  item writes an argument. The reference is a straight line of host operations: its generated run.

  Value. At the ideal values the kernel's result at (b, n, h) is the four-tile running softmax of the scores of query
  row n against the 4096 key rows, weighing value column h, with the scale 1/32 inside the query projection
  (Proof/KValue.lean, over Proof/KValueProj.lean and Proof/KValueFlash.lean); the reference's is the one-pass softmax
  with the scale on the finished score (Proof/RefValue.lean). The precondition makes every input entry a real number
  (Proof/Finite.lean), and over reals the two forms are one number (Proof/Bridge.lean over Proof/SpecSoftmax.lean):
  the scale commutes out of the sums, and exp (s − m) · exp (m − m') = exp (s − m') carries the running sums from one
  maximum to the next.

  The idealization rewrote nothing, so `preserves` is trivial.
-/
import proofs.«416957_j77120432767536_3_alg».proof.Defs
import proofs.«416957_j77120432767536_3_alg».proof.Proof.Gen.Kernel
import proofs.«416957_j77120432767536_3_alg».proof.Proof.Gen.KernelIdeal
import proofs.«416957_j77120432767536_3_alg».proof.Proof.Gen.ReferenceIdeal
import proofs.«416957_j77120432767536_3_alg».proof.Proof.Gen.ReferenceIdeal.Run
import proofs.«416957_j77120432767536_3_alg».proof.Proof.Gen.ReferenceIdeal.Read
import proofs.«416957_j77120432767536_3_alg».proof.Proof.Gen.Pre_finite_inputs
import proofs.«416957_j77120432767536_3_alg».proof.Proof.BitsRun
import proofs.«416957_j77120432767536_3_alg».proof.Proof.IdealRun
import proofs.«416957_j77120432767536_3_alg».proof.Proof.KValue
import proofs.«416957_j77120432767536_3_alg».proof.Proof.RefValue
import proofs.«416957_j77120432767536_3_alg».proof.Proof.Bridge
import proofs.«416957_j77120432767536_3_alg».proof.Proof.Finite
import Idealize.ShloMosaic.Adequacy
import Idealize.ShloMosaic.Init

noncomputable section

namespace Cert.Proof

open Idealize.ShloMosaic Idealize.SL.Sem Idealize.ShloMosaic.ValueIdx

/-- The word-level kernel program runs and leaves its arguments as launched. -/
theorem frame_k : Cert.frame_Kernel := fun m ρ _ => Cert.Kernel.Hand.frame m ρ

/-- The idealized kernel program runs and leaves its arguments as launched. -/
theorem frame_ki : Cert.frame_KernelIdeal := fun m ρ _ => Cert.KernelIdeal.Hand.frame m ρ

/-- The reference runs and leaves its arguments as launched: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values, from memories agreeing on the arguments, both programs run and end with one result array:
    the kernel's running softmax and the reference's one-pass softmax of the same real scores and values. -/
theorem algebraic : Cert.algebraic_KernelIdeal_ReferenceIdeal := by
  intro m ρ m' ρ' hpre hagree
  refine ⟨fun c => Cert.KernelIdeal.Hand.W4 m ρ c (Proc.devRef .tc Cert.KernelIdeal.main_v9), ?_, ?_⟩
  · exact (θ_run Cert.KernelIdeal.defs _ _).mono
      (fun r h c => ⟨h c _ (Cert.KernelIdeal.Hand.mem_uc Cert.KernelIdeal.main_v9 (by decide)), Cert.KernelIdeal.Hand.args_of_run m ρ h c⟩)
      (Cert.KernelIdeal.Hand.run_main m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v17_eq, (hagree c).1, (hagree c).2.1, (hagree c).2.2.1, (hagree c).2.2.2]
    obtain ⟨hx, hq, hk, hv⟩ := Cert.Finite.reals_of_pre _ _ _ _ (hpre c)
    funext i
    obtain ⟨b, n, h, rfl⟩ : ∃ (b : Fin 4) (n : Fin 4096) (h : Fin 128), i = ix3 b n h := ⟨i 0, i 1, i 2, eq_ix3 i⟩
    rw [Cert.ReferenceIdeal.RefValue.ref_at]
    exact ((Cert.Spec.GkAt_eq_GrAt _ _ _ _ hx hq hk hv b n h).symm.trans (Cert.KernelIdeal.Hand.kernel_val m ρ c b n h).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
